-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg8 : FVec F S64 .f32) (main_arg16 : FVec F S64 .f32) (main_arg20 : FVec F S10 .f32) (main_v83 : IVec S_ 1) (main_v84 : FVec F S64x10 .f32) (main_cst_32 : FVec F S_ .f32) : IVec S_ 1 :=
  let main_v85 : FVec F S64x10 .f32 := broadcastInDim S64x10 ![] bcast_S_S64x10 main_cst_32
  let main_v86 : IVec S64x10 1 := cmpf .olt main_v84 main_v85
  let main_c_33 : IVec S_ 1 := constantI S_ 1 1#1
  let main_v87 : IVec S_ 1 := (fun x v => Host.reduce IntOp.andi x v reducesTo_S64x10_S_d0_1 h_S_) main_v86 main_c_33
  let main_v88 : IVec S_ 1 := andi main_v83 main_v87
  let main_v89 : FVec F S10 .f32 := Host.absf main_arg20
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_cst_36 : FVec F S_ .f32 := constant S_ .f32 0x00000000#32
  let main_v94 : FVec F S64 .f32 := broadcastInDim S64 ![] bcast_S_S64 main_cst_36
  let main_v95 : IVec S64 1 := cmpf .oge main_arg8 main_v94
  let main_c_37 : IVec S_ 1 := constantI S_ 1 1#1
  let main_v96 : IVec S_ 1 := (fun x v => Host.reduce IntOp.andi x v reducesTo_S64_S_d0 h_S_) main_v95 main_c_37
  let main_v97 : IVec S_ 1 := andi main_v93 main_v96
  let main_cst_38 : FVec F S_ .f32 := constant S_ .f32 0x00000000#32
  let main_v98 : FVec F S64 .f32 := broadcastInDim S64 ![] bcast_S_S64 main_cst_38
  let main_v99 : IVec S64 1 := cmpf .oge main_arg16 main_v98
  let main_c_39 : IVec S_ 1 := constantI S_ 1 1#1
  let main_v100 : IVec S_ 1 := (fun x v => Host.reduce IntOp.andi x v reducesTo_S64_S_d0 h_S_) main_v99 main_c_39
  let main_v101 : IVec S_ 1 := andi main_v97 main_v100
  main_v101

def fn_part4 {F : FTy → Type} [FloatOps F] (main_arg8 : FVec F S64 .f32) (main_arg16 : FVec F S64 .f32) (main_arg17 : FVec F S64x64 .f32) (main_arg18 : FVec F S64 .f32) (main_arg19 : FVec F S64x10 .f32) (main_arg20 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x10 .f32 := Host.absf main_arg19
  let main_cst_32 : FVec F S_ .f32 := constant S_ .f32 0x7F800000#32
  fn_part5 (F := F) main_arg8 main_arg16 main_arg20 main_v83 main_v84 main_cst_32

def fn_part3 {F : FTy → Type} [FloatOps F] (main_arg8 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x10 .f32) (main_arg20 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg8 main_arg16 main_arg17 main_arg18 main_arg19 main_arg20 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x10 .f32) (main_arg20 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg8 main_arg13 main_arg14 main_arg15 main_arg16 main_arg17 main_arg18 main_arg19 main_arg20 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x10 .f32) (main_arg20 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x64 .f32) (main_arg1 : IVec S2x1000000 32) (main_arg2 : IVec S100000 32) (main_arg3 : FVec F S64x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x10 .f32) (main_arg20 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S100000x1 : Shape := ⟨2, ![100000, 1]⟩
abbrev S1x10 : Shape := ⟨2, ![1, 10]⟩
abbrev S512x10 : Shape := ⟨2, ![512, 10]⟩
abbrev S10000x64 : Shape := ⟨2, ![10000, 64]⟩
abbrev S10000x1 : Shape := ⟨2, ![10000, 1]⟩
abbrev S512x64 : Shape := ⟨2, ![512, 64]⟩
abbrev S512x1 : Shape := ⟨2, ![512, 1]⟩
abbrev S10000x512 : Shape := ⟨2, ![10000, 512]⟩
abbrev S512 : Shape := ⟨1, ![512]⟩
abbrev S1x512 : Shape := ⟨2, ![1, 512]⟩

abbrev nBuf : Space → Nat
  | .hbm => 77
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x10, .f32⟩
  | .hbm, ⟨20, _⟩ => ⟨S10, .f32⟩
  | .hbm, ⟨21, _⟩ => ⟨S1x1000000, .i32⟩
  | .hbm, ⟨22, _⟩ => ⟨S1000000, .i32⟩
  | .hbm, ⟨23, _⟩ => ⟨S1x1000000, .i32⟩
  | .hbm, ⟨24, _⟩ => ⟨S1000000, .i32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x64, .f32⟩
  | .hbm, ⟨48, _⟩ => ⟨S_, .f32⟩
  | .hbm, ⟨49, _⟩ => ⟨S100000x64, .f32⟩
  | .hbm, ⟨50, _⟩ => ⟨S1000000x1, .i32⟩
  | .hbm, ⟨51, _⟩ => ⟨S100000x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000000x64, .f32⟩
  | .hbm, ⟨66, _⟩ => ⟨S_, .f32⟩
  | .hbm, ⟨67, _⟩ => ⟨S100000x64, .f32⟩
  | .hbm, ⟨68, _⟩ => ⟨S1000000x1, .i32⟩
  | .hbm, ⟨69, _⟩ => ⟨S100000x64, .f32⟩
  | .hbm, ⟨70, _⟩ => ⟨S100000x1, .i32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x10, .f32⟩
  | .hbm, ⟨76, _⟩ => ⟨S512x10, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .i32⟩
  | .local _ .vmem, ⟨17, _⟩ => ⟨S10000x1, .i32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x10, .f32⟩
  | .local _ .vmem, ⟨25, _⟩ => ⟨S1x10, .f32⟩
  | .local _ .vmem, ⟨26, _⟩ => ⟨S512x10, .f32⟩
  | .local _ .vmem, ⟨27, _⟩ => ⟨S512x64, .f32⟩
  | .local _ .vmem, ⟨28, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_cst : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_cst_0 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_c : Ref sig .tc := ⟨.hbm, 39, rfl⟩
abbrev main_call0_v16 : Ref sig .tc := ⟨.hbm, 40, rfl⟩
abbrev main_call0_v17 : Ref sig .tc := ⟨.hbm, 41, rfl⟩
abbrev main_call0_c_1 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_cst_2 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_c_3 : Ref sig .tc := ⟨.hbm, 57, rfl⟩
abbrev main_call0_v31 : Ref sig .tc := ⟨.hbm, 58, rfl⟩
abbrev main_call0_v32 : Ref sig .tc := ⟨.hbm, 59, rfl⟩
abbrev main_call0_c_4 : Ref sig .tc := ⟨.hbm, 60, rfl⟩
abbrev main_call0_v33 : Ref sig .tc := ⟨.hbm, 61, rfl⟩
abbrev main_call0_v34 : Ref sig .tc := ⟨.hbm, 62, rfl⟩
abbrev main_call0_v35 : Ref sig .tc := ⟨.hbm, 63, rfl⟩
abbrev main_call0_v36 : Ref sig .tc := ⟨.hbm, 64, rfl⟩
abbrev main_call0_v37 : Ref sig .tc := ⟨.hbm, 65, rfl⟩
abbrev main_call0_cst_5 : Ref sig .tc := ⟨.hbm, 66, rfl⟩
abbrev main_call0_v38 : Ref sig .tc := ⟨.hbm, 67, rfl⟩
abbrev main_call0_v39 : Ref sig .tc := ⟨.hbm, 68, rfl⟩
abbrev main_call0_v40 : Ref sig .tc := ⟨.hbm, 69, rfl⟩
abbrev main_call0_v41 : Ref sig .tc := ⟨.hbm, 70, rfl⟩
abbrev main_call0_v42 : Ref sig .tc := ⟨.hbm, 71, rfl⟩
abbrev main_call0_v43 : Ref sig .tc := ⟨.hbm, 72, rfl⟩
abbrev main_call0_v44 : Ref sig .tc := ⟨.hbm, 73, rfl⟩
abbrev main_call0_v45 : Ref sig .tc := ⟨.hbm, 74, rfl⟩
abbrev main_call0_v46 : Ref sig .tc := ⟨.hbm, 75, rfl⟩
abbrev main_v0 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v51 : BitVec 1 := Scalar.cmpi .eq arg0 c9_i32
  let v52 : BitVec 32 := Scalar.extui v51
  let c0_i32_30 : BitVec 32 := 0#32
  let v53 : BitVec 1 := Scalar.cmpi .ne v52 c0_i32_30
  v53

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x10 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S64 : S_.BroadcastsInDim S64 (![] : Fin 0 → Fin S64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  shapeCasts_S10_S1x10 : S10.ShapeCasts S1x10
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S10000x512_d1_w32 : S10000x512.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x512 : S10000x1.Broadcasts S10000x512
  natLt_1_32 : 1 < 32
  reduces_S10000x512_S512 : S10000x512.Reduces [0] S512
  shapeCasts_S512_S1x512 : S512.ShapeCasts S1x512
  transposes_S1x512_p1_0_S512x1 : S1x512.Transposes [1, 0] S512x1
  broadcasts_S512x1_S512x64 : S512x1.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S10000x512_S10000x64_S512x64_0_0_1_1_n_n_wf : DotDims.WF S10000x512 S10000x64 S512x64 [0] [0] [1] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x64.size a ≤ S100000x64.size a
  hwx0_8 : ∀ i : grid0.Coords, EltTy.bits .f32 = 32 ∨ (Rect.block (s := S100000x64) S10000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .i32 = 32 ∨ (Rect.block (s := S100000x1) S10000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x10.size a ≤ S64x10.size a
  hwx1_9 : ∀ i : grid1.Coords, EltTy.bits .f32 = 32 ∨ (Rect.block (s := S64x10) S64x10.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x10.size a ≤ S1x10.size a
  hwx1_10 : ∀ i : grid1.Coords, EltTy.bits .f32 = 32 ∨ (Rect.block (s := S1x10) S1x10.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512x10.size a ≤ S512x10.size a
  hwx1_11 : ∀ i : grid1.Coords, EltTy.bits .f32 = 32 ∨ (Rect.block (s := S512x10) S512x10.size (cc1_transform_11 i) (hinb1_11 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x512_S10000x64_S512x64_0_0_1_1_n_n : DotDims S10000x512 S10000x64 S512x64 where
  lhsContracting := [0]
  rhsContracting := [0]
  lhsNonContracting := [1]
  rhsNonContracting := [1]
  lhsBatch := []
  rhsBatch := []
  wf := dot_S10000x512_S10000x64_S512x64_0_0_1_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v25) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v28) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v29) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v30) S10000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_call0_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v40) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v44) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v45) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg19) S64x10.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_call0_v46) S1x10.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v0) S512x10.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | ⟨_ + 12, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S64x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x64, .f32⟩
  | 18 => ⟨S64, .f32⟩
  | 19 => ⟨S64x10, .f32⟩
  | 20 => ⟨S10, .f32⟩
  | 21 => ⟨S1x1000000, .i32⟩
  | 22 => ⟨S1000000, .i32⟩
  | 23 => ⟨S1x1000000, .i32⟩
  | 24 => ⟨S1000000, .i32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S_, .f32⟩
  | 35 => ⟨S100000x64, .f32⟩
  | 36 => ⟨S1000000x1, .i32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S64, .f32⟩
  | 48 => ⟨S64, .f32⟩
  | 49 => ⟨S64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x64, .f32⟩
  | 78 => ⟨S_, .f32⟩
  | 79 => ⟨S100000x64, .f32⟩
  | 80 => ⟨S1000000x1, .i32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S64, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S512x64, .f32⟩
  | 112 => ⟨S100000x1, .i32⟩
  | 113 => ⟨S512x64, .f32⟩
  | 114 => ⟨S_, .f32⟩
  | 115 => ⟨S100000, .f32⟩
  | 116 => ⟨S_, .f32⟩
  | 117 => ⟨S512, .f32⟩
  | 118 => ⟨S100000x1, .i32⟩
  | 119 => ⟨S512, .f32⟩
  | 120 => ⟨S_, .f32⟩
  | 121 => ⟨S512, .f32⟩
  | 122 => ⟨S512, .f32⟩
  | 123 => ⟨S512x1, .f32⟩
  | 124 => ⟨S512x64, .f32⟩
  | 125 => ⟨S512x64, .f32⟩
  | 126 => ⟨S512x10, .f32⟩
  | 127 => ⟨S1x10, .f32⟩
  | _ => ⟨S100000x64, .f32⟩

abbrev hbmTy0_1 (i : Nat) : BufTy := match i % 128 with
  | 0 => ⟨S512x10, .f32⟩
  | 1 => ⟨S512x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_1 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call0_cst : Ref sig .tc := ⟨.hbm, 59, rfl⟩
abbrev main_call0_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_cst : Ref sig .tc := ⟨.hbm, 66, rfl⟩
abbrev main_call1_v0 : Ref sig .tc := ⟨.hbm, 67, rfl⟩
abbrev main_v39 : Ref sig .tc := ⟨.hbm, 68, rfl⟩
abbrev main_c_2 : Ref sig .tc := ⟨.hbm, 69, rfl⟩
abbrev main_v40 : Ref sig .tc := ⟨.hbm, 70, rfl⟩
abbrev main_v41 : Ref sig .tc := ⟨.hbm, 71, rfl⟩
abbrev main_c_3 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_4 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_5 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call2_cst : Ref sig .tc := ⟨.hbm, 103, rfl⟩
abbrev main_call2_v0 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_6 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_7 : Ref sig .tc := ⟨.hbm, 114, rfl⟩
abbrev main_v78 : Ref sig .tc := ⟨.hbm, 115, rfl⟩
abbrev main_cst_8 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_9 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.Hand.Body0.lean ====
/-
  The first kernel region (the fused Linear, BatchNorm scale and shift, ReLU, Linear, ReLU block over a tile of 10000 nodes),
  entered with the core's buffers at contents `V`: what each window's staging buffer holds at a grid point, what the body
  leaves in the output tile, and the body's triple at every point.
-/
import proofs.«417148_j34376918237439_2_alg».proof.Proof.Patched.KernelIdeal.Launch
import proofs.«417148_j34376918237439_2_alg».proof.Proof.Gen.KernelIdeal.Skeleton
import proofs.«417148_j34376918237439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rTile : Rect S10000x64 := Rect.unit (s := S10000x64) ![0, 0] S10000x64.size inb_S10000x64_S10000x64_0_0
abbrev rSq : Rect S64x64 := Rect.unit (s := S64x64) ![0, 0] S64x64.size inb_S64x64_S64x64_0_0
abbrev rRow : Rect S1x64 := Rect.unit (s := S1x64) ![0, 0] S1x64.size inb_S1x64_S1x64_0_0

/-- The output tile after the body, from the eight input blocks: its one whole-tile store. -/
def out0_8 (x0 x1 : Vec F S10000x64 .f32) (x2 : Vec F S64x64 .f32) (x3 x4 x5 : Vec F S1x64 .f32) (x6 : Vec F S64x64 .f32) (x7 : Vec F S1x64 .f32) :
    Vec F S10000x64 .f32 :=
  View.canon [⟨rTile, k0_pay1 (View.ld x0 rTile) (View.ld x1 rTile) (View.ld x2 rSq) (View.ld x3 rRow) (View.ld x4 rRow) (View.ld x5 rRow) (View.ld x6 rSq) (View.ld x7 rRow)⟩]

/-- The proof data of the first pipeline on core `c`: arrays as entered; each input's buffer at its block; the output's at
    `out0_8` of the input blocks; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by
  dsimp only [dat0]

/-! ## What the body leaves in each input window: the block it found -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]

/-! ## What the body finds in each input window: its block at the point

The node tiles (windows 0 and 1) are fetched at every point. The weights and the row vectors (windows 2 to 7) have a
constant block index: they are fetched at the first point only, and at a later point the buffer still holds what the
body left at the point before, which is the same block since the index has not moved. No window is cut by its array's
edge (10 tiles of 10000 rows tile the 100000 rows), so a fetch fills the whole buffer with the block. -/

/-- The block the fetch of window `w` reads at point `t`, in the proof data's own spelling, is `iblk0`. -/
theorem blockOf0 (c : Dev nD) (w : Fin cfg0.W) (t : Fin cfg0.N) : (dat0 V c).blockOf w t = iblk0 V c w t := by
  unfold Dat.blockOf iblk0; rw [A_eq0]

theorem before0_0 (c : Dev nD) (t : Fin cfg0.N) (d) : (dat0 V c).before 0 t d = iblk0 V c 0 t := by
  rw [(dat0 V c).before_in_eq_fetched 0 rfl (fun _ => rfl) (fun _ _ _ => rfl) (fun s => by rw [after0_0, blockOf0]) t d]
  unfold Dat.fetched; rw [blockOf0]; rfl
theorem before0_1 (c : Dev nD) (t : Fin cfg0.N) (d) : (dat0 V c).before 1 t d = iblk0 V c 1 t := by
  rw [(dat0 V c).before_in_eq_fetched 1 rfl (fun _ => rfl) (fun _ _ _ => rfl) (fun s => by rw [after0_1, blockOf0]) t d]
  unfold Dat.fetched; rw [blockOf0]; rfl
theorem before0_2 (c : Dev nD) (t : Fin cfg0.N) (d) : (dat0 V c).before 2 t d = iblk0 V c 2 t := by
  rw [(dat0 V c).before_in_eq_fetched 2 rfl (fun _ => rfl) (fun _ _ _ => rfl) (fun s => by rw [after0_2, blockOf0]) t d]
  unfold Dat.fetched; rw [blockOf0]; rfl
theorem before0_3 (c : Dev nD) (t : Fin cfg0.N) (d) : (dat0 V c).before 3 t d = iblk0 V c 3 t := by
  rw [(dat0 V c).before_in_eq_fetched 3 rfl (fun _ => rfl) (fun _ _ _ => rfl) (fun s => by rw [after0_3, blockOf0]) t d]
  unfold Dat.fetched; rw [blockOf0]; rfl
theorem before0_4 (c : Dev nD) (t : Fin cfg0.N) (d) : (dat0 V c).before 4 t d = iblk0 V c 4 t := by
  rw [(dat0 V c).before_in_eq_fetched 4 rfl (fun _ => rfl) (fun _ _ _ => rfl) (fun s => by rw [after0_4, blockOf0]) t d]
  unfold Dat.fetched; rw [blockOf0]; rfl
theorem before0_5 (c : Dev nD) (t : Fin cfg0.N) (d) : (dat0 V c).before 5 t d = iblk0 V c 5 t := by
  rw [(dat0 V c).before_in_eq_fetched 5 rfl (fun _ => rfl) (fun _ _ _ => rfl) (fun s => by rw [after0_5, blockOf0]) t d]
  unfold Dat.fetched; rw [blockOf0]; rfl
theorem before0_6 (c : Dev nD) (t : Fin cfg0.N) (d) : (dat0 V c).before 6 t d = iblk0 V c 6 t := by
  rw [(dat0 V c).before_in_eq_fetched 6 rfl (fun _ => rfl) (fun _ _ _ => rfl) (fun s => by rw [after0_6, blockOf0]) t d]
  unfold Dat.fetched; rw [blockOf0]; rfl
theorem before0_7 (c : Dev nD) (t : Fin cfg0.N) (d) : (dat0 V c).before 7 t d = iblk0 V c 7 t := by
  rw [(dat0 V c).before_in_eq_fetched 7 rfl (fun _ => rfl) (fun _ _ _ => rfl) (fun s => by rw [after0_7, blockOf0]) t d]
  unfold Dat.fetched; rw [blockOf0]; rfl

/-! ## The body's one store fills its buffer -/

/-- The whole-tile rectangle holds every index of the tile, whatever is stored through it. -/
theorem cover0_8 (p : Vec F S10000x64 .f32) (y : S10000x64.Idx) :
    ∃ pc ∈ ([⟨rTile, p⟩] : List (View.Piece (Elt F) S10000x64 .f32)), y ∈ pc.1.set :=
  View.cover_of_tiled [⟨rTile, p⟩] S10000x64.size (by rfl) y

/-! ## The body's triple -/

set_option maxHeartbeats 1000000 in
/-- The body on nine whole staging memrefs, the eight inputs' reading `x0 … x7` and the output's at anything: it loads
    all nine whole, stores the payload of the eight loaded inputs over the whole output tile, and so reaches any
    continuation that takes the inputs as they were and the output at `out0_8` of them. The value it loaded from the
    output buffer is dropped. -/
theorem sound_kernel0 (c : Dev nD) (E : Set ℕ) (i : grid0.Coords) (a0 : Memref sig .tc .vmem S10000x64 .f32) (h0 : a0.IsWhole) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S10000x64 .f32) (h8 : a8.IsWhole)
    (x0 x1 : Vec F S10000x64 .f32) (x2 : Vec F S64x64 .f32) (x3 x4 x5 : Vec F S1x64 .f32) (x6 : Vec F S64x64 .f32) (x7 : Vec F S1x64 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out0_8 x0 x1 x2 x3 x4 x5 x6 x7)) -∗ K ⟨⟩))
      ⊢ wp frame (wpE (defs₀ (F := F)) Variants.none c none) E (cc0_kernel i a0 h0 a1 h1 a2 h2 a3 h3 a4 h4 a5 h5 a6 h6 a7 h7 a8 h8) K := by
  simp only [cc0_kernel_eq_skeleton]; unfold cc0_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e0 e1 e2 e3 e4 e5 e6 e7
  -- the nine loads and the store, run symbolically: the output's cells end at the one write over what they held
  sl_exec
  sl_step
  iapply Hk
  -- each input's cells were only read
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  -- the output's cells: the whole-tile write covers them, so they read as the canonical contents of that one piece
  iexists _; isplitr
  swap
  · iexact H8
  ipureintro
  exact View.read_writes_eq_canon _ _ _ (cover0_8 _)

/-! ## The body obligation at a generic point -/

/-- What the pipeline hands the body at point `t`: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What the body hands back: the same invariant and debts, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: every input buffer holds its block (`before0_w`), the output buffer holds something, so the
    kernel's triple applies at the eight blocks; the invariant and the debts are not touched and do not depend on the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the first region at every grid point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.Hand.Body1.lean ====
/-
  The second kernel region (the second Linear, BatchNorm scale and shift, ReLU, Linear block over a tile of 10000 nodes, the
  one-hot pooling of the tile into per-graph sums and counts kept in two scratch buffers across the ten grid points, and at
  the last point the mean, the classifier product and its bias), entered with the core's buffers at contents `V`:
  what the scratch buffers hold after each point, what the body leaves in the output block, the invariant between points,
  and the body's triple at every point.
-/
import proofs.«417148_j34376918237439_2_alg».proof.Proof.Patched.KernelIdeal.Launch
import proofs.«417148_j34376918237439_2_alg».proof.Proof.Gen.KernelIdeal.Skeleton
import proofs.«417148_j34376918237439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's node features after the second block's two linear maps (no final ReLU), from the tile's blocks. -/
def h2blk (c : Dev nD) (t : Fin cfg1.N) : FVec F S10000x64 .f32 :=
  k1_pay7 (iblk1 V c 0 t) (iblk1 V c 1 t) (iblk1 V c 3 t) (iblk1 V c 4 t) (iblk1 V c 5 t) (iblk1 V c 6 t) (iblk1 V c 7 t) (iblk1 V c 8 t)

/-- The tile's one-hot mask: node `r` of the tile against graph id `g`. -/
def ohblk (c : Dev nD) (t : Fin cfg1.N) : IVec S10000x512 1 :=
  k1_pay8 (F := F) (iblk1 V c 2 t)

/-- The per-graph sums and counts the two scratch buffers hold after grid point `n`: zero before the first tile, then
    each tile's one-hot product and column sums added on. -/
def accAt1 (c : Dev nD) : (n : ℕ) → n < cfg1.N → Vec F S512x64 .f32 × Vec F S512x1 .f32
  | 0, hn => (k1_pay2 (h2blk V c ⟨0, hn⟩) (ohblk V c ⟨0, hn⟩) (k1_pay5 (F := F)), k1_pay3 (ohblk V c ⟨0, hn⟩) (k1_pay6 (F := F)))
  | n + 1, hn => (k1_pay2 (h2blk V c ⟨n + 1, hn⟩) (ohblk V c ⟨n + 1, hn⟩) (accAt1 c n (Nat.lt_of_succ_lt hn)).1,
      k1_pay3 (ohblk V c ⟨n + 1, hn⟩) (accAt1 c n (Nat.lt_of_succ_lt hn)).2)

/-- The output block from the scratch contents after point `t`: mean, classifier product, bias. -/
def out1_11 (c : Dev nD) (t : Fin cfg1.N) : Vec F S512x10 .f32 :=
  k1_pay4 (accAt1 V c t.val t.isLt).1 (accAt1 V c t.val t.isLt).2 (iblk1 V c 9 t) (iblk1 V c 10 t)

/-- The two scratch buffers as whole memrefs. -/
abbrev scSums : Memref sig .tc .vmem S512x64 .f32 := Memref.whole cc1_scratch0
abbrev scCnts : Memref sig .tc .vmem S512x1 .f32 := Memref.whole cc1_scratch1

/-- The invariant before grid position `n`: before the first point every scoped buffer that is no staging buffer of this
    region at some contents; afterwards the two scratch buffers at the sums and counts the point before left, the other
    such buffers at some contents; the generator register at some state throughout. -/
def Phi1 (c : Dev nD) : (n : ℕ) → n ≤ cfg1.N → sProp 𝕄
  | 0, _ => Pipeline.ΦA spec1 c
  | n + 1, hn => iprop(owns (c : Thread nD τ) scSums fullShare (accAt1 V c n hn).1
      ∗ owns (c : Thread nD τ) scCnts fullShare (accAt1 V c n hn).2
      ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f)
      ∗ ∃ r, prngReg c r)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_11 (c : Dev nD) (t : Fin cfg1.N) : (dat1 V c).after 11 t = out1_11 V c t := by
  dsimp only [dat1]

/-- Before the first point the invariant is the class's: every scratch at some contents. -/
theorem Phi1_first (c : Dev nD) : (dat1 V c).Φ 0 = Pipeline.ΦA spec1 c := rfl

/-! ## The two branch conditions over the grid -/

/-- The reset branch's condition as the body computes it from the grid coordinate: "this is point 0". -/
abbrev isFirst1 (i : grid1.Coords) : Prop :=
  (Scalar.cmpi .ne (Scalar.extui (Scalar.cmpi .eq (BitVec.ofNat 32 (i 0).val) 0#32)) 0#32) = 1#1

/-- The finishing branch's condition: "this is point 9". -/
abbrev isLast1 (i : grid1.Coords) : Prop := k1_cond2 i = 1#1

theorem isFirst1_iff : ∀ t : Fin cfg1.N, isFirst1 (grid1.coords t) ↔ t.val = 0 :=
  (by decide +kernel : ∀ t : Fin grid1.N, isFirst1 (grid1.coords t) ↔ t.val = 0)

theorem isLast1_iff : ∀ t : Fin cfg1.N, isLast1 (grid1.coords t) ↔ t.val = 9 :=
  (by decide +kernel : ∀ t : Fin grid1.N, isLast1 (grid1.coords t) ↔ t.val = 9)

/-- The output window is idle exactly off the last point, and written back only there. -/
theorem idle1_11_of_not_last : ∀ t : Fin cfg1.N, ¬isLast1 (grid1.coords t) → cfg1.idle 11 (grid1.coords t) = true := by decide +kernel
theorem live1_11_of_last : ∀ t : Fin cfg1.N, isLast1 (grid1.coords t) → cfg1.idle 11 (grid1.coords t) = false := by decide +kernel
theorem noFlush1_11_of_not_last : ∀ t : Fin cfg1.N, ¬isLast1 (grid1.coords t) → (cfg1.win 11).flush t = false := by decide +kernel

/-! ## Whole-buffer accesses -/

theorem zero2 : (![0, 0] : Fin 2 → Nat) = fun _ => 0 := funext fun a => by fin_cases a <;> rfl

/-- After a list of stores whose last goes through the whole-buffer rectangle, the buffer reads as that store's payload. -/
theorem read_last_whole {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's triple, in its three control cases -/

/-- The eleven input operands owned at given contents. -/
def insAt (c : Dev nD)
    (arg1 arg2 : Memref sig .tc .vmem S10000x64 .f32) (arg3 : Memref sig .tc .vmem S10000x1 .i32) (arg4 : Memref sig .tc .vmem S64x64 .f32)
    (arg5 arg6 arg7 : Memref sig .tc .vmem S1x64 .f32) (arg8 : Memref sig .tc .vmem S64x64 .f32) (arg9 : Memref sig .tc .vmem S1x64 .f32)
    (arg10 : Memref sig .tc .vmem S64x10 .f32) (arg11 : Memref sig .tc .vmem S1x10 .f32)
    (x0 x1 : Vec F S10000x64 .f32) (x2 : Vec F S10000x1 .i32) (x3 : Vec F S64x64 .f32) (x4 x5 x6 : Vec F S1x64 .f32)
    (x7 : Vec F S64x64 .f32) (x8 : Vec F S1x64 .f32) (x9 : Vec F S64x10 .f32) (x10 : Vec F S1x10 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6 ∗ owns (c : Thread nD τ) arg8 fullShare x7 ∗ owns (c : Thread nD τ) arg9 fullShare x8
    ∗ owns (c : Thread nD τ) arg10 fullShare x9 ∗ owns (c : Thread nD τ) arg11 fullShare x10)

set_option maxHeartbeats 1000000 in
/-- The first point (reset branch taken, finishing branch not): whatever the scratch buffers held, they are zeroed and the
    tile's product and column sums added; the output block is untouched. -/
theorem kernel1_first (c : Dev nD) (E : Set ℕ) (i : grid1.Coords) (hF : isFirst1 i) (hL : ¬isLast1 i)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S64x64 .f32) (harg8 : arg8.IsWhole)
    (arg9 : Memref sig .tc .vmem S1x64 .f32) (harg9 : arg9.IsWhole) (arg10 : Memref sig .tc .vmem S64x10 .f32) (harg10 : arg10.IsWhole)
    (arg11 : Memref sig .tc .vmem S1x10 .f32) (harg11 : arg11.IsWhole) (arg12 : Memref sig .tc .vmem S512x10 .f32) (harg12 : arg12.IsWhole)
    (arg13 : Memref sig .tc .vmem S512x64 .f32) (harg13 : arg13.IsWhole) (arg14 : Memref sig .tc .vmem S512x1 .f32) (harg14 : arg14.IsWhole)
    (x0 x1 : Vec F S10000x64 .f32) (x2 : Vec F S10000x1 .i32) (x3 : Vec F S64x64 .f32) (x4 x5 x6 : Vec F S1x64 .f32)
    (x7 : Vec F S64x64 .f32) (x8 : Vec F S1x64 .f32) (x9 : Vec F S64x10 .f32) (x10 : Vec F S1x10 .f32) (xo : Vec F S512x10 .f32) (K : PUnit → sProp 𝕄) :
    iprop(insAt c arg1 arg2 arg3 arg4 arg5 arg6 arg7 arg8 arg9 arg10 arg11 x0 x1 x2 x3 x4 x5 x6 x7 x8 x9 x10
        ∗ owns (c : Thread nD τ) arg12 fullShare xo ∗ (∃ d, owns (c : Thread nD τ) arg13 fullShare d) ∗ (∃ d, owns (c : Thread nD τ) arg14 fullShare d)
        ∗ (iprop(insAt c arg1 arg2 arg3 arg4 arg5 arg6 arg7 arg8 arg9 arg10 arg11 x0 x1 x2 x3 x4 x5 x6 x7 x8 x9 x10
            ∗ owns (c : Thread nD τ) arg12 fullShare xo
            ∗ owns (c : Thread nD τ) arg13 fullShare (k1_pay2 (k1_pay7 x0 x1 x3 x4 x5 x6 x7 x8) (k1_pay8 (F := F) x2) (k1_pay5 (F := F))) ∗ owns (c : Thread nD τ) arg14 fullShare (k1_pay3 (k1_pay8 (F := F) x2) (k1_pay6 (F := F)))) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_kernel_eq_skeleton]; unfold cc1_kernel_skel
  simp only [k1_part1_eq_skeleton]; unfold k1_part1_skel
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%fo, %hfo, Ho⟩, ⟨%d13, %g0, -, HS0⟩, ⟨%d14, %g1, -, HS1⟩, Hk⟩
  subst hf0 hf1 hf2 hf3 hf4 hf5 hf6 hf7 hf8 hf9 hf10 hfo
  sl_exec (disch := first | exact hF | exact hL)
  sl_step
  iapply Hk
  isplitl [H0 H1 H2 H3 H4 H5 H6 H7 H8 H9 H10]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    iexists f10; isplitr; · ipureintro; rfl
    iexact H10
  isplitl [Ho]; · iexists fo; isplitr; · ipureintro; rfl
                  iexact Ho
  isplitl [HS0]
  · iexists _; isplitr
    swap; · iexact HS0
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]
  · iexists _; isplitr
    swap; · iexact HS1
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]

set_option maxHeartbeats 1000000 in
/-- A middle point (neither branch taken): the sums and counts found are added to; the output block is untouched. -/
theorem kernel1_mid (c : Dev nD) (E : Set ℕ) (i : grid1.Coords) (hF : ¬isFirst1 i) (hL : ¬isLast1 i)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S64x64 .f32) (harg8 : arg8.IsWhole)
    (arg9 : Memref sig .tc .vmem S1x64 .f32) (harg9 : arg9.IsWhole) (arg10 : Memref sig .tc .vmem S64x10 .f32) (harg10 : arg10.IsWhole)
    (arg11 : Memref sig .tc .vmem S1x10 .f32) (harg11 : arg11.IsWhole) (arg12 : Memref sig .tc .vmem S512x10 .f32) (harg12 : arg12.IsWhole)
    (arg13 : Memref sig .tc .vmem S512x64 .f32) (harg13 : arg13.IsWhole) (arg14 : Memref sig .tc .vmem S512x1 .f32) (harg14 : arg14.IsWhole)
    (x0 x1 : Vec F S10000x64 .f32) (x2 : Vec F S10000x1 .i32) (x3 : Vec F S64x64 .f32) (x4 x5 x6 : Vec F S1x64 .f32)
    (x7 : Vec F S64x64 .f32) (x8 : Vec F S1x64 .f32) (x9 : Vec F S64x10 .f32) (x10 : Vec F S1x10 .f32) (xo : Vec F S512x10 .f32) (s0 : Vec F S512x64 .f32) (s1 : Vec F S512x1 .f32) (K : PUnit → sProp 𝕄) :
    iprop(insAt c arg1 arg2 arg3 arg4 arg5 arg6 arg7 arg8 arg9 arg10 arg11 x0 x1 x2 x3 x4 x5 x6 x7 x8 x9 x10
        ∗ owns (c : Thread nD τ) arg12 fullShare xo ∗ owns (c : Thread nD τ) arg13 fullShare s0 ∗ owns (c : Thread nD τ) arg14 fullShare s1
        ∗ (iprop(insAt c arg1 arg2 arg3 arg4 arg5 arg6 arg7 arg8 arg9 arg10 arg11 x0 x1 x2 x3 x4 x5 x6 x7 x8 x9 x10
            ∗ owns (c : Thread nD τ) arg12 fullShare xo
            ∗ owns (c : Thread nD τ) arg13 fullShare (k1_pay2 (k1_pay7 x0 x1 x3 x4 x5 x6 x7 x8) (k1_pay8 (F := F) x2) s0) ∗ owns (c : Thread nD τ) arg14 fullShare (k1_pay3 (k1_pay8 (F := F) x2) s1)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_kernel_eq_skeleton]; unfold cc1_kernel_skel
  simp only [k1_part1_eq_skeleton]; unfold k1_part1_skel
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%fo, %hfo, Ho⟩, ⟨%g0, %hg0, HS0⟩, ⟨%g1, %hg1, HS1⟩, Hk⟩
  subst hf0 hf1 hf2 hf3 hf4 hf5 hf6 hf7 hf8 hf9 hf10 hfo hg0 hg1
  sl_exec (disch := first | exact hF | exact hL)
  sl_step
  iapply Hk
  isplitl [H0 H1 H2 H3 H4 H5 H6 H7 H8 H9 H10]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    iexists f10; isplitr; · ipureintro; rfl
    iexact H10
  isplitl [Ho]; · iexists fo; isplitr; · ipureintro; rfl
                  iexact Ho
  isplitl [HS0]
  · iexists _; isplitr
    swap; · iexact HS0
    ipureintro
    refine (read_last_whole _ _ zero2 _ _ _).trans ?_
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2]
  · iexists _; isplitr
    swap; · iexact HS1
    ipureintro
    refine (read_last_whole _ _ zero2 _ _ _).trans ?_
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2]

set_option maxHeartbeats 1000000 in
/-- The last point (finishing branch taken, reset branch not): the sums and counts are added to as at a middle point, and the
    output block is left at the mean, classifier product and bias of the new sums and counts, whatever it held. -/
theorem kernel1_last (c : Dev nD) (E : Set ℕ) (i : grid1.Coords) (hF : ¬isFirst1 i) (hL : isLast1 i)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S64x64 .f32) (harg8 : arg8.IsWhole)
    (arg9 : Memref sig .tc .vmem S1x64 .f32) (harg9 : arg9.IsWhole) (arg10 : Memref sig .tc .vmem S64x10 .f32) (harg10 : arg10.IsWhole)
    (arg11 : Memref sig .tc .vmem S1x10 .f32) (harg11 : arg11.IsWhole) (arg12 : Memref sig .tc .vmem S512x10 .f32) (harg12 : arg12.IsWhole)
    (arg13 : Memref sig .tc .vmem S512x64 .f32) (harg13 : arg13.IsWhole) (arg14 : Memref sig .tc .vmem S512x1 .f32) (harg14 : arg14.IsWhole)
    (x0 x1 : Vec F S10000x64 .f32) (x2 : Vec F S10000x1 .i32) (x3 : Vec F S64x64 .f32) (x4 x5 x6 : Vec F S1x64 .f32)
    (x7 : Vec F S64x64 .f32) (x8 : Vec F S1x64 .f32) (x9 : Vec F S64x10 .f32) (x10 : Vec F S1x10 .f32) (s0 : Vec F S512x64 .f32) (s1 : Vec F S512x1 .f32) (K : PUnit → sProp 𝕄) :
    iprop(insAt c arg1 arg2 arg3 arg4 arg5 arg6 arg7 arg8 arg9 arg10 arg11 x0 x1 x2 x3 x4 x5 x6 x7 x8 x9 x10
        ∗ (∃ d, owns (c : Thread nD τ) arg12 fullShare d) ∗ owns (c : Thread nD τ) arg13 fullShare s0 ∗ owns (c : Thread nD τ) arg14 fullShare s1
        ∗ (iprop(insAt c arg1 arg2 arg3 arg4 arg5 arg6 arg7 arg8 arg9 arg10 arg11 x0 x1 x2 x3 x4 x5 x6 x7 x8 x9 x10
            ∗ owns (c : Thread nD τ) arg12 fullShare (k1_pay4 (k1_pay2 (k1_pay7 x0 x1 x3 x4 x5 x6 x7 x8) (k1_pay8 (F := F) x2) s0) (k1_pay3 (k1_pay8 (F := F) x2) s1) x9 x10)
            ∗ owns (c : Thread nD τ) arg13 fullShare (k1_pay2 (k1_pay7 x0 x1 x3 x4 x5 x6 x7 x8) (k1_pay8 (F := F) x2) s0) ∗ owns (c : Thread nD τ) arg14 fullShare (k1_pay3 (k1_pay8 (F := F) x2) s1)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_kernel_eq_skeleton]; unfold cc1_kernel_skel
  simp only [k1_part1_eq_skeleton]; unfold k1_part1_skel
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%dOut, %fo, -, Ho⟩, ⟨%g0, %hg0, HS0⟩, ⟨%g1, %hg1, HS1⟩, Hk⟩
  subst hf0 hf1 hf2 hf3 hf4 hf5 hf6 hf7 hf8 hf9 hf10 hg0 hg1
  sl_exec (disch := first | exact hF | exact hL)
  sl_step
  iapply Hk
  isplitl [H0 H1 H2 H3 H4 H5 H6 H7 H8 H9 H10]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    iexists f10; isplitr; · ipureintro; rfl
    iexact H10
  isplitl [Ho]
  · iexists _; isplitr
    swap; · iexact Ho
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]
  isplitl [HS0]
  · iexists _; isplitr
    swap; · iexact HS0
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]
  · iexists _; isplitr
    swap; · iexact HS1
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]

/-! ## The invariant between points -/

/-- What the invariant holds besides the two scratch buffers: the first region's staging buffers at some contents and the
    generator register at some state. -/
def restAt1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f)
    ∗ ∃ r, prngReg c r)

/-- The class invariant hands over the two scratch buffers as memrefs owned at some contents, and the rest; -/
theorem PhiA1_open (c : Dev nD) : (Pipeline.ΦA spec1 c : sProp 𝕄) ⊢ iprop((∃ d, owns (c : Thread nD τ) scSums fullShare d) ∗ (∃ d, owns (c : Thread nD τ) scCnts fullShare d) ∗ restAt1 (F := F) c) := by
  unfold Pipeline.ΦA restAt1; rw [scopedRest1_eq]; simp only [scSums, scCnts, owns_whole]
  iintro ⟨⟨G0, G1, G2, G3, G4, G5, G6, G7, G8, G9, G10, G11, HS0, HS1⟩, Hg⟩
  isplitl [HS0]; · iexact HS0
  isplitl [HS1]; · iexact HS1
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  iexact Hg

/-- and takes them back. -/
theorem PhiA1_close (c : Dev nD) : iprop((∃ d, owns (c : Thread nD τ) scSums fullShare d) ∗ (∃ d, owns (c : Thread nD τ) scCnts fullShare d) ∗ restAt1 (F := F) c) ⊢ (Pipeline.ΦA spec1 c : sProp 𝕄) := by
  unfold Pipeline.ΦA restAt1; rw [scopedRest1_eq]; simp only [scSums, scCnts, owns_whole]
  iintro ⟨HS0, HS1, G0, G1, G2, G3, G4, G5, G6, G7, G8, G9, G10, G11, Hg⟩
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [HS0]; · iexact HS0
  iexact HS1

theorem PhiA1_eq (c : Dev nD) : (Pipeline.ΦA spec1 c : sProp 𝕄) = iprop((∃ d, owns (c : Thread nD τ) scSums fullShare d) ∗ (∃ d, owns (c : Thread nD τ) scCnts fullShare d) ∗ restAt1 (F := F) c) :=
  Entails.antisymm (PhiA1_open c) (PhiA1_close c)
/-- After point `n`: the scratch buffers at that point's sums and counts. -/
theorem Phi1_succ (c : Dev nD) (n : ℕ) (hn : n < cfg1.N) :
    Phi1 V c (n + 1) hn = iprop(owns (c : Thread nD τ) scSums fullShare (accAt1 V c n hn).1
      ∗ owns (c : Thread nD τ) scCnts fullShare (accAt1 V c n hn).2 ∗ restAt1 (F := F) c) := rfl

theorem Phi1_zero (c : Dev nD) (n : ℕ) (h : n ≤ cfg1.N) (hz : n = 0) : Phi1 V c n h = Pipeline.ΦA spec1 c := by
  subst hz; rfl

/-- Before a point that is not the first: the scratch buffers at what the point before left. -/
theorem Phi1_pos (c : Dev nD) (n : ℕ) (h : n ≤ cfg1.N) (hz : n ≠ 0) :
    Phi1 V c n h = iprop(owns (c : Thread nD τ) scSums fullShare (accAt1 V c (n - 1) (by omega)).1
      ∗ owns (c : Thread nD τ) scCnts fullShare (accAt1 V c (n - 1) (by omega)).2 ∗ restAt1 (F := F) c) := by
  cases n with
  | zero => exact absurd rfl hz
  | succ n => rfl

theorem Phi1_castSucc (c : Dev nD) (t : Fin cfg1.N) : (dat1 V c).Φ t.castSucc = Phi1 V c t.val (Nat.le_of_lt t.isLt) := rfl

/-- The sums and counts after the first point: the tile's contribution over zero. -/
theorem accAt1_first (c : Dev nD) (t : Fin cfg1.N) (h0 : t.val = 0) :
    accAt1 V c t.val t.isLt = (k1_pay2 (h2blk V c t) (ohblk V c t) (k1_pay5 (F := F)), k1_pay3 (ohblk V c t) (k1_pay6 (F := F))) := by
  obtain ⟨n, hn⟩ := t
  cases n with
  | zero => rfl
  | succ n => exact absurd h0 (Nat.succ_ne_zero n)

/-- After a later point: the tile's contribution over what the point before left. -/
theorem accAt1_next (c : Dev nD) (t : Fin cfg1.N) (h0 : t.val ≠ 0) :
    accAt1 V c t.val t.isLt = (k1_pay2 (h2blk V c t) (ohblk V c t) (accAt1 V c (t.val - 1) (Nat.lt_of_le_of_lt (Nat.sub_le _ _) t.isLt)).1,
      k1_pay3 (ohblk V c t) (accAt1 V c (t.val - 1) (Nat.lt_of_le_of_lt (Nat.sub_le _ _) t.isLt)).2) := by
  obtain ⟨n, hn⟩ := t
  cases n with
  | zero => exact absurd rfl h0
  | succ n => rfl

/-! ## What the staging buffers hold when the body runs -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]

/-- Each input's current staging buffer holds its block at every point, fetched there or not: an unfetched window's block
    index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

/-- An input window is never idle: the body leaves its staging buffer at the block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) :
    (dat1 V c).leavesExact 5 t = owns (c : Thread nD τ) (st1_5 t) fullShare (iblk1 V c 5 t) := by
  unfold Dat.leavesExact; rw [show cfg1.idle 5 (cfg1.grid.coords t) = false from rfl, after1_5]
theorem leaves1_6 (c : Dev nD) (t : Fin cfg1.N) :
    (dat1 V c).leavesExact 6 t = owns (c : Thread nD τ) (st1_6 t) fullShare (iblk1 V c 6 t) := by
  unfold Dat.leavesExact; rw [show cfg1.idle 6 (cfg1.grid.coords t) = false from rfl, after1_6]
theorem leaves1_7 (c : Dev nD) (t : Fin cfg1.N) :
    (dat1 V c).leavesExact 7 t = owns (c : Thread nD τ) (st1_7 t) fullShare (iblk1 V c 7 t) := by
  unfold Dat.leavesExact; rw [show cfg1.idle 7 (cfg1.grid.coords t) = false from rfl, after1_7]
theorem leaves1_8 (c : Dev nD) (t : Fin cfg1.N) :
    (dat1 V c).leavesExact 8 t = owns (c : Thread nD τ) (st1_8 t) fullShare (iblk1 V c 8 t) := by
  unfold Dat.leavesExact; rw [show cfg1.idle 8 (cfg1.grid.coords t) = false from rfl, after1_8]
theorem leaves1_9 (c : Dev nD) (t : Fin cfg1.N) :
    (dat1 V c).leavesExact 9 t = owns (c : Thread nD τ) (st1_9 t) fullShare (iblk1 V c 9 t) := by
  unfold Dat.leavesExact; rw [show cfg1.idle 9 (cfg1.grid.coords t) = false from rfl, after1_9]
theorem leaves1_10 (c : Dev nD) (t : Fin cfg1.N) :
    (dat1 V c).leavesExact 10 t = owns (c : Thread nD τ) (st1_10 t) fullShare (iblk1 V c 10 t) := by
  unfold Dat.leavesExact; rw [show cfg1.idle 10 (cfg1.grid.coords t) = false from rfl, after1_10]

/-! ## The body obligation, at a generic point -/

/-- What the body is called with at point `t`: the invariant, what the core owes, and every window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4000000 in
/-- The body at any point. The inputs' buffers hold their blocks. At the first point the invariant is the class's, the scratch
    buffers at anything, and the body leaves them at the first tile's contribution over zero; at a later point they hold what
    the point before left and the body adds this tile's. Off the last point the output window is idle and handed back as
    found; at the last point the body leaves in it the block computed from the final sums and counts. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = Phi1 V c (t.val + 1) t.isLt from rfl, Phi1_succ, Phi1_castSucc]
  rw [leaves1_0, leaves1_1, leaves1_2, leaves1_3, leaves1_4, leaves1_5, leaves1_6, leaves1_7, leaves1_8, leaves1_9, leaves1_10]
  have hN : t.val < 10 := lt_of_lt_of_eq t.isLt (show cfg1.N = 10 from N_1)
  by_cases h0 : t.val = 0
  · -- the first point
    have hF : isFirst1 (grid1.coords t) := (isFirst1_iff t).mpr h0
    have hL : ¬isLast1 (grid1.coords t) := fun h => by have := (isLast1_iff t).mp h; omega
    rw [Dat.leavesExact_idle (dat1 V c) 11 t (idle1_11_of_not_last t hL) (noFlush1_11_of_not_last t hL)]
    rw [Phi1_zero V c _ _ h0, PhiA1_eq, accAt1_first V c t h0]
    dsimp only
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernel1_first c Set.univ (grid1.coords t) hF hL (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) scSums (Memref.isWhole_whole _) scCnts (Memref.isWhole_whole _)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) _)
    isplitl [H0 H1 H2 H3 H4 H5 H6 H7 H8 H9 H10]
    · unfold insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexact H11
    isplitl [HS0]; · iexact HS0
    isplitl [HS1]; · iexact HS1
    unfold insAt
    iintro ⟨⟨H0, H1, H2, H3, H4, H5, H6, H7, H8, H9, H10⟩, H11, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists d11; iexact H11
  · by_cases h9 : t.val = 9
    · -- the last point
      have hF : ¬isFirst1 (grid1.coords t) := fun h => h0 ((isFirst1_iff t).mp h)
      have hL : isLast1 (grid1.coords t) := (isLast1_iff t).mpr h9
      rw [show (dat1 V c).leavesExact 11 t = owns (c : Thread nD τ) (st1_11 t) fullShare ((dat1 V c).after 11 t) from by
        unfold Dat.leavesExact; rw [live1_11_of_last t hL], after1_11]
      unfold out1_11
      rw [Phi1_pos V c _ _ h0, accAt1_next V c t h0]
      dsimp only
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (kernel1_last c Set.univ (grid1.coords t) hF hL (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) scSums (Memref.isWhole_whole _) scCnts (Memref.isWhole_whole _)
        (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (accAt1 V c (t.val - 1) (Nat.lt_of_le_of_lt (Nat.sub_le _ _) t.isLt)).1 (accAt1 V c (t.val - 1) (Nat.lt_of_le_of_lt (Nat.sub_le _ _) t.isLt)).2 _)
      isplitl [H0 H1 H2 H3 H4 H5 H6 H7 H8 H9 H10]
      · unfold insAt
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexists _; iexact H11
      isplitl [HS0]; · iexact HS0
      isplitl [HS1]; · iexact HS1
      unfold insAt
      iintro ⟨⟨H0, H1, H2, H3, H4, H5, H6, H7, H8, H9, H10⟩, H11, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · -- a middle point
      have hF : ¬isFirst1 (grid1.coords t) := fun h => h0 ((isFirst1_iff t).mp h)
      have hL : ¬isLast1 (grid1.coords t) := fun h => h9 ((isLast1_iff t).mp h)
      rw [Dat.leavesExact_idle (dat1 V c) 11 t (idle1_11_of_not_last t hL) (noFlush1_11_of_not_last t hL)]
      rw [Phi1_pos V c _ _ h0, accAt1_next V c t h0]
      dsimp only
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (kernel1_mid c Set.univ (grid1.coords t) hF hL (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) scSums (Memref.isWhole_whole _) scCnts (Memref.isWhole_whole _)
        (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) (accAt1 V c (t.val - 1) (Nat.lt_of_le_of_lt (Nat.sub_le _ _) t.isLt)).1 (accAt1 V c (t.val - 1) (Nat.lt_of_le_of_lt (Nat.sub_le _ _) t.isLt)).2 _)
      isplitl [H0 H1 H2 H3 H4 H5 H6 H7 H8 H9 H10]
      · unfold insAt
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexact H11
      isplitl [HS0]; · iexact HS0
      isplitl [HS1]; · iexact HS1
      unfold insAt
      iintro ⟨⟨H0, H1, H2, H3, H4, H5, H6, H7, H8, H9, H10⟩, H11, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists d11; iexact H11

/-- After the last point the invariant gives the class's back: the scratch contents forgotten. -/
theorem Phi1_last (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega), PhiA1_eq]
  iintro ⟨HS0, HS1, HR⟩
  isplitl [HS0]; · iexists _; iexact HS0
  isplitl [HS1]; · iexists _; iexact HS1
  iexact HR

/-- The body obligation of the second region at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Hand.Run.lean ====
/-
  The whole run of @main: two stretches of host operations and two kernel regions. Between two items core `c` holds every
  unscoped buffer at a known valuation: the launch memory, then the host operations' fold, then, where a region has run, its
  output array at the fold of the pipeline's write-backs and every other buffer as before. The run ends with every unscoped
  buffer at the last valuation; the argument arrays are unchanged in it and the result array holds what the second pipeline
  wrote back.
-/
import proofs.«417148_j34376918237439_2_alg».proof.Proof.Patched.KernelIdeal.Launch
import proofs.«417148_j34376918237439_2_alg».proof.Proof.Gen.KernelIdeal.Skeleton
import proofs.«417148_j34376918237439_2_alg».proof.Proof.Gen.KernelIdeal.Points
import proofs.«417148_j34376918237439_2_alg».proof.Proof.Patched.KernelIdeal.Regions
import proofs.«417148_j34376918237439_2_alg».proof.Proof.Hand.Body0
import proofs.«417148_j34376918237439_2_alg».proof.Proof.Hand.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The valuations between the items -/

/-- The first region's entry contents, read at the TensorCore's references. -/
abbrev E1 : (c : Dev nD) → (b : Ref sig .tc) → Buf (Elt F) ((c : Thread nD τ).loc b) := fun c b => GenP.V1 m c b

/-- After the first region: its arrays at the fold of the pipeline's write-backs, the rest as entered. -/
def X2 (c : Dev nD) : Valuation τ sig (Elt F) :=
  Pipeline.withArrays spec0 c (GenP.V1 m c) fun w => (dat0 (E1 m) c).arrAt w cfg0.N

/-- What a region leaves in a buffer, by item: the first region's at item 2, everything else from a second table. -/
def mkOuts (o2 o4 : (r : Ref sig .tc) → (c : Dev nD) → Buf (Elt F) ((c : Thread nD τ).loc r)) : GenP.Outs (F := F) :=
  fun j r c => match j with
    | 2 => o2 r c
    | _ => o4 r c

abbrev o2 : (r : Ref sig .tc) → (c : Dev nD) → Buf (Elt F) ((c : Thread nD τ).loc r) := fun r c => X2 m c r

/-- The second region's entry contents. -/
abbrev E3 : (c : Dev nD) → (b : Ref sig .tc) → Buf (Elt F) ((c : Thread nD τ).loc b) :=
  fun c b => GenP.V3 m (mkOuts (o2 m) (o2 m)) c b

/-- After the second region: its arrays at the fold of the pipeline's write-backs, the rest as entered. -/
def X4 (c : Dev nD) : Valuation τ sig (Elt F) :=
  Pipeline.withArrays spec1 c (GenP.V3 m (mkOuts (o2 m) (o2 m)) c) fun w => (dat1 (E3 m) c).arrAt w cfg1.N

abbrev o4 : (r : Ref sig .tc) → (c : Dev nD) → Buf (Elt F) ((c : Thread nD τ).loc r) := fun r c => X4 m c r

/-- What the two regions leave. -/
abbrev outs : GenP.Outs (F := F) := mkOuts (o2 m) (o4 m)

/-- The second host stretch reads only what the first region left. -/
theorem V3_outs (c : Dev nD) : GenP.V3 m (outs m) c = GenP.V3 m (mkOuts (o2 m) (o2 m)) c := rfl

abbrev E2 : (c : Dev nD) → (b : Ref sig .tc) → Buf (Elt F) ((c : Thread nD τ).loc b) := fun c b => GenP.V2 m (outs m) c b
abbrev E4 : (c : Dev nD) → (b : Ref sig .tc) → Buf (Elt F) ((c : Thread nD τ).loc b) := fun c b => GenP.V4 m (outs m) c b

/-! ## The proof data family -/

def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev L : GSem nD τ sig → Finset Unit := fun _ => ∅
abbrev lv : GSem nD τ sig → Unit → ℕ := fun _ _ => 0

/-- What rides beside the buffers through every item: the generator register at some state and nothing owed. -/
abbrev R (c : Dev nD) : sProp 𝕄 := iprop((∃ r, prngReg c r) ∗ ∃ W, owes (c : Thread nD τ) (0 : CellTallies nD τ sig Unit) W)

/-! ## What each region leaves in its arrays -/

theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w

theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w

/-- The first region's output array after it is what the table of its leavings says. -/
theorem V2_out (c : Dev nD) : GenP.V2 m (outs m) c (Proc.devRef .tc main_call0_v30) = X2 m c (Proc.devRef .tc main_call0_v30) := by
  simp only [GenP.V2, Function.update_self]; rfl

theorem V4_out (c : Dev nD) : GenP.V4 m (outs m) c (Proc.devRef .tc main_v0) = X4 m c (Proc.devRef .tc main_v0) := by
  simp only [GenP.V4, Function.update_self]; rfl

theorem hF0_in (c : Dev nD) (w : Fin cfg0.W) (hin : (cfg0.win w).isOut = false)
    (hne : Pipeline.arrRef spec0 w ∉ ([main_call0_v30] : List (Ref sig .tc))) :
    (dat0 (E1 m) c).arrAt w cfg0.N = E2 m c (Pipeline.arrRef spec0 w) :=
  ((dat0 (E1 m) c).arrAt_in w hin _).trans ((A_eq0 (E1 m) c w).trans (GenP.V2_of m (outs m) c _ hne).symm)

theorem hF0 (c : Dev nD) : ∀ w : Fin cfg0.W, (dat0 (E1 m) c).arrAt w cfg0.N = E2 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => hF0_in m c 6 rfl (by decide)
  | ⟨7, _⟩ => hF0_in m c 7 rfl (by decide)
  | ⟨8, _⟩ => ((V2_out m c).trans (X2_arr m c 8)).symm

theorem hrest0 (c : Dev nD) : ∀ b, b ∉ Finset.univ.image (Pipeline.arrRef spec0) → E2 m c b = E1 m c b :=
  fun b hb => GenP.V2_of m (outs m) c b (by
    intro h
    rw [List.mem_singleton] at h
    exact hb (Finset.mem_image.mpr ⟨8, Finset.mem_univ _, h.symm⟩))

theorem hF1_in (c : Dev nD) (w : Fin cfg1.W) (hin : (cfg1.win w).isOut = false)
    (hne : Pipeline.arrRef spec1 w ∉ ([main_v0] : List (Ref sig .tc))) :
    (dat1 (E3 m) c).arrAt w cfg1.N = E4 m c (Pipeline.arrRef spec1 w) :=
  ((dat1 (E3 m) c).arrAt_in w hin _).trans ((A_eq1 (E3 m) c w).trans (GenP.V4_of m (outs m) c _ hne).symm)

/-- Every window of the second region but the last is an input, and its array is not the result array. -/
theorem win1_in : ∀ w : Fin 12, w ≠ 11 →
    (cfg1.win w).isOut = false ∧ Pipeline.arrRef spec1 w ∉ ([main_v0] : List (Ref sig .tc)) := by decide

theorem hF1 (c : Dev nD) (w : Fin cfg1.W) : (dat1 (E3 m) c).arrAt w cfg1.N = E4 m c (Pipeline.arrRef spec1 w) := by
  by_cases h : w = 11
  · subst h
    exact ((V4_out m c).trans (X4_arr m c 11)).symm
  · exact hF1_in m c w (win1_in w h).1 (win1_in w h).2

theorem hrest1 (c : Dev nD) : ∀ b, b ∉ Finset.univ.image (Pipeline.arrRef spec1) → E4 m c b = E3 m c b :=
  fun b hb => GenP.V4_of m (outs m) c b (by
    intro h
    rw [List.mem_singleton] at h
    exact hb (Finset.mem_image.mpr ⟨11, Finset.mem_univ _, h.symm⟩))

/-- The result array at the end of the run is what the second pipeline wrote back. -/
theorem V4_result (c : Dev nD) : GenP.V4 m (outs m) c (Proc.devRef .tc main_v0) = (dat1 (E3 m) c).arrAt 11 cfg1.N :=
  (hF1 m c 11).symm

/-- The first region's output array, as the second host stretch and the second region find it, is what the first pipeline
    wrote back. -/
theorem V2_h1 (c : Dev nD) : GenP.V2 m (outs m) c (Proc.devRef .tc main_call0_v30) = (dat0 (E1 m) c).arrAt 8 cfg0.N :=
  (hF0 m c 8).symm

/-! ## The regions as segments -/

set_option backward.isDefEq.respectTransparency.types false in
/-- The first region: entered with every unscoped buffer at the first host stretch's fold, left with its output array at the
    write-backs' fold. Its arrays are split out of the unscoped buffers and put back; the generator register goes into the
    invariant and comes out; nothing is owed. -/
def reg0 : RegionSeg (pcfgs (F := F)) GenP.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (GenP.V1 m c) ∗ R c)
  post c := iprop(StableHlo.held (c : Thread nD τ) (Pipeline.ucRefs τ sig) (GenP.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at the second host stretch's fold, left with the result array at
    the write-backs' fold. The invariant starts as the class's (every scratch at some contents) and gives it back at the end,
    the sums and counts forgotten. -/
def reg1 : RegionSeg (pcfgs (F := F)) GenP.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (GenP.V3 m (outs m) c) ∗ R c)
  post c := iprop(StableHlo.held (c : Thread nD τ) (Pipeline.ucRefs τ sig) (GenP.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (E3 m c) fun _ => rfl
    rw [Pipeline.unscopedBufs_held] at hsplit
    rw [V3_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (E3 m) c]; unfold Pipeline.ΦA
    iintro ⟨Hp, -, Hr⟩
    isplitl [Hr]; · iexact Hr
    iexact Hp
  hout c := by
    rw [Pipeline.ownSems0_none]
    refine (Phi1_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The second region's exit state is the last thread state beside the core owing nothing. -/
theorem hlast (c : Dev nD) :
    (iprop(StableHlo.held (c : Thread nD τ) (Pipeline.ucRefs τ sig) (GenP.V4 m (outs m) c) ∗ R c) : sProp 𝕄)
      ⊢ iprop((StableHlo.held (c : Thread nD τ) (Pipeline.ucRefs τ sig) (GenP.V4 m (outs m) c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Every weakly fair execution of @main from memory `m` with zero counters terminates, nothing faulting, and in every
    final memory each unscoped buffer of core `c` holds the last valuation's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = GenP.V4 m (outs m) c b) := by
  refine Pipeline.θ_run_regions_kit_dev (pcfgs (F := F)) GenP.adm (pdats m) () cellOf_inj emb₁ defs₀ Variants.none L lv m ρ main
    (GenP.segs m (outs m) Variants.none L lv (fun _ c => R c) () (pdats m) (reg0 m) (reg1 m))
    (fun c Q => by
      rewrite [main_chain c, Seg.run_eq_chain,
        show (GenP.segs m (outs m) Variants.none L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [GenP.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ R c))
    (Tₙ := fun c => iprop(StableHlo.held (c : Thread nD τ) (Pipeline.ucRefs τ sig) (GenP.V4 m (outs m) c) ∗ ∃ r, prngReg c r))
    (hch := fun c => ⟨.rfl, .rfl, .rfl, .rfl, hlast m c⟩)
    (hinit := ?_)
    (QY := fun c s => ∀ b ∈ Pipeline.ucRefs τ sig, s.mem (((c : Thread nD τ)).1, b) = GenP.V4 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (GenP.V4 m (outs m) c) s')
    isplitl [Hh] <;> iassumption

end Cert.KernelIdeal.Hand

end
-- ==== Proof.HandBits.Body0.lean ====
/-
  The first kernel region (the fused Linear, BatchNorm scale and shift, ReLU, Linear, ReLU block over a tile of 10000 nodes),
  entered with the core's buffers at contents `V`: what each window's staging buffer holds at a grid point, what the body
  leaves in the output tile, and the body's triple at every point.
-/
import proofs.«417148_j34376918237439_2_alg».proof.Proof.Patched.Kernel.Launch
import proofs.«417148_j34376918237439_2_alg».proof.Proof.Gen.Kernel.Skeleton
import proofs.«417148_j34376918237439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rTile : Rect S10000x64 := Rect.unit (s := S10000x64) ![0, 0] S10000x64.size inb_S10000x64_S10000x64_0_0
abbrev rSq : Rect S64x64 := Rect.unit (s := S64x64) ![0, 0] S64x64.size inb_S64x64_S64x64_0_0
abbrev rRow : Rect S1x64 := Rect.unit (s := S1x64) ![0, 0] S1x64.size inb_S1x64_S1x64_0_0

/-- The output tile after the body, from the eight input blocks: its one whole-tile store. -/
def out0_8 (x0 x1 : Vec F S10000x64 .f32) (x2 : Vec F S64x64 .f32) (x3 x4 x5 : Vec F S1x64 .f32) (x6 : Vec F S64x64 .f32) (x7 : Vec F S1x64 .f32) :
    Vec F S10000x64 .f32 :=
  View.canon [⟨rTile, k0_pay1 (View.ld x0 rTile) (View.ld x1 rTile) (View.ld x2 rSq) (View.ld x3 rRow) (View.ld x4 rRow) (View.ld x5 rRow) (View.ld x6 rSq) (View.ld x7 rRow)⟩]

/-- The proof data of the first pipeline on core `c`: arrays as entered; each input's buffer at its block; the output's at
    `out0_8` of the input blocks; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by
  dsimp only [dat0]

/-! ## What the body leaves in each input window: the block it found -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]

/-! ## What the body finds in each input window: its block at the point

The node tiles (windows 0 and 1) are fetched at every point. The weights and the row vectors (windows 2 to 7) have a
constant block index: they are fetched at the first point only, and at a later point the buffer still holds what the
body left at the point before, which is the same block since the index has not moved. No window is cut by its array's
edge (10 tiles of 10000 rows tile the 100000 rows), so a fetch fills the whole buffer with the block. -/

/-- The block the fetch of window `w` reads at point `t`, in the proof data's own spelling, is `iblk0`. -/
theorem blockOf0 (c : Dev nD) (w : Fin cfg0.W) (t : Fin cfg0.N) : (dat0 V c).blockOf w t = iblk0 V c w t := by
  unfold Dat.blockOf iblk0; rw [A_eq0]

theorem before0_0 (c : Dev nD) (t : Fin cfg0.N) (d) : (dat0 V c).before 0 t d = iblk0 V c 0 t := by
  rw [(dat0 V c).before_in_eq_fetched 0 rfl (fun _ => rfl) (fun _ _ _ => rfl) (fun s => by rw [after0_0, blockOf0]) t d]
  unfold Dat.fetched; rw [blockOf0]; rfl
theorem before0_1 (c : Dev nD) (t : Fin cfg0.N) (d) : (dat0 V c).before 1 t d = iblk0 V c 1 t := by
  rw [(dat0 V c).before_in_eq_fetched 1 rfl (fun _ => rfl) (fun _ _ _ => rfl) (fun s => by rw [after0_1, blockOf0]) t d]
  unfold Dat.fetched; rw [blockOf0]; rfl
theorem before0_2 (c : Dev nD) (t : Fin cfg0.N) (d) : (dat0 V c).before 2 t d = iblk0 V c 2 t := by
  rw [(dat0 V c).before_in_eq_fetched 2 rfl (fun _ => rfl) (fun _ _ _ => rfl) (fun s => by rw [after0_2, blockOf0]) t d]
  unfold Dat.fetched; rw [blockOf0]; rfl
theorem before0_3 (c : Dev nD) (t : Fin cfg0.N) (d) : (dat0 V c).before 3 t d = iblk0 V c 3 t := by
  rw [(dat0 V c).before_in_eq_fetched 3 rfl (fun _ => rfl) (fun _ _ _ => rfl) (fun s => by rw [after0_3, blockOf0]) t d]
  unfold Dat.fetched; rw [blockOf0]; rfl
theorem before0_4 (c : Dev nD) (t : Fin cfg0.N) (d) : (dat0 V c).before 4 t d = iblk0 V c 4 t := by
  rw [(dat0 V c).before_in_eq_fetched 4 rfl (fun _ => rfl) (fun _ _ _ => rfl) (fun s => by rw [after0_4, blockOf0]) t d]
  unfold Dat.fetched; rw [blockOf0]; rfl
theorem before0_5 (c : Dev nD) (t : Fin cfg0.N) (d) : (dat0 V c).before 5 t d = iblk0 V c 5 t := by
  rw [(dat0 V c).before_in_eq_fetched 5 rfl (fun _ => rfl) (fun _ _ _ => rfl) (fun s => by rw [after0_5, blockOf0]) t d]
  unfold Dat.fetched; rw [blockOf0]; rfl
theorem before0_6 (c : Dev nD) (t : Fin cfg0.N) (d) : (dat0 V c).before 6 t d = iblk0 V c 6 t := by
  rw [(dat0 V c).before_in_eq_fetched 6 rfl (fun _ => rfl) (fun _ _ _ => rfl) (fun s => by rw [after0_6, blockOf0]) t d]
  unfold Dat.fetched; rw [blockOf0]; rfl
theorem before0_7 (c : Dev nD) (t : Fin cfg0.N) (d) : (dat0 V c).before 7 t d = iblk0 V c 7 t := by
  rw [(dat0 V c).before_in_eq_fetched 7 rfl (fun _ => rfl) (fun _ _ _ => rfl) (fun s => by rw [after0_7, blockOf0]) t d]
  unfold Dat.fetched; rw [blockOf0]; rfl

/-! ## The body's one store fills its buffer -/

/-- The whole-tile rectangle holds every index of the tile, whatever is stored through it. -/
theorem cover0_8 (p : Vec F S10000x64 .f32) (y : S10000x64.Idx) :
    ∃ pc ∈ ([⟨rTile, p⟩] : List (View.Piece (Elt F) S10000x64 .f32)), y ∈ pc.1.set :=
  View.cover_of_tiled [⟨rTile, p⟩] S10000x64.size (by rfl) y

/-! ## The body's triple -/

set_option maxHeartbeats 1000000 in
/-- The body on nine whole staging memrefs, the eight inputs' reading `x0 … x7` and the output's at anything: it loads
    all nine whole, stores the payload of the eight loaded inputs over the whole output tile, and so reaches any
    continuation that takes the inputs as they were and the output at `out0_8` of them. The value it loaded from the
    output buffer is dropped. -/
theorem sound_kernel0 (c : Dev nD) (E : Set ℕ) (i : grid0.Coords) (a0 : Memref sig .tc .vmem S10000x64 .f32) (h0 : a0.IsWhole) (a1 : Memref sig .tc .vmem S10000x64 .f32) (h1 : a1.IsWhole) (a2 : Memref sig .tc .vmem S64x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S10000x64 .f32) (h8 : a8.IsWhole)
    (x0 x1 : Vec F S10000x64 .f32) (x2 : Vec F S64x64 .f32) (x3 x4 x5 : Vec F S1x64 .f32) (x6 : Vec F S64x64 .f32) (x7 : Vec F S1x64 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out0_8 x0 x1 x2 x3 x4 x5 x6 x7)) -∗ K ⟨⟩))
      ⊢ wp frame (wpE (defs₀ (F := F)) Variants.none c none) E (cc0_kernel i a0 h0 a1 h1 a2 h2 a3 h3 a4 h4 a5 h5 a6 h6 a7 h7 a8 h8) K := by
  simp only [cc0_kernel_eq_skeleton]; unfold cc0_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e0 e1 e2 e3 e4 e5 e6 e7
  -- the nine loads and the store, run symbolically: the output's cells end at the one write over what they held
  sl_exec
  sl_step
  iapply Hk
  -- each input's cells were only read
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  -- the output's cells: the whole-tile write covers them, so they read as the canonical contents of that one piece
  iexists _; isplitr
  swap
  · iexact H8
  ipureintro
  exact View.read_writes_eq_canon _ _ _ (cover0_8 _)

/-! ## The body obligation at a generic point -/

/-- What the pipeline hands the body at point `t`: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What the body hands back: the same invariant and debts, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: every input buffer holds its block (`before0_w`), the output buffer holds something, so the
    kernel's triple applies at the eight blocks; the invariant and the debts are not touched and do not depend on the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the first region at every grid point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.HandBits.Body1.lean ====
/-
  The second kernel region (the second Linear, BatchNorm scale and shift, ReLU, Linear block over a tile of 10000 nodes, the
  one-hot pooling of the tile into per-graph sums and counts kept in two scratch buffers across the ten grid points, and at
  the last point the mean, the classifier product and its bias), entered with the core's buffers at contents `V`:
  what the scratch buffers hold after each point, what the body leaves in the output block, the invariant between points,
  and the body's triple at every point.
-/
import proofs.«417148_j34376918237439_2_alg».proof.Proof.Patched.Kernel.Launch
import proofs.«417148_j34376918237439_2_alg».proof.Proof.Gen.Kernel.Skeleton
import proofs.«417148_j34376918237439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's node features after the second block's two linear maps (no final ReLU), from the tile's blocks. -/
def h2blk (c : Dev nD) (t : Fin cfg1.N) : FVec F S10000x64 .f32 :=
  k1_pay7 (iblk1 V c 0 t) (iblk1 V c 1 t) (iblk1 V c 3 t) (iblk1 V c 4 t) (iblk1 V c 5 t) (iblk1 V c 6 t) (iblk1 V c 7 t) (iblk1 V c 8 t)

/-- The tile's one-hot mask: node `r` of the tile against graph id `g`. -/
def ohblk (c : Dev nD) (t : Fin cfg1.N) : IVec S10000x512 1 :=
  k1_pay8 (F := F) (iblk1 V c 2 t)

/-- The per-graph sums and counts the two scratch buffers hold after grid point `n`: zero before the first tile, then
    each tile's one-hot product and column sums added on. -/
def accAt1 (c : Dev nD) : (n : ℕ) → n < cfg1.N → Vec F S512x64 .f32 × Vec F S512x1 .f32
  | 0, hn => (k1_pay2 (h2blk V c ⟨0, hn⟩) (ohblk V c ⟨0, hn⟩) (k1_pay5 (F := F)), k1_pay3 (ohblk V c ⟨0, hn⟩) (k1_pay6 (F := F)))
  | n + 1, hn => (k1_pay2 (h2blk V c ⟨n + 1, hn⟩) (ohblk V c ⟨n + 1, hn⟩) (accAt1 c n (Nat.lt_of_succ_lt hn)).1,
      k1_pay3 (ohblk V c ⟨n + 1, hn⟩) (accAt1 c n (Nat.lt_of_succ_lt hn)).2)

/-- The output block from the scratch contents after point `t`: mean, classifier product, bias. -/
def out1_11 (c : Dev nD) (t : Fin cfg1.N) : Vec F S512x10 .f32 :=
  k1_pay4 (accAt1 V c t.val t.isLt).1 (accAt1 V c t.val t.isLt).2 (iblk1 V c 9 t) (iblk1 V c 10 t)

/-- The two scratch buffers as whole memrefs. -/
abbrev scSums : Memref sig .tc .vmem S512x64 .f32 := Memref.whole cc1_scratch0
abbrev scCnts : Memref sig .tc .vmem S512x1 .f32 := Memref.whole cc1_scratch1

/-- The invariant before grid position `n`: before the first point every scoped buffer that is no staging buffer of this
    region at some contents; afterwards the two scratch buffers at the sums and counts the point before left, the other
    such buffers at some contents; the generator register at some state throughout. -/
def Phi1 (c : Dev nD) : (n : ℕ) → n ≤ cfg1.N → sProp 𝕄
  | 0, _ => Pipeline.ΦA spec1 c
  | n + 1, hn => iprop(owns (c : Thread nD τ) scSums fullShare (accAt1 V c n hn).1
      ∗ owns (c : Thread nD τ) scCnts fullShare (accAt1 V c n hn).2
      ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f)
      ∗ ∃ r, prngReg c r)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_11 (c : Dev nD) (t : Fin cfg1.N) : (dat1 V c).after 11 t = out1_11 V c t := by
  dsimp only [dat1]

/-- Before the first point the invariant is the class's: every scratch at some contents. -/
theorem Phi1_first (c : Dev nD) : (dat1 V c).Φ 0 = Pipeline.ΦA spec1 c := rfl

/-! ## The two branch conditions over the grid -/

/-- The reset branch's condition as the body computes it from the grid coordinate: "this is point 0". -/
abbrev isFirst1 (i : grid1.Coords) : Prop :=
  (Scalar.cmpi .ne (Scalar.extui (Scalar.cmpi .eq (BitVec.ofNat 32 (i 0).val) 0#32)) 0#32) = 1#1

/-- The finishing branch's condition: "this is point 9". -/
abbrev isLast1 (i : grid1.Coords) : Prop := k1_cond2 i = 1#1

theorem isFirst1_iff : ∀ t : Fin cfg1.N, isFirst1 (grid1.coords t) ↔ t.val = 0 :=
  (by decide +kernel : ∀ t : Fin grid1.N, isFirst1 (grid1.coords t) ↔ t.val = 0)

theorem isLast1_iff : ∀ t : Fin cfg1.N, isLast1 (grid1.coords t) ↔ t.val = 9 :=
  (by decide +kernel : ∀ t : Fin grid1.N, isLast1 (grid1.coords t) ↔ t.val = 9)

/-- The output window is idle exactly off the last point, and written back only there. -/
theorem idle1_11_of_not_last : ∀ t : Fin cfg1.N, ¬isLast1 (grid1.coords t) → cfg1.idle 11 (grid1.coords t) = true := by decide +kernel
theorem live1_11_of_last : ∀ t : Fin cfg1.N, isLast1 (grid1.coords t) → cfg1.idle 11 (grid1.coords t) = false := by decide +kernel
theorem noFlush1_11_of_not_last : ∀ t : Fin cfg1.N, ¬isLast1 (grid1.coords t) → (cfg1.win 11).flush t = false := by decide +kernel

/-! ## Whole-buffer accesses -/

theorem zero2 : (![0, 0] : Fin 2 → Nat) = fun _ => 0 := funext fun a => by fin_cases a <;> rfl

/-- After a list of stores whose last goes through the whole-buffer rectangle, the buffer reads as that store's payload. -/
theorem read_last_whole {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's triple, in its three control cases -/

/-- The eleven input operands owned at given contents. -/
def insAt (c : Dev nD)
    (arg1 arg2 : Memref sig .tc .vmem S10000x64 .f32) (arg3 : Memref sig .tc .vmem S10000x1 .i32) (arg4 : Memref sig .tc .vmem S64x64 .f32)
    (arg5 arg6 arg7 : Memref sig .tc .vmem S1x64 .f32) (arg8 : Memref sig .tc .vmem S64x64 .f32) (arg9 : Memref sig .tc .vmem S1x64 .f32)
    (arg10 : Memref sig .tc .vmem S64x10 .f32) (arg11 : Memref sig .tc .vmem S1x10 .f32)
    (x0 x1 : Vec F S10000x64 .f32) (x2 : Vec F S10000x1 .i32) (x3 : Vec F S64x64 .f32) (x4 x5 x6 : Vec F S1x64 .f32)
    (x7 : Vec F S64x64 .f32) (x8 : Vec F S1x64 .f32) (x9 : Vec F S64x10 .f32) (x10 : Vec F S1x10 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6 ∗ owns (c : Thread nD τ) arg8 fullShare x7 ∗ owns (c : Thread nD τ) arg9 fullShare x8
    ∗ owns (c : Thread nD τ) arg10 fullShare x9 ∗ owns (c : Thread nD τ) arg11 fullShare x10)

set_option maxHeartbeats 1000000 in
/-- The first point (reset branch taken, finishing branch not): whatever the scratch buffers held, they are zeroed and the
    tile's product and column sums added; the output block is untouched. -/
theorem kernel1_first (c : Dev nD) (E : Set ℕ) (i : grid1.Coords) (hF : isFirst1 i) (hL : ¬isLast1 i)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S64x64 .f32) (harg8 : arg8.IsWhole)
    (arg9 : Memref sig .tc .vmem S1x64 .f32) (harg9 : arg9.IsWhole) (arg10 : Memref sig .tc .vmem S64x10 .f32) (harg10 : arg10.IsWhole)
    (arg11 : Memref sig .tc .vmem S1x10 .f32) (harg11 : arg11.IsWhole) (arg12 : Memref sig .tc .vmem S512x10 .f32) (harg12 : arg12.IsWhole)
    (arg13 : Memref sig .tc .vmem S512x64 .f32) (harg13 : arg13.IsWhole) (arg14 : Memref sig .tc .vmem S512x1 .f32) (harg14 : arg14.IsWhole)
    (x0 x1 : Vec F S10000x64 .f32) (x2 : Vec F S10000x1 .i32) (x3 : Vec F S64x64 .f32) (x4 x5 x6 : Vec F S1x64 .f32)
    (x7 : Vec F S64x64 .f32) (x8 : Vec F S1x64 .f32) (x9 : Vec F S64x10 .f32) (x10 : Vec F S1x10 .f32) (xo : Vec F S512x10 .f32) (K : PUnit → sProp 𝕄) :
    iprop(insAt c arg1 arg2 arg3 arg4 arg5 arg6 arg7 arg8 arg9 arg10 arg11 x0 x1 x2 x3 x4 x5 x6 x7 x8 x9 x10
        ∗ owns (c : Thread nD τ) arg12 fullShare xo ∗ (∃ d, owns (c : Thread nD τ) arg13 fullShare d) ∗ (∃ d, owns (c : Thread nD τ) arg14 fullShare d)
        ∗ (iprop(insAt c arg1 arg2 arg3 arg4 arg5 arg6 arg7 arg8 arg9 arg10 arg11 x0 x1 x2 x3 x4 x5 x6 x7 x8 x9 x10
            ∗ owns (c : Thread nD τ) arg12 fullShare xo
            ∗ owns (c : Thread nD τ) arg13 fullShare (k1_pay2 (k1_pay7 x0 x1 x3 x4 x5 x6 x7 x8) (k1_pay8 (F := F) x2) (k1_pay5 (F := F))) ∗ owns (c : Thread nD τ) arg14 fullShare (k1_pay3 (k1_pay8 (F := F) x2) (k1_pay6 (F := F)))) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_kernel_eq_skeleton]; unfold cc1_kernel_skel
  simp only [k1_part1_eq_skeleton]; unfold k1_part1_skel
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%fo, %hfo, Ho⟩, ⟨%d13, %g0, -, HS0⟩, ⟨%d14, %g1, -, HS1⟩, Hk⟩
  subst hf0 hf1 hf2 hf3 hf4 hf5 hf6 hf7 hf8 hf9 hf10 hfo
  sl_exec (disch := first | exact hF | exact hL)
  sl_step
  iapply Hk
  isplitl [H0 H1 H2 H3 H4 H5 H6 H7 H8 H9 H10]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    iexists f10; isplitr; · ipureintro; rfl
    iexact H10
  isplitl [Ho]; · iexists fo; isplitr; · ipureintro; rfl
                  iexact Ho
  isplitl [HS0]
  · iexists _; isplitr
    swap; · iexact HS0
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]
  · iexists _; isplitr
    swap; · iexact HS1
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]

set_option maxHeartbeats 1000000 in
/-- A middle point (neither branch taken): the sums and counts found are added to; the output block is untouched. -/
theorem kernel1_mid (c : Dev nD) (E : Set ℕ) (i : grid1.Coords) (hF : ¬isFirst1 i) (hL : ¬isLast1 i)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S64x64 .f32) (harg8 : arg8.IsWhole)
    (arg9 : Memref sig .tc .vmem S1x64 .f32) (harg9 : arg9.IsWhole) (arg10 : Memref sig .tc .vmem S64x10 .f32) (harg10 : arg10.IsWhole)
    (arg11 : Memref sig .tc .vmem S1x10 .f32) (harg11 : arg11.IsWhole) (arg12 : Memref sig .tc .vmem S512x10 .f32) (harg12 : arg12.IsWhole)
    (arg13 : Memref sig .tc .vmem S512x64 .f32) (harg13 : arg13.IsWhole) (arg14 : Memref sig .tc .vmem S512x1 .f32) (harg14 : arg14.IsWhole)
    (x0 x1 : Vec F S10000x64 .f32) (x2 : Vec F S10000x1 .i32) (x3 : Vec F S64x64 .f32) (x4 x5 x6 : Vec F S1x64 .f32)
    (x7 : Vec F S64x64 .f32) (x8 : Vec F S1x64 .f32) (x9 : Vec F S64x10 .f32) (x10 : Vec F S1x10 .f32) (xo : Vec F S512x10 .f32) (s0 : Vec F S512x64 .f32) (s1 : Vec F S512x1 .f32) (K : PUnit → sProp 𝕄) :
    iprop(insAt c arg1 arg2 arg3 arg4 arg5 arg6 arg7 arg8 arg9 arg10 arg11 x0 x1 x2 x3 x4 x5 x6 x7 x8 x9 x10
        ∗ owns (c : Thread nD τ) arg12 fullShare xo ∗ owns (c : Thread nD τ) arg13 fullShare s0 ∗ owns (c : Thread nD τ) arg14 fullShare s1
        ∗ (iprop(insAt c arg1 arg2 arg3 arg4 arg5 arg6 arg7 arg8 arg9 arg10 arg11 x0 x1 x2 x3 x4 x5 x6 x7 x8 x9 x10
            ∗ owns (c : Thread nD τ) arg12 fullShare xo
            ∗ owns (c : Thread nD τ) arg13 fullShare (k1_pay2 (k1_pay7 x0 x1 x3 x4 x5 x6 x7 x8) (k1_pay8 (F := F) x2) s0) ∗ owns (c : Thread nD τ) arg14 fullShare (k1_pay3 (k1_pay8 (F := F) x2) s1)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_kernel_eq_skeleton]; unfold cc1_kernel_skel
  simp only [k1_part1_eq_skeleton]; unfold k1_part1_skel
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%fo, %hfo, Ho⟩, ⟨%g0, %hg0, HS0⟩, ⟨%g1, %hg1, HS1⟩, Hk⟩
  subst hf0 hf1 hf2 hf3 hf4 hf5 hf6 hf7 hf8 hf9 hf10 hfo hg0 hg1
  sl_exec (disch := first | exact hF | exact hL)
  sl_step
  iapply Hk
  isplitl [H0 H1 H2 H3 H4 H5 H6 H7 H8 H9 H10]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    iexists f10; isplitr; · ipureintro; rfl
    iexact H10
  isplitl [Ho]; · iexists fo; isplitr; · ipureintro; rfl
                  iexact Ho
  isplitl [HS0]
  · iexists _; isplitr
    swap; · iexact HS0
    ipureintro
    refine (read_last_whole _ _ zero2 _ _ _).trans ?_
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2]
  · iexists _; isplitr
    swap; · iexact HS1
    ipureintro
    refine (read_last_whole _ _ zero2 _ _ _).trans ?_
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2]

set_option maxHeartbeats 1000000 in
/-- The last point (finishing branch taken, reset branch not): the sums and counts are added to as at a middle point, and the
    output block is left at the mean, classifier product and bias of the new sums and counts, whatever it held. -/
theorem kernel1_last (c : Dev nD) (E : Set ℕ) (i : grid1.Coords) (hF : ¬isFirst1 i) (hL : isLast1 i)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S64x64 .f32) (harg8 : arg8.IsWhole)
    (arg9 : Memref sig .tc .vmem S1x64 .f32) (harg9 : arg9.IsWhole) (arg10 : Memref sig .tc .vmem S64x10 .f32) (harg10 : arg10.IsWhole)
    (arg11 : Memref sig .tc .vmem S1x10 .f32) (harg11 : arg11.IsWhole) (arg12 : Memref sig .tc .vmem S512x10 .f32) (harg12 : arg12.IsWhole)
    (arg13 : Memref sig .tc .vmem S512x64 .f32) (harg13 : arg13.IsWhole) (arg14 : Memref sig .tc .vmem S512x1 .f32) (harg14 : arg14.IsWhole)
    (x0 x1 : Vec F S10000x64 .f32) (x2 : Vec F S10000x1 .i32) (x3 : Vec F S64x64 .f32) (x4 x5 x6 : Vec F S1x64 .f32)
    (x7 : Vec F S64x64 .f32) (x8 : Vec F S1x64 .f32) (x9 : Vec F S64x10 .f32) (x10 : Vec F S1x10 .f32) (s0 : Vec F S512x64 .f32) (s1 : Vec F S512x1 .f32) (K : PUnit → sProp 𝕄) :
    iprop(insAt c arg1 arg2 arg3 arg4 arg5 arg6 arg7 arg8 arg9 arg10 arg11 x0 x1 x2 x3 x4 x5 x6 x7 x8 x9 x10
        ∗ (∃ d, owns (c : Thread nD τ) arg12 fullShare d) ∗ owns (c : Thread nD τ) arg13 fullShare s0 ∗ owns (c : Thread nD τ) arg14 fullShare s1
        ∗ (iprop(insAt c arg1 arg2 arg3 arg4 arg5 arg6 arg7 arg8 arg9 arg10 arg11 x0 x1 x2 x3 x4 x5 x6 x7 x8 x9 x10
            ∗ owns (c : Thread nD τ) arg12 fullShare (k1_pay4 (k1_pay2 (k1_pay7 x0 x1 x3 x4 x5 x6 x7 x8) (k1_pay8 (F := F) x2) s0) (k1_pay3 (k1_pay8 (F := F) x2) s1) x9 x10)
            ∗ owns (c : Thread nD τ) arg13 fullShare (k1_pay2 (k1_pay7 x0 x1 x3 x4 x5 x6 x7 x8) (k1_pay8 (F := F) x2) s0) ∗ owns (c : Thread nD τ) arg14 fullShare (k1_pay3 (k1_pay8 (F := F) x2) s1)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_kernel_eq_skeleton]; unfold cc1_kernel_skel
  simp only [k1_part1_eq_skeleton]; unfold k1_part1_skel
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%dOut, %fo, -, Ho⟩, ⟨%g0, %hg0, HS0⟩, ⟨%g1, %hg1, HS1⟩, Hk⟩
  subst hf0 hf1 hf2 hf3 hf4 hf5 hf6 hf7 hf8 hf9 hf10 hg0 hg1
  sl_exec (disch := first | exact hF | exact hL)
  sl_step
  iapply Hk
  isplitl [H0 H1 H2 H3 H4 H5 H6 H7 H8 H9 H10]
  · isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    iexists f10; isplitr; · ipureintro; rfl
    iexact H10
  isplitl [Ho]
  · iexists _; isplitr
    swap; · iexact Ho
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]
  isplitl [HS0]
  · iexists _; isplitr
    swap; · iexact HS0
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]
  · iexists _; isplitr
    swap; · iexact HS1
    ipureintro
    refine (read_last_whole _ _ zero2 _ _ _).trans ?_
    sl_unfold_words
    simp only [View.readAt_eq_ld, View.ld_unit_zero (S := S10000x64) zero2, View.ld_unit_zero (S := S10000x1) zero2, View.ld_unit_zero (S := S64x64) zero2, View.ld_unit_zero (S := S1x64) zero2, View.ld_unit_zero (S := S64x10) zero2, View.ld_unit_zero (S := S1x10) zero2, View.ld_unit_zero (S := S512x64) zero2, View.ld_unit_zero (S := S512x1) zero2, View.ld_unit_zero (S := S512x10) zero2, View.readCov_unit_zero (S := S512x64) _ zero2, View.readCov_unit_zero (S := S512x1) _ zero2]

/-! ## The invariant between points -/

/-- What the invariant holds besides the two scratch buffers: the first region's staging buffers at some contents and the
    generator register at some state. -/
def restAt1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f)
    ∗ ∃ r, prngReg c r)

/-- The class invariant hands over the two scratch buffers as memrefs owned at some contents, and the rest; -/
theorem PhiA1_open (c : Dev nD) : (Pipeline.ΦA spec1 c : sProp 𝕄) ⊢ iprop((∃ d, owns (c : Thread nD τ) scSums fullShare d) ∗ (∃ d, owns (c : Thread nD τ) scCnts fullShare d) ∗ restAt1 (F := F) c) := by
  unfold Pipeline.ΦA restAt1; rw [scopedRest1_eq]; simp only [scSums, scCnts, owns_whole]
  iintro ⟨⟨G0, G1, G2, G3, G4, G5, G6, G7, G8, G9, G10, G11, HS0, HS1⟩, Hg⟩
  isplitl [HS0]; · iexact HS0
  isplitl [HS1]; · iexact HS1
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  iexact Hg

/-- and takes them back. -/
theorem PhiA1_close (c : Dev nD) : iprop((∃ d, owns (c : Thread nD τ) scSums fullShare d) ∗ (∃ d, owns (c : Thread nD τ) scCnts fullShare d) ∗ restAt1 (F := F) c) ⊢ (Pipeline.ΦA spec1 c : sProp 𝕄) := by
  unfold Pipeline.ΦA restAt1; rw [scopedRest1_eq]; simp only [scSums, scCnts, owns_whole]
  iintro ⟨HS0, HS1, G0, G1, G2, G3, G4, G5, G6, G7, G8, G9, G10, G11, Hg⟩
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [HS0]; · iexact HS0
  iexact HS1

theorem PhiA1_eq (c : Dev nD) : (Pipeline.ΦA spec1 c : sProp 𝕄) = iprop((∃ d, owns (c : Thread nD τ) scSums fullShare d) ∗ (∃ d, owns (c : Thread nD τ) scCnts fullShare d) ∗ restAt1 (F := F) c) :=
  Entails.antisymm (PhiA1_open c) (PhiA1_close c)
/-- After point `n`: the scratch buffers at that point's sums and counts. -/
theorem Phi1_succ (c : Dev nD) (n : ℕ) (hn : n < cfg1.N) :
    Phi1 V c (n + 1) hn = iprop(owns (c : Thread nD τ) scSums fullShare (accAt1 V c n hn).1
      ∗ owns (c : Thread nD τ) scCnts fullShare (accAt1 V c n hn).2 ∗ restAt1 (F := F) c) := rfl

theorem Phi1_zero (c : Dev nD) (n : ℕ) (h : n ≤ cfg1.N) (hz : n = 0) : Phi1 V c n h = Pipeline.ΦA spec1 c := by
  subst hz; rfl

/-- Before a point that is not the first: the scratch buffers at what the point before left. -/
theorem Phi1_pos (c : Dev nD) (n : ℕ) (h : n ≤ cfg1.N) (hz : n ≠ 0) :
    Phi1 V c n h = iprop(owns (c : Thread nD τ) scSums fullShare (accAt1 V c (n - 1) (by omega)).1
      ∗ owns (c : Thread nD τ) scCnts fullShare (accAt1 V c (n - 1) (by omega)).2 ∗ restAt1 (F := F) c) := by
  cases n with
  | zero => exact absurd rfl hz
  | succ n => rfl

theorem Phi1_castSucc (c : Dev nD) (t : Fin cfg1.N) : (dat1 V c).Φ t.castSucc = Phi1 V c t.val (Nat.le_of_lt t.isLt) := rfl

/-- The sums and counts after the first point: the tile's contribution over zero. -/
theorem accAt1_first (c : Dev nD) (t : Fin cfg1.N) (h0 : t.val = 0) :
    accAt1 V c t.val t.isLt = (k1_pay2 (h2blk V c t) (ohblk V c t) (k1_pay5 (F := F)), k1_pay3 (ohblk V c t) (k1_pay6 (F := F))) := by
  obtain ⟨n, hn⟩ := t
  cases n with
  | zero => rfl
  | succ n => exact absurd h0 (Nat.succ_ne_zero n)

/-- After a later point: the tile's contribution over what the point before left. -/
theorem accAt1_next (c : Dev nD) (t : Fin cfg1.N) (h0 : t.val ≠ 0) :
    accAt1 V c t.val t.isLt = (k1_pay2 (h2blk V c t) (ohblk V c t) (accAt1 V c (t.val - 1) (Nat.lt_of_le_of_lt (Nat.sub_le _ _) t.isLt)).1,
      k1_pay3 (ohblk V c t) (accAt1 V c (t.val - 1) (Nat.lt_of_le_of_lt (Nat.sub_le _ _) t.isLt)).2) := by
  obtain ⟨n, hn⟩ := t
  cases n with
  | zero => exact absurd rfl h0
  | succ n => rfl

/-! ## What the staging buffers hold when the body runs -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]

/-- Each input's current staging buffer holds its block at every point, fetched there or not: an unfetched window's block
    index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

/-- An input window is never idle: the body leaves its staging buffer at the block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) :
    (dat1 V c).leavesExact 5 t = owns (c : Thread nD τ) (st1_5 t) fullShare (iblk1 V c 5 t) := by
  unfold Dat.leavesExact; rw [show cfg1.idle 5 (cfg1.grid.coords t) = false from rfl, after1_5]
theorem leaves1_6 (c : Dev nD) (t : Fin cfg1.N) :
    (dat1 V c).leavesExact 6 t = owns (c : Thread nD τ) (st1_6 t) fullShare (iblk1 V c 6 t) := by
  unfold Dat.leavesExact; rw [show cfg1.idle 6 (cfg1.grid.coords t) = false from rfl, after1_6]
theorem leaves1_7 (c : Dev nD) (t : Fin cfg1.N) :
    (dat1 V c).leavesExact 7 t = owns (c : Thread nD τ) (st1_7 t) fullShare (iblk1 V c 7 t) := by
  unfold Dat.leavesExact; rw [show cfg1.idle 7 (cfg1.grid.coords t) = false from rfl, after1_7]
theorem leaves1_8 (c : Dev nD) (t : Fin cfg1.N) :
    (dat1 V c).leavesExact 8 t = owns (c : Thread nD τ) (st1_8 t) fullShare (iblk1 V c 8 t) := by
  unfold Dat.leavesExact; rw [show cfg1.idle 8 (cfg1.grid.coords t) = false from rfl, after1_8]
theorem leaves1_9 (c : Dev nD) (t : Fin cfg1.N) :
    (dat1 V c).leavesExact 9 t = owns (c : Thread nD τ) (st1_9 t) fullShare (iblk1 V c 9 t) := by
  unfold Dat.leavesExact; rw [show cfg1.idle 9 (cfg1.grid.coords t) = false from rfl, after1_9]
theorem leaves1_10 (c : Dev nD) (t : Fin cfg1.N) :
    (dat1 V c).leavesExact 10 t = owns (c : Thread nD τ) (st1_10 t) fullShare (iblk1 V c 10 t) := by
  unfold Dat.leavesExact; rw [show cfg1.idle 10 (cfg1.grid.coords t) = false from rfl, after1_10]

/-! ## The body obligation, at a generic point -/

/-- What the body is called with at point `t`: the invariant, what the core owes, and every window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4000000 in
/-- The body at any point. The inputs' buffers hold their blocks. At the first point the invariant is the class's, the scratch
    buffers at anything, and the body leaves them at the first tile's contribution over zero; at a later point they hold what
    the point before left and the body adds this tile's. Off the last point the output window is idle and handed back as
    found; at the last point the body leaves in it the block computed from the final sums and counts. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = Phi1 V c (t.val + 1) t.isLt from rfl, Phi1_succ, Phi1_castSucc]
  rw [leaves1_0, leaves1_1, leaves1_2, leaves1_3, leaves1_4, leaves1_5, leaves1_6, leaves1_7, leaves1_8, leaves1_9, leaves1_10]
  have hN : t.val < 10 := lt_of_lt_of_eq t.isLt (show cfg1.N = 10 from N_1)
  by_cases h0 : t.val = 0
  · -- the first point
    have hF : isFirst1 (grid1.coords t) := (isFirst1_iff t).mpr h0
    have hL : ¬isLast1 (grid1.coords t) := fun h => by have := (isLast1_iff t).mp h; omega
    rw [Dat.leavesExact_idle (dat1 V c) 11 t (idle1_11_of_not_last t hL) (noFlush1_11_of_not_last t hL)]
    rw [Phi1_zero V c _ _ h0, PhiA1_eq, accAt1_first V c t h0]
    dsimp only
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernel1_first c Set.univ (grid1.coords t) hF hL (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) scSums (Memref.isWhole_whole _) scCnts (Memref.isWhole_whole _)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) _)
    isplitl [H0 H1 H2 H3 H4 H5 H6 H7 H8 H9 H10]
    · unfold insAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexact H11
    isplitl [HS0]; · iexact HS0
    isplitl [HS1]; · iexact HS1
    unfold insAt
    iintro ⟨⟨H0, H1, H2, H3, H4, H5, H6, H7, H8, H9, H10⟩, H11, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists d11; iexact H11
  · by_cases h9 : t.val = 9
    · -- the last point
      have hF : ¬isFirst1 (grid1.coords t) := fun h => h0 ((isFirst1_iff t).mp h)
      have hL : isLast1 (grid1.coords t) := (isLast1_iff t).mpr h9
      rw [show (dat1 V c).leavesExact 11 t = owns (c : Thread nD τ) (st1_11 t) fullShare ((dat1 V c).after 11 t) from by
        unfold Dat.leavesExact; rw [live1_11_of_last t hL], after1_11]
      unfold out1_11
      rw [Phi1_pos V c _ _ h0, accAt1_next V c t h0]
      dsimp only
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (kernel1_last c Set.univ (grid1.coords t) hF hL (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) scSums (Memref.isWhole_whole _) scCnts (Memref.isWhole_whole _)
        (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (accAt1 V c (t.val - 1) (Nat.lt_of_le_of_lt (Nat.sub_le _ _) t.isLt)).1 (accAt1 V c (t.val - 1) (Nat.lt_of_le_of_lt (Nat.sub_le _ _) t.isLt)).2 _)
      isplitl [H0 H1 H2 H3 H4 H5 H6 H7 H8 H9 H10]
      · unfold insAt
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexists _; iexact H11
      isplitl [HS0]; · iexact HS0
      isplitl [HS1]; · iexact HS1
      unfold insAt
      iintro ⟨⟨H0, H1, H2, H3, H4, H5, H6, H7, H8, H9, H10⟩, H11, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · -- a middle point
      have hF : ¬isFirst1 (grid1.coords t) := fun h => h0 ((isFirst1_iff t).mp h)
      have hL : ¬isLast1 (grid1.coords t) := fun h => h9 ((isLast1_iff t).mp h)
      rw [Dat.leavesExact_idle (dat1 V c) 11 t (idle1_11_of_not_last t hL) (noFlush1_11_of_not_last t hL)]
      rw [Phi1_pos V c _ _ h0, accAt1_next V c t h0]
      dsimp only
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (kernel1_mid c Set.univ (grid1.coords t) hF hL (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) scSums (Memref.isWhole_whole _) scCnts (Memref.isWhole_whole _)
        (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((dat1 V c).before 11 t d11) (accAt1 V c (t.val - 1) (Nat.lt_of_le_of_lt (Nat.sub_le _ _) t.isLt)).1 (accAt1 V c (t.val - 1) (Nat.lt_of_le_of_lt (Nat.sub_le _ _) t.isLt)).2 _)
      isplitl [H0 H1 H2 H3 H4 H5 H6 H7 H8 H9 H10]
      · unfold insAt
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexact H11
      isplitl [HS0]; · iexact HS0
      isplitl [HS1]; · iexact HS1
      unfold insAt
      iintro ⟨⟨H0, H1, H2, H3, H4, H5, H6, H7, H8, H9, H10⟩, H11, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists d11; iexact H11

/-- After the last point the invariant gives the class's back: the scratch contents forgotten. -/
theorem Phi1_last (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega), PhiA1_eq]
  iintro ⟨HS0, HS1, HR⟩
  isplitl [HS0]; · iexists _; iexact HS0
  isplitl [HS1]; · iexists _; iexact HS1
  iexact HR

/-- The body obligation of the second region at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.HandBits.Run.lean ====
/-
  The whole run of @main: two stretches of host operations and two kernel regions. Between two items core `c` holds every
  unscoped buffer at a known valuation: the launch memory, then the host operations' fold, then, where a region has run, its
  output array at the fold of the pipeline's write-backs and every other buffer as before. The run ends with every unscoped
  buffer at the last valuation; the argument arrays are unchanged in it and the result array holds what the second pipeline
  wrote back.
-/
import proofs.«417148_j34376918237439_2_alg».proof.Proof.Patched.Kernel.Launch
import proofs.«417148_j34376918237439_2_alg».proof.Proof.Gen.Kernel.Skeleton
import proofs.«417148_j34376918237439_2_alg».proof.Proof.Gen.Kernel.Points
import proofs.«417148_j34376918237439_2_alg».proof.Proof.Patched.Kernel.Regions
import proofs.«417148_j34376918237439_2_alg».proof.Proof.HandBits.Body0
import proofs.«417148_j34376918237439_2_alg».proof.Proof.HandBits.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The valuations between the items -/

/-- The first region's entry contents, read at the TensorCore's references. -/
abbrev E1 : (c : Dev nD) → (b : Ref sig .tc) → Buf (Elt F) ((c : Thread nD τ).loc b) := fun c b => GenP.V1 m c b

/-- After the first region: its arrays at the fold of the pipeline's write-backs, the rest as entered. -/
def X2 (c : Dev nD) : Valuation τ sig (Elt F) :=
  Pipeline.withArrays spec0 c (GenP.V1 m c) fun w => (dat0 (E1 m) c).arrAt w cfg0.N

/-- What a region leaves in a buffer, by item: the first region's at item 2, everything else from a second table. -/
def mkOuts (o2 o4 : (r : Ref sig .tc) → (c : Dev nD) → Buf (Elt F) ((c : Thread nD τ).loc r)) : GenP.Outs (F := F) :=
  fun j r c => match j with
    | 2 => o2 r c
    | _ => o4 r c

abbrev o2 : (r : Ref sig .tc) → (c : Dev nD) → Buf (Elt F) ((c : Thread nD τ).loc r) := fun r c => X2 m c r

/-- The second region's entry contents. -/
abbrev E3 : (c : Dev nD) → (b : Ref sig .tc) → Buf (Elt F) ((c : Thread nD τ).loc b) :=
  fun c b => GenP.V3 m (mkOuts (o2 m) (o2 m)) c b

/-- After the second region: its arrays at the fold of the pipeline's write-backs, the rest as entered. -/
def X4 (c : Dev nD) : Valuation τ sig (Elt F) :=
  Pipeline.withArrays spec1 c (GenP.V3 m (mkOuts (o2 m) (o2 m)) c) fun w => (dat1 (E3 m) c).arrAt w cfg1.N

abbrev o4 : (r : Ref sig .tc) → (c : Dev nD) → Buf (Elt F) ((c : Thread nD τ).loc r) := fun r c => X4 m c r

/-- What the two regions leave. -/
abbrev outs : GenP.Outs (F := F) := mkOuts (o2 m) (o4 m)

/-- The second host stretch reads only what the first region left. -/
theorem V3_outs (c : Dev nD) : GenP.V3 m (outs m) c = GenP.V3 m (mkOuts (o2 m) (o2 m)) c := rfl

abbrev E2 : (c : Dev nD) → (b : Ref sig .tc) → Buf (Elt F) ((c : Thread nD τ).loc b) := fun c b => GenP.V2 m (outs m) c b
abbrev E4 : (c : Dev nD) → (b : Ref sig .tc) → Buf (Elt F) ((c : Thread nD τ).loc b) := fun c b => GenP.V4 m (outs m) c b

/-! ## The proof data family -/

def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev L : GSem nD τ sig → Finset Unit := fun _ => ∅
abbrev lv : GSem nD τ sig → Unit → ℕ := fun _ _ => 0

/-- What rides beside the buffers through every item: the generator register at some state and nothing owed. -/
abbrev R (c : Dev nD) : sProp 𝕄 := iprop((∃ r, prngReg c r) ∗ ∃ W, owes (c : Thread nD τ) (0 : CellTallies nD τ sig Unit) W)

/-! ## What each region leaves in its arrays -/

theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w

theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w

/-- The first region's output array after it is what the table of its leavings says. -/
theorem V2_out (c : Dev nD) : GenP.V2 m (outs m) c (Proc.devRef .tc main_call0_v30) = X2 m c (Proc.devRef .tc main_call0_v30) := by
  simp only [GenP.V2, Function.update_self]; rfl

theorem V4_out (c : Dev nD) : GenP.V4 m (outs m) c (Proc.devRef .tc main_v0) = X4 m c (Proc.devRef .tc main_v0) := by
  simp only [GenP.V4, Function.update_self]; rfl

theorem hF0_in (c : Dev nD) (w : Fin cfg0.W) (hin : (cfg0.win w).isOut = false)
    (hne : Pipeline.arrRef spec0 w ∉ ([main_call0_v30] : List (Ref sig .tc))) :
    (dat0 (E1 m) c).arrAt w cfg0.N = E2 m c (Pipeline.arrRef spec0 w) :=
  ((dat0 (E1 m) c).arrAt_in w hin _).trans ((A_eq0 (E1 m) c w).trans (GenP.V2_of m (outs m) c _ hne).symm)

theorem hF0 (c : Dev nD) : ∀ w : Fin cfg0.W, (dat0 (E1 m) c).arrAt w cfg0.N = E2 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => hF0_in m c 6 rfl (by decide)
  | ⟨7, _⟩ => hF0_in m c 7 rfl (by decide)
  | ⟨8, _⟩ => ((V2_out m c).trans (X2_arr m c 8)).symm

theorem hrest0 (c : Dev nD) : ∀ b, b ∉ Finset.univ.image (Pipeline.arrRef spec0) → E2 m c b = E1 m c b :=
  fun b hb => GenP.V2_of m (outs m) c b (by
    intro h
    rw [List.mem_singleton] at h
    exact hb (Finset.mem_image.mpr ⟨8, Finset.mem_univ _, h.symm⟩))

theorem hF1_in (c : Dev nD) (w : Fin cfg1.W) (hin : (cfg1.win w).isOut = false)
    (hne : Pipeline.arrRef spec1 w ∉ ([main_v0] : List (Ref sig .tc))) :
    (dat1 (E3 m) c).arrAt w cfg1.N = E4 m c (Pipeline.arrRef spec1 w) :=
  ((dat1 (E3 m) c).arrAt_in w hin _).trans ((A_eq1 (E3 m) c w).trans (GenP.V4_of m (outs m) c _ hne).symm)

/-- Every window of the second region but the last is an input, and its array is not the result array. -/
theorem win1_in : ∀ w : Fin 12, w ≠ 11 →
    (cfg1.win w).isOut = false ∧ Pipeline.arrRef spec1 w ∉ ([main_v0] : List (Ref sig .tc)) := by decide

theorem hF1 (c : Dev nD) (w : Fin cfg1.W) : (dat1 (E3 m) c).arrAt w cfg1.N = E4 m c (Pipeline.arrRef spec1 w) := by
  by_cases h : w = 11
  · subst h
    exact ((V4_out m c).trans (X4_arr m c 11)).symm
  · exact hF1_in m c w (win1_in w h).1 (win1_in w h).2

theorem hrest1 (c : Dev nD) : ∀ b, b ∉ Finset.univ.image (Pipeline.arrRef spec1) → E4 m c b = E3 m c b :=
  fun b hb => GenP.V4_of m (outs m) c b (by
    intro h
    rw [List.mem_singleton] at h
    exact hb (Finset.mem_image.mpr ⟨11, Finset.mem_univ _, h.symm⟩))

/-- The result array at the end of the run is what the second pipeline wrote back. -/
theorem V4_result (c : Dev nD) : GenP.V4 m (outs m) c (Proc.devRef .tc main_v0) = (dat1 (E3 m) c).arrAt 11 cfg1.N :=
  (hF1 m c 11).symm

/-- The first region's output array, as the second host stretch and the second region find it, is what the first pipeline
    wrote back. -/
theorem V2_h1 (c : Dev nD) : GenP.V2 m (outs m) c (Proc.devRef .tc main_call0_v30) = (dat0 (E1 m) c).arrAt 8 cfg0.N :=
  (hF0 m c 8).symm

/-! ## The regions as segments -/

set_option backward.isDefEq.respectTransparency.types false in
/-- The first region: entered with every unscoped buffer at the first host stretch's fold, left with its output array at the
    write-backs' fold. Its arrays are split out of the unscoped buffers and put back; the generator register goes into the
    invariant and comes out; nothing is owed. -/
def reg0 : RegionSeg (pcfgs (F := F)) GenP.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (GenP.V1 m c) ∗ R c)
  post c := iprop(StableHlo.held (c : Thread nD τ) (Pipeline.ucRefs τ sig) (GenP.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at the second host stretch's fold, left with the result array at
    the write-backs' fold. The invariant starts as the class's (every scratch at some contents) and gives it back at the end,
    the sums and counts forgotten. -/
def reg1 : RegionSeg (pcfgs (F := F)) GenP.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (GenP.V3 m (outs m) c) ∗ R c)
  post c := iprop(StableHlo.held (c : Thread nD τ) (Pipeline.ucRefs τ sig) (GenP.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (E3 m c) fun _ => rfl
    rw [Pipeline.unscopedBufs_held] at hsplit
    rw [V3_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (E3 m) c]; unfold Pipeline.ΦA
    iintro ⟨Hp, -, Hr⟩
    isplitl [Hr]; · iexact Hr
    iexact Hp
  hout c := by
    rw [Pipeline.ownSems0_none]
    refine (Phi1_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The second region's exit state is the last thread state beside the core owing nothing. -/
theorem hlast (c : Dev nD) :
    (iprop(StableHlo.held (c : Thread nD τ) (Pipeline.ucRefs τ sig) (GenP.V4 m (outs m) c) ∗ R c) : sProp 𝕄)
      ⊢ iprop((StableHlo.held (c : Thread nD τ) (Pipeline.ucRefs τ sig) (GenP.V4 m (outs m) c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Every weakly fair execution of @main from memory `m` with zero counters terminates, nothing faulting, and in every
    final memory each unscoped buffer of core `c` holds the last valuation's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = GenP.V4 m (outs m) c b) := by
  refine Pipeline.θ_run_regions_kit_dev (pcfgs (F := F)) GenP.adm (pdats m) () cellOf_inj emb₁ defs₀ Variants.none L lv m ρ main
    (GenP.segs m (outs m) Variants.none L lv (fun _ c => R c) () (pdats m) (reg0 m) (reg1 m))
    (fun c Q => by
      rewrite [main_chain c, Seg.run_eq_chain,
        show (GenP.segs m (outs m) Variants.none L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [GenP.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ R c))
    (Tₙ := fun c => iprop(StableHlo.held (c : Thread nD τ) (Pipeline.ucRefs τ sig) (GenP.V4 m (outs m) c) ∗ ∃ r, prngReg c r))
    (hch := fun c => ⟨.rfl, .rfl, .rfl, .rfl, hlast m c⟩)
    (hinit := ?_)
    (QY := fun c s => ∀ b ∈ Pipeline.ucRefs τ sig, s.mem (((c : Thread nD τ)).1, b) = GenP.V4 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (GenP.V4 m (outs m) c) s')
    isplitl [Hh] <;> iassumption

end Cert.Kernel.Hand

end
-- ==== Proof.Val.Common.lean ====
/-
  Shared by the value modules: the global row of a tile's row, and the neighbour aggregation (gather the source rows of the
  edges, scatter-add them at the destination rows) as ONE function of the node features and the edge list, which both
  programs apply twice.
-/
import proofs.«417148_j34376918237439_2_alg».proof.Proof.Gen.ReferenceIdeal.Read
import Idealize.ShloMosaic.Lib.ValueIdx
import Idealize.ShloMosaic.PureOps.Ideal.Laws

noncomputable section

namespace Cert.GinVal

open Idealize.ShloMosaic Idealize.ShloMosaic.ValueIdx

/-- Row `r` of tile `t` (ten tiles of ten thousand rows) as a row of the whole node array. -/
def row (t : Fin 10) (r : Fin 10000) : Fin 100000 := ⟨10000 * t.val + r.val, by omega⟩

theorem row_val (t : Fin 10) (r : Fin 10000) : (row t r).val = 10000 * t.val + r.val := rfl

/-- Every row of the node array is a row of exactly one tile. -/
theorem row_surj (n : Fin 100000) : ∃ (t : Fin 10) (r : Fin 10000), n = row t r :=
  ⟨⟨n.val / 10000, by omega⟩, ⟨n.val % 10000, by omega⟩, Fin.ext (by simp only [row_val]; omega)⟩

theorem row_inj {t t' : Fin 10} {r r' : Fin 10000} (h : row t r = row t' r') : t = t' ∧ r = r' := by
  have := congrArg Fin.val h
  simp only [row_val] at this
  exact ⟨Fin.ext (by omega), Fin.ext (by omega)⟩

/-- The neighbour aggregation of node features `h` along the edge list `ei`: row `i` of the result is the sum of the rows
    `h[src e]` over the edges `e` with `dst e = i` (the source index wrapped when negative, as the programs do). -/
def aggOf (h : (⟨Cert.ReferenceIdeal.S100000x64, .f32⟩ : BufTy).Contents (Elt Ideal))
    (ei : (⟨Cert.ReferenceIdeal.S2x1000000, .i32⟩ : BufTy).Contents (Elt Ideal)) :
    (⟨Cert.ReferenceIdeal.S100000x64, .f32⟩ : BufTy).Contents (Elt Ideal) :=
  Host.scatterAdd (F := Ideal) (φ := .f32) Cert.ReferenceIdeal.scatter_S100000x64_S1000000x1_S1000000x64_1_0_0_1 (Cert.ReferenceIdeal.Read.val_main_v11 (F := Ideal))
    (Cert.ReferenceIdeal.Read.val_main_v12 (F := Ideal) ei)
    (Host.gather (α := Ideal .f32) Cert.ReferenceIdeal.gather_S100000x64_S1000000x1_S1000000x64_1_0_n_n_0_1_164 h (Cert.ReferenceIdeal.Read.val_main_v9 (F := Ideal) ei))

/-- The reference's first aggregation is `aggOf` of the input features. -/
theorem ref_agg0 (x0 : (⟨Cert.ReferenceIdeal.S100000x64, .f32⟩ : BufTy).Contents (Elt Ideal))
    (x1 : (⟨Cert.ReferenceIdeal.S2x1000000, .i32⟩ : BufTy).Contents (Elt Ideal)) :
    Cert.ReferenceIdeal.Read.val_main_v13 (F := Ideal) x0 x1 = aggOf x0 x1 := rfl

/-- The reference's second aggregation is `aggOf` of the first block's output features. -/
theorem ref_agg1 (x0 : (⟨Cert.ReferenceIdeal.S100000x64, .f32⟩ : BufTy).Contents (Elt Ideal))
    (x1 : (⟨Cert.ReferenceIdeal.S2x1000000, .i32⟩ : BufTy).Contents (Elt Ideal)) (x3 : (⟨Cert.ReferenceIdeal.S64x64, .f32⟩ : BufTy).Contents (Elt Ideal))
    (x4 : (⟨Cert.ReferenceIdeal.S64, .f32⟩ : BufTy).Contents (Elt Ideal)) (x5 : (⟨Cert.ReferenceIdeal.S64, .f32⟩ : BufTy).Contents (Elt Ideal)) (x6 : (⟨Cert.ReferenceIdeal.S64, .f32⟩ : BufTy).Contents (Elt Ideal)) (x7 : (⟨Cert.ReferenceIdeal.S64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) :
    Cert.ReferenceIdeal.Read.val_main_v49 (F := Ideal) x0 x1 x3 x4 x5 x6 x7 x8 x9 x10
      = aggOf (Cert.ReferenceIdeal.Read.val_main_v39 (F := Ideal) x0 x1 x3 x4 x5 x6 x7 x8 x9 x10) x1 := rfl

end Cert.GinVal

end
-- ==== Proof.Val.CommonK.lean ====
/-
  Kernel-side names shared by the value modules: a grid point of either region as a tile number, and the last point.
-/
import proofs.«417148_j34376918237439_2_alg».proof.Proof.Val.Common
import proofs.«417148_j34376918237439_2_alg».proof.Proof.Patched.KernelIdeal.Launch

noncomputable section

namespace Cert.GinVal

open Cert.KernelIdeal Cert.KernelIdeal.Gen Cert.KernelIdeal.GenP Idealize.ShloMosaic Idealize.ShloMosaic.TcCoe Idealize.SL.Sem

/-- A grid point of the first region as a tile number. -/
def tile0 (t : Fin cfg0.N) : Fin 10 := ⟨t.val, lt_of_lt_of_eq t.isLt N_0⟩
/-- A grid point of the second region as a tile number. -/
def tile1 (t : Fin cfg1.N) : Fin 10 := ⟨t.val, lt_of_lt_of_eq t.isLt N_1⟩
/-- The last grid point of the second region. -/
def t9 : Fin cfg1.N := ⟨9, by rw [show cfg1.N = 10 from N_1]; decide⟩

/-! The 21 argument arrays of core `c`, typed as the reference's stages take them. -/

abbrev A0 (m : (ℓ : Loc nD τ sig) → Buf (Elt Ideal) ℓ) (c : Dev nD) : (⟨Cert.ReferenceIdeal.S100000x64, .f32⟩ : BufTy).Contents (Elt Ideal) :=
  m ((c.tc : Thread nD τ).loc main_arg0)
abbrev A1 (m : (ℓ : Loc nD τ sig) → Buf (Elt Ideal) ℓ) (c : Dev nD) : (⟨Cert.ReferenceIdeal.S2x1000000, .i32⟩ : BufTy).Contents (Elt Ideal) :=
  m ((c.tc : Thread nD τ).loc main_arg1)
abbrev A2 (m : (ℓ : Loc nD τ sig) → Buf (Elt Ideal) ℓ) (c : Dev nD) : (⟨Cert.ReferenceIdeal.S100000, .i32⟩ : BufTy).Contents (Elt Ideal) :=
  m ((c.tc : Thread nD τ).loc main_arg2)
abbrev A3 (m : (ℓ : Loc nD τ sig) → Buf (Elt Ideal) ℓ) (c : Dev nD) : (⟨Cert.ReferenceIdeal.S64x64, .f32⟩ : BufTy).Contents (Elt Ideal) :=
  m ((c.tc : Thread nD τ).loc main_arg3)
abbrev A4 (m : (ℓ : Loc nD τ sig) → Buf (Elt Ideal) ℓ) (c : Dev nD) : (⟨Cert.ReferenceIdeal.S64, .f32⟩ : BufTy).Contents (Elt Ideal) :=
  m ((c.tc : Thread nD τ).loc main_arg4)
abbrev A5 (m : (ℓ : Loc nD τ sig) → Buf (Elt Ideal) ℓ) (c : Dev nD) : (⟨Cert.ReferenceIdeal.S64, .f32⟩ : BufTy).Contents (Elt Ideal) :=
  m ((c.tc : Thread nD τ).loc main_arg5)
abbrev A6 (m : (ℓ : Loc nD τ sig) → Buf (Elt Ideal) ℓ) (c : Dev nD) : (⟨Cert.ReferenceIdeal.S64, .f32⟩ : BufTy).Contents (Elt Ideal) :=
  m ((c.tc : Thread nD τ).loc main_arg6)
abbrev A7 (m : (ℓ : Loc nD τ sig) → Buf (Elt Ideal) ℓ) (c : Dev nD) : (⟨Cert.ReferenceIdeal.S64, .f32⟩ : BufTy).Contents (Elt Ideal) :=
  m ((c.tc : Thread nD τ).loc main_arg7)
abbrev A8 (m : (ℓ : Loc nD τ sig) → Buf (Elt Ideal) ℓ) (c : Dev nD) : (⟨Cert.ReferenceIdeal.S64, .f32⟩ : BufTy).Contents (Elt Ideal) :=
  m ((c.tc : Thread nD τ).loc main_arg8)
abbrev A9 (m : (ℓ : Loc nD τ sig) → Buf (Elt Ideal) ℓ) (c : Dev nD) : (⟨Cert.ReferenceIdeal.S64x64, .f32⟩ : BufTy).Contents (Elt Ideal) :=
  m ((c.tc : Thread nD τ).loc main_arg9)
abbrev A10 (m : (ℓ : Loc nD τ sig) → Buf (Elt Ideal) ℓ) (c : Dev nD) : (⟨Cert.ReferenceIdeal.S64, .f32⟩ : BufTy).Contents (Elt Ideal) :=
  m ((c.tc : Thread nD τ).loc main_arg10)
abbrev A11 (m : (ℓ : Loc nD τ sig) → Buf (Elt Ideal) ℓ) (c : Dev nD) : (⟨Cert.ReferenceIdeal.S64x64, .f32⟩ : BufTy).Contents (Elt Ideal) :=
  m ((c.tc : Thread nD τ).loc main_arg11)
abbrev A12 (m : (ℓ : Loc nD τ sig) → Buf (Elt Ideal) ℓ) (c : Dev nD) : (⟨Cert.ReferenceIdeal.S64, .f32⟩ : BufTy).Contents (Elt Ideal) :=
  m ((c.tc : Thread nD τ).loc main_arg12)
abbrev A13 (m : (ℓ : Loc nD τ sig) → Buf (Elt Ideal) ℓ) (c : Dev nD) : (⟨Cert.ReferenceIdeal.S64, .f32⟩ : BufTy).Contents (Elt Ideal) :=
  m ((c.tc : Thread nD τ).loc main_arg13)
abbrev A14 (m : (ℓ : Loc nD τ sig) → Buf (Elt Ideal) ℓ) (c : Dev nD) : (⟨Cert.ReferenceIdeal.S64, .f32⟩ : BufTy).Contents (Elt Ideal) :=
  m ((c.tc : Thread nD τ).loc main_arg14)
abbrev A15 (m : (ℓ : Loc nD τ sig) → Buf (Elt Ideal) ℓ) (c : Dev nD) : (⟨Cert.ReferenceIdeal.S64, .f32⟩ : BufTy).Contents (Elt Ideal) :=
  m ((c.tc : Thread nD τ).loc main_arg15)
abbrev A16 (m : (ℓ : Loc nD τ sig) → Buf (Elt Ideal) ℓ) (c : Dev nD) : (⟨Cert.ReferenceIdeal.S64, .f32⟩ : BufTy).Contents (Elt Ideal) :=
  m ((c.tc : Thread nD τ).loc main_arg16)
abbrev A17 (m : (ℓ : Loc nD τ sig) → Buf (Elt Ideal) ℓ) (c : Dev nD) : (⟨Cert.ReferenceIdeal.S64x64, .f32⟩ : BufTy).Contents (Elt Ideal) :=
  m ((c.tc : Thread nD τ).loc main_arg17)
abbrev A18 (m : (ℓ : Loc nD τ sig) → Buf (Elt Ideal) ℓ) (c : Dev nD) : (⟨Cert.ReferenceIdeal.S64, .f32⟩ : BufTy).Contents (Elt Ideal) :=
  m ((c.tc : Thread nD τ).loc main_arg18)
abbrev A19 (m : (ℓ : Loc nD τ sig) → Buf (Elt Ideal) ℓ) (c : Dev nD) : (⟨Cert.ReferenceIdeal.S64x10, .f32⟩ : BufTy).Contents (Elt Ideal) :=
  m ((c.tc : Thread nD τ).loc main_arg19)
abbrev A20 (m : (ℓ : Loc nD τ sig) → Buf (Elt Ideal) ℓ) (c : Dev nD) : (⟨Cert.ReferenceIdeal.S10, .f32⟩ : BufTy).Contents (Elt Ideal) :=
  m ((c.tc : Thread nD τ).loc main_arg20)

theorem tile0_val (t : Fin cfg0.N) : (tile0 t).val = t.val := rfl
theorem tile1_val (t : Fin cfg1.N) : (tile1 t).val = t.val := rfl
theorem t9_val : t9.val = 9 := rfl

end Cert.GinVal

end
-- ==== Proof.Val.Pre.lean ====
/-
  What the precondition says of the BatchNorm parameters: the scales, shifts and running means of both blocks are real
  numbers, and the running variances are non-negative reals.
-/
import proofs.«417148_j34376918237439_2_alg».proof.Defs
import proofs.«417148_j34376918237439_2_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

namespace Cert.GinVal

open Cert.KernelIdeal Idealize.ShloMosaic Idealize.ShloMosaic.TcCoe Idealize.ShloMosaic.ValueIdx Idealize.SL.Sem

/-- A rank-0 shape has one index. -/
instance scalarIdx_subsingleton : Subsingleton (⟨0, ![]⟩ : Shape).Idx := ⟨fun a b => funext fun d => d.elim0⟩

/-- The f32 pattern of +∞ is the top extended real. -/
theorem ofBits_inf : Ideal.ofBits .f32 0x7F800000#32 = (⊤ : EReal) := by simp [Ideal.ofBits, Ideal.ieee]

/-- The f32 pattern of +0 is zero. -/
theorem ofBits_zero : Ideal.ofBits .f32 0x00000000#32 = (0 : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- `all(|x| < +∞)`, read back: every entry of `x` is a real number. -/
theorem real_of_all_lt_inf {s : Shape} {axes : List (Fin s.rank)} (hb : (⟨0, ![]⟩ : Shape).BroadcastsInDim s ![])
    (hr : s.ReducesTo axes ⟨0, ![]⟩) (h0 : 0 < (⟨0, ![]⟩ : Shape).numel) (x : FVec Ideal s .f32)
    (h : Host.reduce IntOp.andi (cmpf .olt (Host.absf x) (broadcastInDim s ![] hb (constant ⟨0, ![]⟩ .f32 0x7F800000#32)))
      (constantI ⟨0, ![]⟩ 1 1#1) hr h0 ix0 = 1#1) (i : s.Idx) : ∃ r : ℝ, x i = (r : EReal) := by
  have e := Host.reduce_andi_all _ _ hr h0 ix0 h i
  simp only [cmpf, Host.absf, StableHlo.Predicate.bcast_scalar hb h0, constant] at e
  have e' : Ideal.cmp .olt (max (x i) (-(x i))) (Ideal.ofBits .f32 0x7F800000#32) = 1#1 := e
  rw [ofBits_inf] at e'
  simp only [Ideal.cmp, StableHlo.Predicate.ofBool_eq_one_iff, decide_eq_true_eq] at e'
  exact real_of_abs_lt_top _ e'

/-- `all(x ≥ 0)`, read back: every entry of `x` is at least zero. -/
theorem nonneg_of_all_ge_zero {s : Shape} {axes : List (Fin s.rank)} (hb : (⟨0, ![]⟩ : Shape).BroadcastsInDim s ![])
    (hr : s.ReducesTo axes ⟨0, ![]⟩) (h0 : 0 < (⟨0, ![]⟩ : Shape).numel) (x : FVec Ideal s .f32)
    (h : Host.reduce IntOp.andi (cmpf .oge x (broadcastInDim s ![] hb (constant ⟨0, ![]⟩ .f32 0x00000000#32)))
      (constantI ⟨0, ![]⟩ 1 1#1) hr h0 ix0 = 1#1) (i : s.Idx) : (0 : EReal) ≤ x i := by
  have e := Host.reduce_andi_all _ _ hr h0 ix0 h i
  simp only [cmpf, StableHlo.Predicate.bcast_scalar hb h0, constant] at e
  have e' : Ideal.cmp .oge (x i) (Ideal.ofBits .f32 0x00000000#32) = 1#1 := e
  rw [ofBits_zero] at e'
  simp only [Ideal.cmp, StableHlo.Predicate.ofBool_eq_one_iff, decide_eq_true_eq] at e'
  exact e'

/-- Both facts together: the entries are non-negative reals. -/
theorem nonneg_real_of_all {s : Shape} {axes : List (Fin s.rank)} (hb : (⟨0, ![]⟩ : Shape).BroadcastsInDim s ![])
    (hr : s.ReducesTo axes ⟨0, ![]⟩) (h0 : 0 < (⟨0, ![]⟩ : Shape).numel) (x : FVec Ideal s .f32)
    (hfin : Host.reduce IntOp.andi (cmpf .olt (Host.absf x) (broadcastInDim s ![] hb (constant ⟨0, ![]⟩ .f32 0x7F800000#32)))
      (constantI ⟨0, ![]⟩ 1 1#1) hr h0 ix0 = 1#1)
    (hge : Host.reduce IntOp.andi (cmpf .oge x (broadcastInDim s ![] hb (constant ⟨0, ![]⟩ .f32 0x00000000#32)))
      (constantI ⟨0, ![]⟩ 1 1#1) hr h0 ix0 = 1#1) (i : s.Idx) : ∃ r : ℝ, 0 ≤ r ∧ x i = (r : EReal) := by
  obtain ⟨r, hr'⟩ := real_of_all_lt_inf hb hr h0 x hfin i
  have := nonneg_of_all_ge_zero hb hr h0 x hge i
  rw [hr'] at this
  exact ⟨r, by exact_mod_cast this, hr'⟩

/-- The eight parameter vectors of the two BatchNorm layers on core `c`: real entries, the variances non-negative. -/
structure ParamsOk (m : (ℓ : Loc nD τ sig) → Buf (Elt Ideal) ℓ) (c : Dev nD) : Prop where
  g0 : ∀ k : Fin 64, ∃ r : ℝ, m ((c.tc : Thread nD τ).loc main_arg5) (ix1 k) = (r : EReal)
  be0 : ∀ k : Fin 64, ∃ r : ℝ, m ((c.tc : Thread nD τ).loc main_arg6) (ix1 k) = (r : EReal)
  m0 : ∀ k : Fin 64, ∃ r : ℝ, m ((c.tc : Thread nD τ).loc main_arg7) (ix1 k) = (r : EReal)
  v0 : ∀ k : Fin 64, ∃ r : ℝ, 0 ≤ r ∧ m ((c.tc : Thread nD τ).loc main_arg8) (ix1 k) = (r : EReal)
  g1 : ∀ k : Fin 64, ∃ r : ℝ, m ((c.tc : Thread nD τ).loc main_arg13) (ix1 k) = (r : EReal)
  be1 : ∀ k : Fin 64, ∃ r : ℝ, m ((c.tc : Thread nD τ).loc main_arg14) (ix1 k) = (r : EReal)
  m1 : ∀ k : Fin 64, ∃ r : ℝ, m ((c.tc : Thread nD τ).loc main_arg15) (ix1 k) = (r : EReal)
  v1 : ∀ k : Fin 64, ∃ r : ℝ, 0 ≤ r ∧ m ((c.tc : Thread nD τ).loc main_arg16) (ix1 k) = (r : EReal)

theorem params_of_pre (m : (ℓ : Loc nD τ sig) → Buf (Elt Ideal) ℓ)
    (h : Cert.Pre_KernelIdeal (hPre_finite_inputs := Cert.Pre_finite_inputs.Gen.facts) m) (c : Dev nD) : ParamsOk m c := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  simp only [andi, IntOp.andi_eq_one] at h0
  obtain ⟨⟨⟨⟨⟨⟨⟨⟨⟨⟨⟨⟨⟨⟨⟨⟨⟨⟨⟨⟨_, _⟩, _⟩, h5⟩, h6⟩, h7⟩, h8⟩, _⟩, _⟩, _⟩, _⟩, h13⟩, h14⟩, h15⟩, h16⟩, _⟩, _⟩, _⟩, _⟩, hv8⟩, hv16⟩ := h0
  exact
    { g0 := fun k => real_of_all_lt_inf _ _ _ _ h5 (ix1 k)
      be0 := fun k => real_of_all_lt_inf _ _ _ _ h6 (ix1 k)
      m0 := fun k => real_of_all_lt_inf _ _ _ _ h7 (ix1 k)
      v0 := fun k => nonneg_real_of_all _ _ _ _ h8 hv8 (ix1 k)
      g1 := fun k => real_of_all_lt_inf _ _ _ _ h13 (ix1 k)
      be1 := fun k => real_of_all_lt_inf _ _ _ _ h14 (ix1 k)
      m1 := fun k => real_of_all_lt_inf _ _ _ _ h15 (ix1 k)
      v1 := fun k => nonneg_real_of_all _ _ _ _ h16 hv16 (ix1 k) }

end Cert.GinVal

end
-- ==== Proof.Val.HostVals0.lean ====
/-
  The first region as it is entered: each window's block at a grid point as entries of the argument arrays (the node features
  and their aggregation by rows of the tile, the weights whole, the bias, the folded BatchNorm scale and shift as the host
  computed them), and the region's output array after the run as the tiles' payloads laid out by rows.
-/
import proofs.«417148_j34376918237439_2_alg».proof.Proof.Val.CommonK
import proofs.«417148_j34376918237439_2_alg».proof.Proof.Hand.Run
import Idealize.ShloMosaic.Lib.Pipeline.Value
import Idealize.ShloMosaic.Lib.ValueLayout

set_option maxRecDepth 16384

noncomputable section

namespace Cert.GinVal

open Cert.KernelIdeal Cert.KernelIdeal.Gen Cert.KernelIdeal.GenP Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## Where each window's block sits in its array -/

/-- The block index of the three row-tiled windows (node features, their aggregation, the output) at a grid point is the
    point's number on the row axis and zero on the column axis; the six whole-array windows sit at block zero on both. -/
theorem hv0_idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_8.index t (0 : Fin 2) = t.val ∧ win0_8.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

section Blocks
/-! Each window's block at a point, entry by entry, as entries of its array, whatever the region's entry contents `V` are. -/

variable (V : (c : Dev nD) → (b : Ref sig .tc) → Buf (Elt Ideal) ((c : Thread nD τ).loc b))

/-- A row-tiled block: entry `(r, k)` of tile `t` is entry `(10000 t + r, k)` of the array. -/
theorem hv0_tile_blk0_0 (t : Fin cfg0.N) (r : Fin 10000) (k : Fin 64) :
    iblk0 V c 0 t (ix2 r k) = (V c main_arg0 : S100000x64.Idx → EReal) (ix2 (row (tile0 t) r) k) := by
  unfold iblk0
  rw [View.read_apply]
  show V c main_arg0 _ = V c main_arg0 _
  congr 1
  funext a
  apply Fin.ext
  match a with
  | ⟨0, _⟩ =>
    show win0_0.index t (0 : Fin 2) * 10000 + 1 * r.val = 10000 * t.val + r.val
    rw [(hv0_idx0 t).1.1]; omega
  | ⟨1, _⟩ =>
    show win0_0.index t (1 : Fin 2) * 64 + 1 * k.val = k.val
    rw [(hv0_idx0 t).1.2]; omega

theorem hv0_tile_blk0_1 (t : Fin cfg0.N) (r : Fin 10000) (k : Fin 64) :
    iblk0 V c 1 t (ix2 r k) = (V c main_call0_v25 : S100000x64.Idx → EReal) (ix2 (row (tile0 t) r) k) := by
  unfold iblk0
  rw [View.read_apply]
  show V c main_call0_v25 _ = V c main_call0_v25 _
  congr 1
  funext a
  apply Fin.ext
  match a with
  | ⟨0, _⟩ =>
    show win0_1.index t (0 : Fin 2) * 10000 + 1 * r.val = 10000 * t.val + r.val
    rw [(hv0_idx0 t).2.1.1]; omega
  | ⟨1, _⟩ =>
    show win0_1.index t (1 : Fin 2) * 64 + 1 * k.val = k.val
    rw [(hv0_idx0 t).2.1.2]; omega

theorem hv0_whole_blk0_2 (t : Fin cfg0.N) (p : Fin 64) (q : Fin 64) :
    iblk0 V c 2 t (ix2 p q) = (V c main_arg3 : S64x64.Idx → EReal) (ix2 p q) := by
  unfold iblk0
  rw [View.read_apply]
  show V c main_arg3 _ = V c main_arg3 _
  congr 1
  funext a
  apply Fin.ext
  match a with
  | ⟨0, _⟩ =>
    show win0_2.index t (0 : Fin 2) * 64 + 1 * p.val = p.val
    rw [(hv0_idx0 t).2.2.2.1.1]; omega
  | ⟨1, _⟩ =>
    show win0_2.index t (1 : Fin 2) * 64 + 1 * q.val = q.val
    rw [(hv0_idx0 t).2.2.2.1.2]; omega

theorem hv0_whole_blk0_3 (t : Fin cfg0.N) (p : Fin 1) (q : Fin 64) :
    iblk0 V c 3 t (ix2 p q) = (V c main_call0_v26 : S1x64.Idx → EReal) (ix2 p q) := by
  unfold iblk0
  rw [View.read_apply]
  show V c main_call0_v26 _ = V c main_call0_v26 _
  congr 1
  funext a
  apply Fin.ext
  match a with
  | ⟨0, _⟩ =>
    show win0_3.index t (0 : Fin 2) * 1 + 1 * p.val = p.val
    rw [(hv0_idx0 t).2.2.2.2.1.1]; omega
  | ⟨1, _⟩ =>
    show win0_3.index t (1 : Fin 2) * 64 + 1 * q.val = q.val
    rw [(hv0_idx0 t).2.2.2.2.1.2]; omega

theorem hv0_whole_blk0_4 (t : Fin cfg0.N) (p : Fin 1) (q : Fin 64) :
    iblk0 V c 4 t (ix2 p q) = (V c main_call0_v27 : S1x64.Idx → EReal) (ix2 p q) := by
  unfold iblk0
  rw [View.read_apply]
  show V c main_call0_v27 _ = V c main_call0_v27 _
  congr 1
  funext a
  apply Fin.ext
  match a with
  | ⟨0, _⟩ =>
    show win0_4.index t (0 : Fin 2) * 1 + 1 * p.val = p.val
    rw [(hv0_idx0 t).2.2.2.2.2.1.1]; omega
  | ⟨1, _⟩ =>
    show win0_4.index t (1 : Fin 2) * 64 + 1 * q.val = q.val
    rw [(hv0_idx0 t).2.2.2.2.2.1.2]; omega

theorem hv0_whole_blk0_5 (t : Fin cfg0.N) (p : Fin 1) (q : Fin 64) :
    iblk0 V c 5 t (ix2 p q) = (V c main_call0_v28 : S1x64.Idx → EReal) (ix2 p q) := by
  unfold iblk0
  rw [View.read_apply]
  show V c main_call0_v28 _ = V c main_call0_v28 _
  congr 1
  funext a
  apply Fin.ext
  match a with
  | ⟨0, _⟩ =>
    show win0_5.index t (0 : Fin 2) * 1 + 1 * p.val = p.val
    rw [(hv0_idx0 t).2.2.2.2.2.2.1.1]; omega
  | ⟨1, _⟩ =>
    show win0_5.index t (1 : Fin 2) * 64 + 1 * q.val = q.val
    rw [(hv0_idx0 t).2.2.2.2.2.2.1.2]; omega

theorem hv0_whole_blk0_6 (t : Fin cfg0.N) (p : Fin 64) (q : Fin 64) :
    iblk0 V c 6 t (ix2 p q) = (V c main_arg9 : S64x64.Idx → EReal) (ix2 p q) := by
  unfold iblk0
  rw [View.read_apply]
  show V c main_arg9 _ = V c main_arg9 _
  congr 1
  funext a
  apply Fin.ext
  match a with
  | ⟨0, _⟩ =>
    show win0_6.index t (0 : Fin 2) * 64 + 1 * p.val = p.val
    rw [(hv0_idx0 t).2.2.2.2.2.2.2.1.1]; omega
  | ⟨1, _⟩ =>
    show win0_6.index t (1 : Fin 2) * 64 + 1 * q.val = q.val
    rw [(hv0_idx0 t).2.2.2.2.2.2.2.1.2]; omega

theorem hv0_whole_blk0_7 (t : Fin cfg0.N) (p : Fin 1) (q : Fin 64) :
    iblk0 V c 7 t (ix2 p q) = (V c main_call0_v29 : S1x64.Idx → EReal) (ix2 p q) := by
  unfold iblk0
  rw [View.read_apply]
  show V c main_call0_v29 _ = V c main_call0_v29 _
  congr 1
  funext a
  apply Fin.ext
  match a with
  | ⟨0, _⟩ =>
    show win0_7.index t (0 : Fin 2) * 1 + 1 * p.val = p.val
    rw [(hv0_idx0 t).2.2.2.2.2.2.2.2.1]; omega
  | ⟨1, _⟩ =>
    show win0_7.index t (1 : Fin 2) * 64 + 1 * q.val = q.val
    rw [(hv0_idx0 t).2.2.2.2.2.2.2.2.2]; omega

end Blocks

/-! ## What the host operations before the region left in the arrays its windows stage -/

set_option maxHeartbeats 1000000 in
/-- The aggregation the host computes for the first block is the neighbour aggregation of the input features. -/
theorem hv0_agg0_eq : (GenP.V1 m c main_call0_v25 : S100000x64.Idx → EReal) = aggOf (A0 m c) (A1 m c) := by
  show StableHlo.after hostOps0 (GenP.V0 m c) (Proc.devRef .tc main_call0_v25) = _
  after_results_simp
  rfl

/-- The first Linear's bias as a one-row matrix. -/
theorem hv0_b0a_eq : (GenP.V1 m c main_call0_v26 : S1x64.Idx → EReal) = shapeCast S1x64 (A4 m c : S64.Idx → EReal) shapeCasts_S64_S1x64 := by
  show StableHlo.after hostOps0 (GenP.V0 m c) (Proc.devRef .tc main_call0_v26) = _
  after_results
  rfl

/-- The second Linear's bias as a one-row matrix. -/
theorem hv0_b0b_eq : (GenP.V1 m c main_call0_v29 : S1x64.Idx → EReal) = shapeCast S1x64 (A10 m c : S64.Idx → EReal) shapeCasts_S64_S1x64 := by
  show StableHlo.after hostOps0 (GenP.V0 m c) (Proc.devRef .tc main_call0_v29) = _
  after_results
  rfl

/-- The folded BatchNorm scale, `γ · rsqrt(σ² + ε)`, as the host computes it, entry by entry. -/
abbrev hv0_scale0 : FVec Ideal S64 .f32 :=
  mulf (A5 m c : FVec Ideal S64 .f32) (Host.rsqrt (addf (A8 m c : FVec Ideal S64 .f32) (broadcastInDim S64 ![] bcast_S_S64 (constant (F := Ideal) S_ .f32 0x3727C5AC#32))))

theorem hv0_scale0_eq : (GenP.V1 m c main_call0_v27 : S1x64.Idx → EReal) = shapeCast S1x64 (hv0_scale0 m c) shapeCasts_S64_S1x64 := by
  show StableHlo.after hostOps0 (GenP.V0 m c) (Proc.devRef .tc main_call0_v27) = _
  after_results
  rfl

/-- The folded BatchNorm shift, `β − μ · scale`. -/
theorem hv0_shift0_eq : (GenP.V1 m c main_call0_v28 : S1x64.Idx → EReal)
    = shapeCast S1x64 (subf (A6 m c : FVec Ideal S64 .f32) (mulf (A7 m c : FVec Ideal S64 .f32) (hv0_scale0 m c)) : FVec Ideal S64 .f32) shapeCasts_S64_S1x64 := by
  show StableHlo.after hostOps0 (GenP.V0 m c) (Proc.devRef .tc main_call0_v28) = _
  after_results
  rfl

/-- The scale at an entry. -/
theorem hv0_scale0_apply (k : Fin 64) :
    hv0_scale0 m c (ix1 k) = A5 m c (ix1 k) * Ideal.rsqrt (A8 m c (ix1 k) + Ideal.ofBits .f32 0x3727C5AC#32) := by
  show A5 m c (ix1 k) * Ideal.rsqrt (A8 m c (ix1 k) + broadcastInDim S64 ![] bcast_S_S64 (constant (F := Ideal) S_ .f32 0x3727C5AC#32) (ix1 k)) = _
  rw [broadcastInDim_apply ![] bcast_S_S64 (constant (F := Ideal) S_ .f32 0x3727C5AC#32) (ix1 k) ix0 (fun a => a.elim0)]
  rfl

/-! ## The eight input blocks at a point -/

theorem blk0_0 (t : Fin cfg0.N) (r : Fin 10000) (k : Fin 64) :
    iblk0 (E1 m) c 0 t (ix2 r k) = (A0 m c) (ix2 (row (tile0 t) r) k) := by
  rw [hv0_tile_blk0_0]
  exact congrFun (GenP.V1_of m c main_arg0 (by decide)) _

theorem blk0_1 (t : Fin cfg0.N) (r : Fin 10000) (k : Fin 64) :
    iblk0 (E1 m) c 1 t (ix2 r k) = aggOf (A0 m c) (A1 m c) (ix2 (row (tile0 t) r) k) := by
  rw [hv0_tile_blk0_1]
  exact congrFun (hv0_agg0_eq m c) _

theorem blk0_2 (t : Fin cfg0.N) (k k' : Fin 64) :
    iblk0 (E1 m) c 2 t (ix2 k k') = (A3 m c) (ix2 k k') := by
  rw [hv0_whole_blk0_2]
  exact congrFun (GenP.V1_of m c main_arg3 (by decide)) _

theorem blk0_3 (t : Fin cfg0.N) (k : Fin 64) :
    iblk0 (E1 m) c 3 t (ix2 (0 : Fin 1) k) = (A4 m c) (ix1 k) := by
  rw [hv0_whole_blk0_3]
  refine (congrFun (hv0_b0a_eq m c) _).trans ?_
  exact shapeCast_a_1a_apply _ _ _ _

theorem blk0_4 (t : Fin cfg0.N) (k : Fin 64) :
    iblk0 (E1 m) c 4 t (ix2 (0 : Fin 1) k) = A5 m c (ix1 k) * Ideal.rsqrt (A8 m c (ix1 k) + Ideal.ofBits .f32 0x3727C5AC#32) := by
  rw [hv0_whole_blk0_4]
  refine (congrFun (hv0_scale0_eq m c) _).trans ?_
  refine (shapeCast_a_1a_apply _ _ _ _).trans ?_
  exact hv0_scale0_apply m c k

theorem blk0_5 (t : Fin cfg0.N) (k : Fin 64) :
    iblk0 (E1 m) c 5 t (ix2 (0 : Fin 1) k) = A6 m c (ix1 k) - A7 m c (ix1 k) * (A5 m c (ix1 k) * Ideal.rsqrt (A8 m c (ix1 k) + Ideal.ofBits .f32 0x3727C5AC#32)) := by
  rw [hv0_whole_blk0_5]
  refine (congrFun (hv0_shift0_eq m c) _).trans ?_
  refine (shapeCast_a_1a_apply _ _ _ _).trans ?_
  show A6 m c (ix1 k) - A7 m c (ix1 k) * hv0_scale0 m c (ix1 k) = _
  rw [hv0_scale0_apply]

theorem blk0_6 (t : Fin cfg0.N) (k k' : Fin 64) :
    iblk0 (E1 m) c 6 t (ix2 k k') = (A9 m c) (ix2 k k') := by
  rw [hv0_whole_blk0_6]
  exact congrFun (GenP.V1_of m c main_arg9 (by decide)) _

theorem blk0_7 (t : Fin cfg0.N) (k : Fin 64) :
    iblk0 (E1 m) c 7 t (ix2 (0 : Fin 1) k) = (A10 m c) (ix1 k) := by
  rw [hv0_whole_blk0_7]
  refine (congrFun (hv0_b0b_eq m c) _).trans ?_
  exact shapeCast_a_1a_apply _ _ _ _

/-! ## The output array after the region

Every point writes its output tile back, and the ten tiles are the ten blocks of 10000 rows of the array: so after the run
entry `(n, j)` of the array is the payload of tile `n / 10000` at row `n % 10000`. -/

theorem hv0_zeros2 : (![0, 0] : Fin 2 → Nat) = fun _ => 0 := funext fun a => by fin_cases a <;> rfl

/-- The grid point whose tile holds node row `n`, -/
def hv0_tileOf (n : Fin 100000) : Fin cfg0.N := ⟨n.val / 10000, by rw [show cfg0.N = 10 from N_0]; omega⟩
/-- and the row's place in that tile. -/
def hv0_rowIn (n : Fin 100000) : Fin 10000 := ⟨n.val % 10000, Nat.mod_lt _ (by decide)⟩

/-- The payload of tile `t` at row `r`, column `j`. -/
def hv0_pay0 (t : Fin cfg0.N) (r : Fin 10000) (j : Fin 64) : EReal :=
  k0_pay1 (F := Ideal) (iblk0 (E1 m) c 0 t) (iblk0 (E1 m) c 1 t) (iblk0 (E1 m) c 2 t) (iblk0 (E1 m) c 3 t) (iblk0 (E1 m) c 4 t) (iblk0 (E1 m) c 5 t) (iblk0 (E1 m) c 6 t) (iblk0 (E1 m) c 7 t) (ix2 r j)

/-- The output array as one function of the region's entry contents. -/
def hv0_h1Arr : S100000x64.Idx → EReal := fun i => hv0_pay0 m c (hv0_tileOf (i 0)) (hv0_rowIn (i 0)) (i 1)

/-- At the place of tile `t`'s entry `y` in the array, that function is tile `t`'s payload at `y`. -/
theorem hv0_h1Arr_emb (t : Fin cfg0.N) (y : S10000x64.Idx) :
    hv0_h1Arr m c (((cfg0.win 8).blk t).view.emb y) = k0_pay1 (F := Ideal) (iblk0 (E1 m) c 0 t) (iblk0 (E1 m) c 1 t) (iblk0 (E1 m) c 2 t) (iblk0 (E1 m) c 3 t) (iblk0 (E1 m) c 4 t) (iblk0 (E1 m) c 5 t) (iblk0 (E1 m) c 6 t) (iblk0 (E1 m) c 7 t) y := by
  have hy : (y 0).val < 10000 := (y 0).isLt
  have e0 : hv0_tileOf ((((cfg0.win 8).blk t).view.emb y : S100000x64.Idx) 0) = t := Fin.ext (by
    show (win0_8.index t (0 : Fin 2) * 10000 + 1 * (y 0).val) / 10000 = t.val
    rw [(hv0_idx0 t).2.2.1.1]; omega)
  have e1 : hv0_rowIn ((((cfg0.win 8).blk t).view.emb y : S100000x64.Idx) 0) = y 0 := Fin.ext (by
    show (win0_8.index t (0 : Fin 2) * 10000 + 1 * (y 0).val) % 10000 = (y 0).val
    rw [(hv0_idx0 t).2.2.1.1]; omega)
  have e2 : (((cfg0.win 8).blk t).view.emb y : S100000x64.Idx) 1 = y 1 := Fin.ext (by
    show win0_8.index t (1 : Fin 2) * 64 + 1 * (y 1).val = (y 1).val
    rw [(hv0_idx0 t).2.2.1.2]; omega)
  show hv0_pay0 m c (hv0_tileOf _) (hv0_rowIn _) _ = _
  rw [e0, e1, e2]
  unfold hv0_pay0
  exact congrArg _ (eq_ix2 (n0 := 10000) (n1 := 64) y).symm

/-- What point `t` writes back is its block of that function. -/
theorem hv0_flushed0_8 (t : Fin cfg0.N) :
    (dat0 (E1 m) c).flushed 8 t = ((cfg0.win 8).blk t).view.read (Elt Ideal) (hv0_h1Arr m c) := by
  show (cfg0.win 8).cut (grid0.coords t) ((dat0 (E1 m) c).after 8 t) = _
  rw [after0_8]
  unfold out0_8
  rw [View.canon_unit_zero hv0_zeros2]
  simp only [View.ld_unit_zero (S := S10000x64) hv0_zeros2, View.ld_unit_zero (S := S64x64) hv0_zeros2, View.ld_unit_zero (S := S1x64) hv0_zeros2]
  funext y
  rw [View.read_apply]
  exact (hv0_h1Arr_emb m c t y).symm

/-- The first region's output array after the run, at the global row of tile `t`'s row `r`: the tile's payload there. -/
theorem arr0 (t : Fin cfg0.N) (r : Fin 10000) (j : Fin 64) :
    (dat0 (E1 m) c).arrAt 8 cfg0.N (ix2 (row (tile0 t) r) j)
      = k0_pay1 (F := Ideal) (iblk0 (E1 m) c 0 t) (iblk0 (E1 m) c 1 t) (iblk0 (E1 m) c 2 t) (iblk0 (E1 m) c 3 t)
          (iblk0 (E1 m) c 4 t) (iblk0 (E1 m) c 5 t) (iblk0 (E1 m) c 6 t) (iblk0 (E1 m) c 7 t) (ix2 r j) := by
  have e : (ix2 (row (tile0 t) r) j : S100000x64.Idx) = ((cfg0.win 8).blk t).view.emb (ix2 r j : S10000x64.Idx) := by
    funext a
    apply Fin.ext
    match a with
    | ⟨0, _⟩ =>
      show 10000 * t.val + r.val = win0_8.index t (0 : Fin 2) * 10000 + 1 * r.val
      rw [(hv0_idx0 t).2.2.1.1]; omega
    | ⟨1, _⟩ =>
      show j.val = win0_8.index t (1 : Fin 2) * 64 + 1 * j.val
      rw [(hv0_idx0 t).2.2.1.2]; omega
  refine (congrArg ((dat0 (E1 m) c).arrAt 8 cfg0.N) e).trans ?_
  refine ((dat0 (E1 m) c).arrAt_apply_of_mem 8 (hv0_h1Arr m c) (fun s _ => hv0_flushed0_8 m c s) cfg0.N t _ t.isLt (flush0_8 t)
    (View.emb_mem_set _ _)).trans ?_
  exact hv0_h1Arr_emb m c t (ix2 r j)

end Cert.GinVal

end
-- ==== Proof.Val.HostVals1.lean ====
/-
  The second region as it is entered: each window's block at a grid point as entries of the first region's output array, of
  its aggregation, and of the argument arrays (the batch ids by rows of the tile, the weights whole, the biases, the folded
  BatchNorm scale and shift as the host computed them), and the result array after the run as the last point's output block.
-/
import proofs.«417148_j34376918237439_2_alg».proof.Proof.Val.CommonK
import proofs.«417148_j34376918237439_2_alg».proof.Proof.Hand.Run
import Idealize.ShloMosaic.Lib.Pipeline.Value
import Idealize.ShloMosaic.Lib.ValueLayout

set_option maxRecDepth 16384

noncomputable section

namespace Cert.GinVal

open Cert.KernelIdeal Cert.KernelIdeal.Gen Cert.KernelIdeal.GenP Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The windows' block indices over the grid -/

/-- The three row-tiled windows move with the grid point along the rows; every other window stays on its one block. -/
theorem hv1_idx1_tiled : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem hv1_idx1_fixed : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)

/-! ## The arrays the second region finds -/

/-- The first region's output array reaches the second region as the first pipeline's write-backs left it. -/
theorem hv1_E3_h1 : E3 m c main_call0_v30 = (dat0 (E1 m) c).arrAt 8 cfg0.N :=
  (GenP.V3_of m (mkOuts (o2 m) (o2 m)) c main_call0_v30 (by decide)).trans (V2_h1 m c)

/-- An argument array no item writes reaches the second region as launched. -/
theorem hv1_E3_arg (r : Ref sig .tc) (h3 : r ∉ GenP.hostOps1_W) (h2 : r ∉ ([main_call0_v30] : List (Ref sig .tc))) (h1 : r ∉ GenP.hostOps0_W) :
    E3 m c r = m ((c.tc : Thread nD τ).loc r) :=
  (GenP.V3_of m (mkOuts (o2 m) (o2 m)) c r h3).trans ((GenP.V2_of m (mkOuts (o2 m) (o2 m)) c r h2).trans (GenP.V1_of m c r h1))

/-! ## The arrays the second host stretch reshaped -/

/-- The first linear map's bias as the region finds it: argument 12 as a one-row array. -/
theorem hv1_E3_v42 : (E3 m c main_call0_v42 : S1x64.Idx → Elt Ideal .f32) = shapeCast S1x64 (A12 m c) shapeCasts_S64_S1x64 := by
  have e : (E3 m c main_call0_v42 : S1x64.Idx → Elt Ideal .f32)
      = shapeCast S1x64 (GenP.V2 m (mkOuts (o2 m) (o2 m)) c main_arg12) shapeCasts_S64_S1x64 := by
    show StableHlo.after hostOps1 (GenP.V2 m (mkOuts (o2 m) (o2 m)) c) (Proc.devRef .tc main_call0_v42) = _
    after_results; rfl
  rw [e, GenP.V2_of m (mkOuts (o2 m) (o2 m)) c main_arg12 (by decide), GenP.V1_of m c main_arg12 (by decide)]

/-- The second linear map's bias: argument 18 as a one-row array. -/
theorem hv1_E3_v45 : (E3 m c main_call0_v45 : S1x64.Idx → Elt Ideal .f32) = shapeCast S1x64 (A18 m c) shapeCasts_S64_S1x64 := by
  have e : (E3 m c main_call0_v45 : S1x64.Idx → Elt Ideal .f32)
      = shapeCast S1x64 (GenP.V2 m (mkOuts (o2 m) (o2 m)) c main_arg18) shapeCasts_S64_S1x64 := by
    show StableHlo.after hostOps1 (GenP.V2 m (mkOuts (o2 m) (o2 m)) c) (Proc.devRef .tc main_call0_v45) = _
    after_results; rfl
  rw [e, GenP.V2_of m (mkOuts (o2 m) (o2 m)) c main_arg18 (by decide), GenP.V1_of m c main_arg18 (by decide)]

/-- The classifier's bias: argument 20 as a one-row array. -/
theorem hv1_E3_v46 : (E3 m c main_call0_v46 : S1x10.Idx → Elt Ideal .f32) = shapeCast S1x10 (A20 m c) shapeCasts_S10_S1x10 := by
  have e : (E3 m c main_call0_v46 : S1x10.Idx → Elt Ideal .f32)
      = shapeCast S1x10 (GenP.V2 m (mkOuts (o2 m) (o2 m)) c main_arg20) shapeCasts_S10_S1x10 := by
    show StableHlo.after hostOps1 (GenP.V2 m (mkOuts (o2 m) (o2 m)) c) (Proc.devRef .tc main_call0_v46) = _
    after_results; rfl
  rw [e, GenP.V2_of m (mkOuts (o2 m) (o2 m)) c main_arg20 (by decide), GenP.V1_of m c main_arg20 (by decide)]

/-- The batch ids: argument 2 as a one-column array. -/
theorem hv1_E3_v41 : (E3 m c main_call0_v41 : S100000x1.Idx → Elt Ideal .i32) = shapeCast S100000x1 (A2 m c) shapeCasts_S100000_S100000x1 := by
  have e : (E3 m c main_call0_v41 : S100000x1.Idx → Elt Ideal .i32)
      = shapeCast S100000x1 (GenP.V2 m (mkOuts (o2 m) (o2 m)) c main_arg2) shapeCasts_S100000_S100000x1 := by
    show StableHlo.after hostOps1 (GenP.V2 m (mkOuts (o2 m) (o2 m)) c) (Proc.devRef .tc main_call0_v41) = _
    after_results; rfl
  rw [e, GenP.V2_of m (mkOuts (o2 m) (o2 m)) c main_arg2 (by decide), GenP.V1_of m c main_arg2 (by decide)]

/-- A one-column cast of a vector reads, at row `n`, the vector at `n`. -/
theorem hv1_shapeCast_col_apply {α : Type} {a : ℕ} (x : (⟨1, ![a]⟩ : Shape).Idx → α) (h : (⟨1, ![a]⟩ : Shape).ShapeCasts ⟨2, ![a, 1]⟩)
    (n : Fin a) (u : Fin 1) : shapeCast ⟨2, ![a, 1]⟩ x h (ix2 n u) = x (ix1 n) :=
  shapeCast_apply x h _ _ (by
    have hu : u.val = 0 := by omega
    rw [Shape.rowMajor_val_two, Shape.rowMajor_val_one]
    show n.val = n.val * 1 + u.val
    omega)

/-! ## The folded normalisation scale and shift of the second block -/

/-- The scale as the first host stretch computed it: gamma times the reciprocal square root of the variance plus epsilon. -/
theorem hv1_V1_scale1 : (GenP.V1 m c main_call0_v13 : S64.Idx → Elt Ideal .f32)
    = mulf (A13 m c) (Host.rsqrt (addf (A16 m c) (broadcastInDim S64 ![] bcast_S_S64 (constant (F := Ideal) S_ .f32 0x3727C5AC#32)))) := by
  show StableHlo.after hostOps0 (GenP.V0 m c) (Proc.devRef .tc main_call0_v13) = _
  after_results; rfl

/-- The shift: beta minus the running mean times the scale. -/
theorem hv1_V1_shift1 : (GenP.V1 m c main_call0_v15 : S64.Idx → Elt Ideal .f32)
    = subf (A14 m c) (mulf (A15 m c) (mulf (A13 m c) (Host.rsqrt (addf (A16 m c) (broadcastInDim S64 ![] bcast_S_S64 (constant (F := Ideal) S_ .f32 0x3727C5AC#32)))))) := by
  show StableHlo.after hostOps0 (GenP.V0 m c) (Proc.devRef .tc main_call0_v15) = _
  after_results; rfl

/-- The second host stretch only reshapes them to one-row arrays; the first region does not touch them. -/
theorem hv1_E3_v43 : (E3 m c main_call0_v43 : S1x64.Idx → Elt Ideal .f32) = shapeCast S1x64 (GenP.V1 m c main_call0_v13) shapeCasts_S64_S1x64 := by
  have e : (E3 m c main_call0_v43 : S1x64.Idx → Elt Ideal .f32)
      = shapeCast S1x64 (GenP.V2 m (mkOuts (o2 m) (o2 m)) c main_call0_v13) shapeCasts_S64_S1x64 := by
    show StableHlo.after hostOps1 (GenP.V2 m (mkOuts (o2 m) (o2 m)) c) (Proc.devRef .tc main_call0_v43) = _
    after_results; rfl
  rw [e, GenP.V2_of m (mkOuts (o2 m) (o2 m)) c main_call0_v13 (by decide)]

theorem hv1_E3_v44 : (E3 m c main_call0_v44 : S1x64.Idx → Elt Ideal .f32) = shapeCast S1x64 (GenP.V1 m c main_call0_v15) shapeCasts_S64_S1x64 := by
  have e : (E3 m c main_call0_v44 : S1x64.Idx → Elt Ideal .f32)
      = shapeCast S1x64 (GenP.V2 m (mkOuts (o2 m) (o2 m)) c main_call0_v15) shapeCasts_S64_S1x64 := by
    show StableHlo.after hostOps1 (GenP.V2 m (mkOuts (o2 m) (o2 m)) c) (Proc.devRef .tc main_call0_v44) = _
    after_results; rfl
  rw [e, GenP.V2_of m (mkOuts (o2 m) (o2 m)) c main_call0_v15 (by decide)]

/-! ## The neighbour aggregation of the first block's output -/

/-- The host's chain of operations for the aggregation, as one function of the node features and of the edges' source and
    destination rows: negative source rows wrapped, the source rows gathered, the gathered rows scatter-added over zero at the
    destination rows. -/
def hv1_aggChain (h : S100000x64.Idx → Elt Ideal .f32) (src dst : S1000000.Idx → Elt Ideal .i32) : S100000x64.Idx → Elt Ideal .f32 :=
  Host.scatterAdd (F := Ideal) (φ := .f32) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (Host.gather (α := Ideal .f32) gather_S100000x64_S1000000x1_S1000000x64_1_0_n_n_0_1_164 h
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

/-- On the two rows of an edge list it is the aggregation both programs apply. -/
theorem hv1_aggChain_eq (h : S100000x64.Idx → Elt Ideal .f32) (ei : S2x1000000.Idx → Elt Ideal .i32) :
    hv1_aggChain h
      (shapeCast S1000000 (extractStridedSlice S1x1000000 ![0, 0] ei slices_S2x1000000_S1x1000000_0_0) shapeCasts_S1x1000000_S1000000)
      (shapeCast S1000000 (extractStridedSlice S1x1000000 ![1, 0] ei slices_S2x1000000_S1x1000000_1_0) shapeCasts_S1x1000000_S1000000)
      = aggOf h ei := rfl

/-- Contents carried to a buffer's own type and back are unchanged. -/
theorem hv1_ofBuf_toBuf {T : BufTy} (x : StableHlo.TRef sig T) (v : T.Contents (Elt Ideal)) : x.ofBuf (x.toBuf v) = v := by
  obtain ⟨r, rfl, _, _⟩ := x; rfl

/-- The aggregation buffer as the second host stretch leaves it: the chain applied to the first region's output array and to
    the edges' source and destination rows as that stretch finds them. -/
theorem hv1_E3_agg1_chain : (E3 m c main_call0_v40 : S100000x64.Idx → Elt Ideal .f32)
    = hv1_aggChain (GenP.V2 m (mkOuts (o2 m) (o2 m)) c main_call0_v30) (GenP.V2 m (mkOuts (o2 m) (o2 m)) c main_call0_v1)
        (GenP.V2 m (mkOuts (o2 m) (o2 m)) c main_call0_v3) := by
  show StableHlo.after hostOps1 (GenP.V2 m (mkOuts (o2 m) (o2 m)) c) (Proc.devRef .tc main_call0_v40) = _
  after_results
  simp only [hv1_ofBuf_toBuf]
  rfl

/-- The edges' source rows and destination rows, as the first host stretch laid them out: the two rows of the edge list. -/
theorem hv1_V1_src : (GenP.V1 m c main_call0_v1 : S1000000.Idx → Elt Ideal .i32)
    = shapeCast S1000000 (extractStridedSlice S1x1000000 ![0, 0] (A1 m c) slices_S2x1000000_S1x1000000_0_0) shapeCasts_S1x1000000_S1000000 := by
  show StableHlo.after hostOps0 (GenP.V0 m c) (Proc.devRef .tc main_call0_v1) = _
  after_results; rfl

theorem hv1_V1_dst : (GenP.V1 m c main_call0_v3 : S1000000.Idx → Elt Ideal .i32)
    = shapeCast S1000000 (extractStridedSlice S1x1000000 ![1, 0] (A1 m c) slices_S2x1000000_S1x1000000_1_0) shapeCasts_S1x1000000_S1000000 := by
  show StableHlo.after hostOps0 (GenP.V0 m c) (Proc.devRef .tc main_call0_v3) = _
  after_results; rfl

/-- The first region's output array, as the second host stretch finds it, is what the first pipeline wrote back. -/
theorem hv1_V2_out8 : GenP.V2 m (mkOuts (o2 m) (o2 m)) c main_call0_v30 = (dat0 (E1 m) c).arrAt 8 cfg0.N := V2_h1 m c

/-- The first region leaves the edges' rows alone. -/
theorem hv1_V2_src : (GenP.V2 m (mkOuts (o2 m) (o2 m)) c main_call0_v1 : S1000000.Idx → Elt Ideal .i32)
    = shapeCast S1000000 (extractStridedSlice S1x1000000 ![0, 0] (A1 m c) slices_S2x1000000_S1x1000000_0_0) shapeCasts_S1x1000000_S1000000 :=
  (GenP.V2_of m (mkOuts (o2 m) (o2 m)) c main_call0_v1 (by decide)).trans (hv1_V1_src m c)

theorem hv1_V2_dst : (GenP.V2 m (mkOuts (o2 m) (o2 m)) c main_call0_v3 : S1000000.Idx → Elt Ideal .i32)
    = shapeCast S1000000 (extractStridedSlice S1x1000000 ![1, 0] (A1 m c) slices_S2x1000000_S1x1000000_1_0) shapeCasts_S1x1000000_S1000000 :=
  (GenP.V2_of m (mkOuts (o2 m) (o2 m)) c main_call0_v3 (by decide)).trans (hv1_V1_dst m c)

theorem hv1_aggChain_congr {h h' : S100000x64.Idx → Elt Ideal .f32} {s s' d d' : S1000000.Idx → Elt Ideal .i32}
    (eh : h = h') (es : s = s') (ed : d = d') : hv1_aggChain h s d = hv1_aggChain h' s' d' := by
  subst eh es ed; rfl

/-- The second host stretch gathers the source rows of the first region's output and scatter-adds them at the destination
    rows: operation for operation the aggregation both programs apply. -/
theorem hv1_E3_agg1 : (E3 m c main_call0_v40 : S100000x64.Idx → Elt Ideal .f32) = aggOf ((dat0 (E1 m) c).arrAt 8 cfg0.N) (A1 m c) :=
  (hv1_E3_agg1_chain m c).trans
    ((hv1_aggChain_congr (hv1_V2_out8 m c) (hv1_V2_src m c) (hv1_V2_dst m c)).trans (hv1_aggChain_eq ((dat0 (E1 m) c).arrAt 8 cfg0.N) (A1 m c)))

/-- The aggregation window's block at a grid point reads its array at the block's position: stated over any entry contents. -/
theorem hv1_iblk1_agg_apply (V : (c : Dev nD) → (b : Ref sig .tc) → Buf (Elt Ideal) ((c : Thread nD τ).loc b)) (d : Dev nD) (t : Fin cfg1.N)
    (j : S10000x64.Idx) :
    iblk1 V d 1 t j = V d main_call0_v40 (((cfg1.win 1).blk t).view.emb j) := rfl

/-! ## The windows' blocks at a grid point -/

theorem blk1_0 (t : Fin cfg1.N) (r : Fin 10000) (k : Fin 64) :
    iblk1 (E3 m) c 0 t (ix2 r k) = ((dat0 (E1 m) c).arrAt 8 cfg0.N) (ix2 (row (tile1 t) r) k) := by
  obtain ⟨e0, e1, -⟩ := hv1_idx1_tiled t
  have hi : ((cfg1.win 0).blk t).view.emb (ix2 r k) = ix2 (row (tile1 t) r) k := by
    funext a; apply Fin.ext
    match a with
    | ⟨0, _⟩ => show win1_0.index t (0 : Fin 2) * 10000 + 1 * r.val = 10000 * t.val + r.val; omega
    | ⟨1, _⟩ => show win1_0.index t (1 : Fin 2) * 64 + 1 * k.val = k.val; omega
  show E3 m c main_call0_v30 (((cfg1.win 0).blk t).view.emb (ix2 r k)) = _
  rw [hi, hv1_E3_h1]

theorem blk1_1 (t : Fin cfg1.N) (r : Fin 10000) (k : Fin 64) :
    iblk1 (E3 m) c 1 t (ix2 r k) = aggOf ((dat0 (E1 m) c).arrAt 8 cfg0.N) (A1 m c) (ix2 (row (tile1 t) r) k) := by
  obtain ⟨-, -, e0, e1, -⟩ := hv1_idx1_tiled t
  have hi : ((cfg1.win 1).blk t).view.emb (ix2 r k) = ix2 (row (tile1 t) r) k := by
    funext a; apply Fin.ext
    match a with
    | ⟨0, _⟩ => show win1_1.index t (0 : Fin 2) * 10000 + 1 * r.val = 10000 * t.val + r.val; omega
    | ⟨1, _⟩ => show win1_1.index t (1 : Fin 2) * 64 + 1 * k.val = k.val; omega
  refine (hv1_iblk1_agg_apply (E3 m) c t (ix2 r k)).trans ?_
  rw [hi]
  exact congrFun (hv1_E3_agg1 m c) (ix2 (row (tile1 t) r) k)

theorem blk1_2 (t : Fin cfg1.N) (r : Fin 10000) :
    iblk1 (E3 m) c 2 t (ix2 r (0 : Fin 1)) = (A2 m c) (ix1 (row (tile1 t) r)) := by
  obtain ⟨-, -, -, -, e0, e1⟩ := hv1_idx1_tiled t
  have hi : ((cfg1.win 2).blk t).view.emb (ix2 r (0 : Fin 1)) = ix2 (row (tile1 t) r) (0 : Fin 1) := by
    funext a; apply Fin.ext
    match a with
    | ⟨0, _⟩ => show win1_2.index t (0 : Fin 2) * 10000 + 1 * r.val = 10000 * t.val + r.val; omega
    | ⟨1, _⟩ => show win1_2.index t (1 : Fin 2) * 1 + 1 * (0 : Fin 1).val = (0 : Fin 1).val; omega
  show E3 m c main_call0_v41 (((cfg1.win 2).blk t).view.emb (ix2 r (0 : Fin 1))) = _
  rw [hi, hv1_E3_v41]
  exact hv1_shapeCast_col_apply _ _ _ _

theorem blk1_3 (t : Fin cfg1.N) (k k' : Fin 64) :
    iblk1 (E3 m) c 3 t (ix2 k k') = (A11 m c) (ix2 k k') := by
  obtain ⟨e0, e1, -⟩ := hv1_idx1_fixed t
  have hi : ((cfg1.win 3).blk t).view.emb (ix2 k k') = ix2 k k' := by
    funext a; apply Fin.ext
    match a with
    | ⟨0, _⟩ => show win1_3.index t (0 : Fin 2) * 64 + 1 * k.val = k.val; omega
    | ⟨1, _⟩ => show win1_3.index t (1 : Fin 2) * 64 + 1 * k'.val = k'.val; omega
  show E3 m c main_arg11 (((cfg1.win 3).blk t).view.emb (ix2 k k')) = _
  rw [hi, hv1_E3_arg m c main_arg11 (by decide) (by decide) (by decide)]

theorem blk1_4 (t : Fin cfg1.N) (k : Fin 64) :
    iblk1 (E3 m) c 4 t (ix2 (0 : Fin 1) k) = (A12 m c) (ix1 k) := by
  obtain ⟨-, -, e0, e1, -⟩ := hv1_idx1_fixed t
  have hi : ((cfg1.win 4).blk t).view.emb (ix2 (0 : Fin 1) k) = ix2 (0 : Fin 1) k := by
    funext a; apply Fin.ext
    match a with
    | ⟨0, _⟩ => show win1_4.index t (0 : Fin 2) * 1 + 1 * (0 : Fin 1).val = (0 : Fin 1).val; omega
    | ⟨1, _⟩ => show win1_4.index t (1 : Fin 2) * 64 + 1 * k.val = k.val; omega
  show E3 m c main_call0_v42 (((cfg1.win 4).blk t).view.emb (ix2 (0 : Fin 1) k)) = _
  rw [hi]
  rw [hv1_E3_v42]
  exact shapeCast_a_1a_apply _ _ 0 k

theorem blk1_5 (t : Fin cfg1.N) (k : Fin 64) :
    iblk1 (E3 m) c 5 t (ix2 (0 : Fin 1) k) = A13 m c (ix1 k) * Ideal.rsqrt (A16 m c (ix1 k) + Ideal.ofBits .f32 0x3727C5AC#32) := by
  obtain ⟨-, -, -, -, e0, e1, -⟩ := hv1_idx1_fixed t
  have hi : ((cfg1.win 5).blk t).view.emb (ix2 (0 : Fin 1) k) = ix2 (0 : Fin 1) k := by
    funext a; apply Fin.ext
    match a with
    | ⟨0, _⟩ => show win1_5.index t (0 : Fin 2) * 1 + 1 * (0 : Fin 1).val = (0 : Fin 1).val; omega
    | ⟨1, _⟩ => show win1_5.index t (1 : Fin 2) * 64 + 1 * k.val = k.val; omega
  show E3 m c main_call0_v43 (((cfg1.win 5).blk t).view.emb (ix2 (0 : Fin 1) k)) = _
  rw [hi]
  rw [hv1_E3_v43]
  refine (shapeCast_a_1a_apply _ _ 0 k).trans ?_
  rw [hv1_V1_scale1]
  rfl

theorem blk1_6 (t : Fin cfg1.N) (k : Fin 64) :
    iblk1 (E3 m) c 6 t (ix2 (0 : Fin 1) k) = A14 m c (ix1 k) - A15 m c (ix1 k) * (A13 m c (ix1 k) * Ideal.rsqrt (A16 m c (ix1 k) + Ideal.ofBits .f32 0x3727C5AC#32)) := by
  obtain ⟨-, -, -, -, -, -, e0, e1, -⟩ := hv1_idx1_fixed t
  have hi : ((cfg1.win 6).blk t).view.emb (ix2 (0 : Fin 1) k) = ix2 (0 : Fin 1) k := by
    funext a; apply Fin.ext
    match a with
    | ⟨0, _⟩ => show win1_6.index t (0 : Fin 2) * 1 + 1 * (0 : Fin 1).val = (0 : Fin 1).val; omega
    | ⟨1, _⟩ => show win1_6.index t (1 : Fin 2) * 64 + 1 * k.val = k.val; omega
  show E3 m c main_call0_v44 (((cfg1.win 6).blk t).view.emb (ix2 (0 : Fin 1) k)) = _
  rw [hi]
  rw [hv1_E3_v44]
  refine (shapeCast_a_1a_apply _ _ 0 k).trans ?_
  rw [hv1_V1_shift1]
  rfl

theorem blk1_7 (t : Fin cfg1.N) (k k' : Fin 64) :
    iblk1 (E3 m) c 7 t (ix2 k k') = (A17 m c) (ix2 k k') := by
  obtain ⟨-, -, -, -, -, -, -, -, e0, e1, -⟩ := hv1_idx1_fixed t
  have hi : ((cfg1.win 7).blk t).view.emb (ix2 k k') = ix2 k k' := by
    funext a; apply Fin.ext
    match a with
    | ⟨0, _⟩ => show win1_7.index t (0 : Fin 2) * 64 + 1 * k.val = k.val; omega
    | ⟨1, _⟩ => show win1_7.index t (1 : Fin 2) * 64 + 1 * k'.val = k'.val; omega
  show E3 m c main_arg17 (((cfg1.win 7).blk t).view.emb (ix2 k k')) = _
  rw [hi, hv1_E3_arg m c main_arg17 (by decide) (by decide) (by decide)]

theorem blk1_8 (t : Fin cfg1.N) (k : Fin 64) :
    iblk1 (E3 m) c 8 t (ix2 (0 : Fin 1) k) = (A18 m c) (ix1 k) := by
  obtain ⟨-, -, -, -, -, -, -, -, -, -, e0, e1, -⟩ := hv1_idx1_fixed t
  have hi : ((cfg1.win 8).blk t).view.emb (ix2 (0 : Fin 1) k) = ix2 (0 : Fin 1) k := by
    funext a; apply Fin.ext
    match a with
    | ⟨0, _⟩ => show win1_8.index t (0 : Fin 2) * 1 + 1 * (0 : Fin 1).val = (0 : Fin 1).val; omega
    | ⟨1, _⟩ => show win1_8.index t (1 : Fin 2) * 64 + 1 * k.val = k.val; omega
  show E3 m c main_call0_v45 (((cfg1.win 8).blk t).view.emb (ix2 (0 : Fin 1) k)) = _
  rw [hi]
  rw [hv1_E3_v45]
  exact shapeCast_a_1a_apply _ _ 0 k

theorem blk1_9 (t : Fin cfg1.N) (k : Fin 64) (k' : Fin 10) :
    iblk1 (E3 m) c 9 t (ix2 k k') = (A19 m c) (ix2 k k') := by
  obtain ⟨-, -, -, -, -, -, -, -, -, -, -, -, e0, e1, -⟩ := hv1_idx1_fixed t
  have hi : ((cfg1.win 9).blk t).view.emb (ix2 k k') = ix2 k k' := by
    funext a; apply Fin.ext
    match a with
    | ⟨0, _⟩ => show win1_9.index t (0 : Fin 2) * 64 + 1 * k.val = k.val; omega
    | ⟨1, _⟩ => show win1_9.index t (1 : Fin 2) * 10 + 1 * k'.val = k'.val; omega
  show E3 m c main_arg19 (((cfg1.win 9).blk t).view.emb (ix2 k k')) = _
  rw [hi, hv1_E3_arg m c main_arg19 (by decide) (by decide) (by decide)]

theorem blk1_10 (t : Fin cfg1.N) (k : Fin 10) :
    iblk1 (E3 m) c 10 t (ix2 (0 : Fin 1) k) = (A20 m c) (ix1 k) := by
  obtain ⟨-, -, -, -, -, -, -, -, -, -, -, -, -, -, e0, e1, -⟩ := hv1_idx1_fixed t
  have hi : ((cfg1.win 10).blk t).view.emb (ix2 (0 : Fin 1) k) = ix2 (0 : Fin 1) k := by
    funext a; apply Fin.ext
    match a with
    | ⟨0, _⟩ => show win1_10.index t (0 : Fin 2) * 1 + 1 * (0 : Fin 1).val = (0 : Fin 1).val; omega
    | ⟨1, _⟩ => show win1_10.index t (1 : Fin 2) * 10 + 1 * k.val = k.val; omega
  show E3 m c main_call0_v46 (((cfg1.win 10).blk t).view.emb (ix2 (0 : Fin 1) k)) = _
  rw [hi]
  rw [hv1_E3_v46]
  exact shapeCast_a_1a_apply _ _ 0 k

/-- The result array after the run is the output block the last grid point stored. -/
theorem arr1 (g : Fin 512) (k : Fin 10) :
    (dat1 (E3 m) c).arrAt 11 cfg1.N (ix2 g k) = out1_11 (E3 m) c t9 (ix2 g k) := by
  -- only the last point writes the block back, so no two writing points meet
  have hdisj : ∀ t t' : Fin cfg1.N, (cfg1.win 11).flush t = true → (cfg1.win 11).flush t' = true → t ≠ t' →
      Disjoint ((cfg1.win 11).blk t).view.set ((cfg1.win 11).blk t').view.set := by
    intro t t' hf hf' hne
    have h1 := (flush1_11 t).mp hf
    have h2 := (flush1_11 t').mp hf'
    have h3 : t.val < 10 := lt_of_lt_of_eq t.isLt N_1
    have h4 : t'.val < 10 := lt_of_lt_of_eq t'.isLt N_1
    exact absurd (Fin.ext (by omega)) hne
  have hf9 : (cfg1.win 11).flush t9 = true := (flush1_11 t9).mpr rfl
  have hb := (dat1 (E3 m) c).read_blk_arrAt_eq_flushed 11 hdisj cfg1.N t9 t9.isLt hf9
  -- the window's one block is the whole array
  obtain ⟨-, -, -, -, -, -, -, -, -, -, -, -, -, -, -, -, e0, e1⟩ := hv1_idx1_fixed t9
  have hi : ((cfg1.win 11).blk t9).view.emb (ix2 g k) = ix2 g k := by
    funext a; apply Fin.ext
    match a with
    | ⟨0, _⟩ => show win1_11.index t9 (0 : Fin 2) * 512 + 1 * g.val = g.val; omega
    | ⟨1, _⟩ => show win1_11.index t9 (1 : Fin 2) * 10 + 1 * k.val = k.val; omega
  have h := congrFun hb (ix2 g k)
  rw [View.read_apply, hi] at h
  refine h.trans ?_
  show (cfg1.win 11).cut (grid1.coords t9) ((dat1 (E3 m) c).after 11 t9) (ix2 g k) = _
  rw [after1_11]
  rfl

end Cert.GinVal

end
-- ==== Proof.Val.Layer.lean ====
/-
  One tile of either MLP block against the reference, entry by entry. The kernel multiplies the first linear map's output by
  the folded BatchNorm scale g·rsqrt(v + ε) and adds the folded shift β − μ·(g·rsqrt(v + ε)); the reference subtracts μ,
  multiplies by rsqrt(v + ε), then by g, and adds β. With g, β, μ real and v a non-negative real the two agree on every
  extended real, and the rest of the block is the same sums and maxima on both sides.
-/
import proofs.«417148_j34376918237439_2_alg».proof.Proof.Val.Common
import proofs.«417148_j34376918237439_2_alg».proof.Proof.Gen.KernelIdeal.Skeleton
import Idealize.ShloMosaic.Lib.Pipeline.Value
import Idealize.ShloMosaic.Lib.ValueLayout

noncomputable section

namespace Cert.GinVal

open Idealize.ShloMosaic Idealize.ShloMosaic.ValueIdx

/-! ## Folding the normalisation -/

/-- ε = 10995116 · 2⁻⁴⁰. -/
theorem eps_eq : Ideal.ofBits .f32 0x3727C5AC#32 = (((10995116 : ℝ) * (2 : ℝ) ^ (-40 : ℤ) : ℝ) : EReal) := by
  simp [Ideal.ofBits, Ideal.ieee, -EReal.coe_mul]

/-- ε is a positive real. -/
theorem eps_pos : ∃ e : ℝ, 0 < e ∧ Ideal.ofBits .f32 0x3727C5AC#32 = ((e : ℝ) : EReal) :=
  ⟨_, by positivity, eps_eq⟩

/-- The reciprocal square root of a non-negative real plus ε is a real. -/
theorem rsqrt_real (v : ℝ) (hv : 0 ≤ v) :
    ∃ s : ℝ, Ideal.rsqrt ((v : EReal) + Ideal.ofBits .f32 0x3727C5AC#32) = (s : EReal) := by
  obtain ⟨e, he, hE⟩ := eps_pos
  have hpos : 0 < v + e := by linarith
  refine ⟨(Real.sqrt (v + e))⁻¹, ?_⟩
  rw [hE, ← EReal.coe_add, Ideal.rsqrt_coe, if_neg (not_lt.mpr hpos.le), if_neg hpos.ne']

/-- Subtracting a real, scaling by a real `c` and adding a real, against scaling first: the same on every extended real.
    At ±∞ both sides are the infinity of `c`'s sign (or the added real when `c = 0`). -/
theorem affine_fold (z : EReal) (m c be : ℝ) :
    (z - (m : EReal)) * (c : EReal) + (be : EReal) = z * (c : EReal) + ((be : EReal) - (m : EReal) * (c : EReal)) := by
  induction z using EReal.rec with
  | bot =>
    rcases lt_trichotomy c 0 with hc | hc | hc
    · rw [EReal.bot_sub, EReal.bot_mul_coe_of_neg hc, ← EReal.coe_mul, ← EReal.coe_sub, EReal.top_add_coe, EReal.top_add_coe]
    · subst hc; simp
    · rw [EReal.bot_sub, EReal.bot_mul_coe_of_pos hc, EReal.bot_add, EReal.bot_add]
  | coe z => norm_cast; ring
  | top =>
    rcases lt_trichotomy c 0 with hc | hc | hc
    · rw [EReal.top_sub_coe, EReal.top_mul_coe_of_neg hc, EReal.bot_add, EReal.bot_add]
    · subst hc; simp
    · rw [EReal.top_sub_coe, EReal.top_mul_coe_of_pos hc, ← EReal.coe_mul, ← EReal.coe_sub, EReal.top_add_coe, EReal.top_add_coe]

/-- The normalisation unfused against folded: (z − μ)·ρ·γ + β = z·(γ·ρ) + (β − μ·(γ·ρ)) for real μ, ρ, γ, β and every
    extended real z. -/
theorem bn_fold (z : EReal) (m r g be : ℝ) :
    (z - (m : EReal)) * (r : EReal) * (g : EReal) + (be : EReal)
      = z * ((g : EReal) * (r : EReal)) + ((be : EReal) - (m : EReal) * ((g : EReal) * (r : EReal))) := by
  rw [mul_assoc, mul_comm (r : EReal) (g : EReal), ← EReal.coe_mul]
  exact affine_fold z m (g * r) be

/-! ## The kernel's matrix product read at an entry -/

theorem kdot_lhs_0 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.lhsIdx i q 0).val = (i 0).val := by
  unfold DotDims.lhsIdx
  rw [dif_neg (show ¬(0 : Fin Cert.KernelIdeal.S10000x64.rank) ∈ Cert.KernelIdeal.dot_S10000x64_S64x64_S10000x64_1_0_0_1_n_n.lhsBatch by decide), dif_pos (show (0 : Fin Cert.KernelIdeal.S10000x64.rank) ∈ Cert.KernelIdeal.dot_S10000x64_S64x64_S10000x64_1_0_0_1_n_n.lhsNonContracting by decide)]
  rfl
theorem kdot_lhs_1 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.lhsIdx i q 1).val = (q ⟨0, by decide⟩).val :=
  Cert.KernelIdeal.dot_S10000x64_S64x64_S10000x64_1_0_0_1_n_n.lhsIdx_val_of_single rfl i q
theorem kdot_rhs_0 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.rhsIdx i q 0).val = (q ⟨0, by decide⟩).val :=
  Cert.KernelIdeal.dot_S10000x64_S64x64_S10000x64_1_0_0_1_n_n.rhsIdx_val_of_single rfl i q
theorem kdot_rhs_1 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.rhsIdx i q 1).val = (i 1).val := by
  unfold DotDims.rhsIdx
  rw [dif_neg (show ¬(1 : Fin Cert.KernelIdeal.S64x64.rank) ∈ Cert.KernelIdeal.dot_S10000x64_S64x64_S10000x64_1_0_0_1_n_n.rhsBatch by decide), dif_pos (show (1 : Fin Cert.KernelIdeal.S64x64.rank) ∈ Cert.KernelIdeal.dot_S10000x64_S64x64_S10000x64_1_0_0_1_n_n.rhsNonContracting by decide)]
  rfl

/-- A tile's matrix product into a zero accumulator, at row `r` and column `j`: the sum over the 64 inner indices. -/
theorem kdot_apply (lhs : FVec Ideal Cert.KernelIdeal.S10000x64 .f32) (rhs : FVec Ideal Cert.KernelIdeal.S64x64 .f32) (r : Fin 10000) (j : Fin 64) :
    matmul Cert.KernelIdeal.dot_S10000x64_S64x64_S10000x64_1_0_0_1_n_n none lhs rhs (constant (F := Ideal) Cert.KernelIdeal.S10000x64 .f32 0x00000000#32) (ix2 r j)
      = ∑ k : Fin 64, lhs (ix2 r k) * rhs (ix2 k j) := by
  simp only [matmul]
  rw [Ideal.matmul_constant_zero_apply, ← Equiv.sum_comp (ValueIdx.contrEquiv1 Cert.KernelIdeal.dot_S10000x64_S64x64_S10000x64_1_0_0_1_n_n 64 rfl rfl).symm]
  refine Finset.sum_congr rfl fun k _ => ?_
  have hk := ValueIdx.contrEquiv1_symm_val Cert.KernelIdeal.dot_S10000x64_S64x64_S10000x64_1_0_0_1_n_n 64 rfl rfl k
  have el : Cert.KernelIdeal.dot_S10000x64_S64x64_S10000x64_1_0_0_1_n_n.lhsIdx (ix2 r j) ((ValueIdx.contrEquiv1 Cert.KernelIdeal.dot_S10000x64_S64x64_S10000x64_1_0_0_1_n_n 64 rfl rfl).symm k) = ix2 r k := funext fun a => Fin.ext (by
    match a with
    | ⟨0, _⟩ => exact kdot_lhs_0 _ _
    | ⟨1, _⟩ => exact (kdot_lhs_1 _ _).trans hk)
  have er : Cert.KernelIdeal.dot_S10000x64_S64x64_S10000x64_1_0_0_1_n_n.rhsIdx (ix2 r j) ((ValueIdx.contrEquiv1 Cert.KernelIdeal.dot_S10000x64_S64x64_S10000x64_1_0_0_1_n_n 64 rfl rfl).symm k) = ix2 k j := funext fun a => Fin.ext (by
    match a with
    | ⟨0, _⟩ => exact (kdot_rhs_0 _ _).trans hk
    | ⟨1, _⟩ => exact kdot_rhs_1 _ _)
  rw [el, er]

/-! ## One tile of an MLP block, entry by entry -/

/-- What either block computes on a tile at row `r`, column `j`, before the block's last operation: the second linear map of
    the rectified, scaled and shifted first linear map of the summed inputs `y`. -/
def kerBlockAt (y : FVec Ideal Cert.KernelIdeal.S10000x64 .f32) (w : Vec Ideal Cert.KernelIdeal.S64x64 .f32) (a sc sh : Vec Ideal Cert.KernelIdeal.S1x64 .f32)
    (w' : Vec Ideal Cert.KernelIdeal.S64x64 .f32) (b' : Vec Ideal Cert.KernelIdeal.S1x64 .f32) (r : Fin 10000) (j : Fin 64) : EReal :=
  (∑ k' : Fin 64, max (((∑ k : Fin 64, y (ix2 r k) * w (ix2 k k')) + a (ix2 (0 : Fin 1) k')) * sc (ix2 (0 : Fin 1) k') + sh (ix2 (0 : Fin 1) k'))
      (Ideal.ofBits .f32 0x00000000#32) * w' (ix2 k' j)) + b' (ix2 (0 : Fin 1) j)

/-- The second block's payload at an entry. -/
theorem k1_pay7_apply (x0 x1 : Vec Ideal Cert.KernelIdeal.S10000x64 .f32) (w : Vec Ideal Cert.KernelIdeal.S64x64 .f32) (a sc sh : Vec Ideal Cert.KernelIdeal.S1x64 .f32)
    (w' : Vec Ideal Cert.KernelIdeal.S64x64 .f32) (b' : Vec Ideal Cert.KernelIdeal.S1x64 .f32) (r : Fin 10000) (j : Fin 64) :
    Cert.KernelIdeal.Gen.k1_pay7 (F := Ideal) x0 x1 w a sc sh w' b' (ix2 r j) = kerBlockAt (addf x0 x1) w a sc sh w' b' r j := by
  unfold Cert.KernelIdeal.Gen.k1_pay7 kerBlockAt
  simp only [shapeCast_self]
  rw [addf_apply, kdot_apply, broadcastTo_1b_ab_apply]
  refine congrArg (· + b' (ix2 (0 : Fin 1) j)) (Finset.sum_congr rfl fun k' _ => ?_)
  rw [maximumf_apply, addf_apply, mulf_apply, addf_apply, kdot_apply, broadcastTo_1b_ab_apply, broadcastTo_1b_ab_apply, broadcastTo_1b_ab_apply, broadcast_apply]
  rfl

/-- The first block's payload is the second block's with a final rectification (and one fewer identity cast). -/
theorem k0_pay1_eq (x0 x1 : Vec Ideal Cert.KernelIdeal.S10000x64 .f32) (w : Vec Ideal Cert.KernelIdeal.S64x64 .f32) (a sc sh : Vec Ideal Cert.KernelIdeal.S1x64 .f32)
    (w' : Vec Ideal Cert.KernelIdeal.S64x64 .f32) (b' : Vec Ideal Cert.KernelIdeal.S1x64 .f32) :
    Cert.KernelIdeal.Gen.k0_pay1 (F := Ideal) x0 x1 w a sc sh w' b'
      = maximumf (Cert.KernelIdeal.Gen.k1_pay7 (F := Ideal) x0 x1 w a sc sh w' b') (broadcast Cert.KernelIdeal.S10000x64 (Ideal.ofBits .f32 0x00000000#32)) := by
  unfold Cert.KernelIdeal.Gen.k0_pay1 Cert.KernelIdeal.Gen.k1_pay7
  simp only [shapeCast_self]
  rfl

/-- The first block's payload at an entry. -/
theorem k0_pay1_apply (x0 x1 : Vec Ideal Cert.KernelIdeal.S10000x64 .f32) (w : Vec Ideal Cert.KernelIdeal.S64x64 .f32) (a sc sh : Vec Ideal Cert.KernelIdeal.S1x64 .f32)
    (w' : Vec Ideal Cert.KernelIdeal.S64x64 .f32) (b' : Vec Ideal Cert.KernelIdeal.S1x64 .f32) (r : Fin 10000) (j : Fin 64) :
    Cert.KernelIdeal.Gen.k0_pay1 (F := Ideal) x0 x1 w a sc sh w' b' (ix2 r j)
      = max (kerBlockAt (addf x0 x1) w a sc sh w' b' r j) (Ideal.ofBits .f32 0x00000000#32) := by
  rw [k0_pay1_eq, maximumf_apply, broadcast_apply, k1_pay7_apply]

/-! ## The reference's block -/

/-- A length-64 vector as a row repeated over all nodes. -/
def rowOver (x : FVec Ideal Cert.ReferenceIdeal.S64 .f32) : FVec Ideal Cert.ReferenceIdeal.S100000x64 .f32 :=
  broadcastInDim Cert.ReferenceIdeal.S100000x64 ![0, 1] Cert.ReferenceIdeal.Facts₀.bcast_S1x64_S100000x64_0_1
    (broadcastInDim Cert.ReferenceIdeal.S1x64 ![1] Cert.ReferenceIdeal.Facts₀.bcast_S64_S1x64_1 x)

theorem rowOver_apply (x : FVec Ideal Cert.ReferenceIdeal.S64 .f32) (n : Fin 100000) (j : Fin 64) :
    rowOver x (ix2 n j) = x (ix1 j) := by
  unfold rowOver
  refine (broadcastInDim_apply _ Cert.ReferenceIdeal.Facts₀.bcast_S1x64_S100000x64_0_1 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])).trans ?_
  exact broadcastInDim_apply _ Cert.ReferenceIdeal.Facts₀.bcast_S64_S1x64_1 x (ix2 (0 : Fin 1) j) (ix1 j) (fun a => match a with
    | ⟨0, _⟩ => by show j.val = if (64 : Nat) = 1 then 0 else j.val; rw [if_neg (by decide)])

/-- A scalar literal repeated over a shape reads the literal everywhere. -/
theorem splat_apply {t : Shape} (h : Cert.ReferenceIdeal.S_.BroadcastsInDim t (![] : Fin 0 → Fin t.rank)) (b : BitVec 32) (i : t.Idx) :
    broadcastInDim t ![] h (constant (F := Ideal) Cert.ReferenceIdeal.S_ .f32 b) i = Ideal.ofBits .f32 b :=
  broadcastInDim_apply _ h (constant (F := Ideal) Cert.ReferenceIdeal.S_ .f32 b) i (fun a => a.elim0) (fun a => a.elim0)

/-- The reference's matrix product of node features with a 64 × 64 matrix at node `n`, column `j`. -/
theorem hdot_apply (y : FVec Ideal Cert.ReferenceIdeal.S100000x64 .f32) (w : FVec Ideal Cert.ReferenceIdeal.S64x64 .f32)
    (n : Fin 100000) (j : Fin 64) :
    Host.dotGeneral (F := Ideal) Cert.ReferenceIdeal.dot_S100000x64_S64x64_S100000x64_1_0_0_1_n_n none y w (ix2 n j)
      = ∑ k : Fin 64, y (ix2 n k) * w (ix2 k j) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 n j) ((ValueIdx.contrEquiv1 Cert.ReferenceIdeal.dot_S100000x64_S64x64_S100000x64_1_0_0_1_n_n 64 rfl rfl).symm k) = ix2 n k := funext fun a => Fin.ext (by
    match a with
    | ⟨0, _⟩ => exact Cert.ReferenceIdeal.Read.lhs_main_v15_0 _ _
    | ⟨1, _⟩ => exact (Cert.ReferenceIdeal.Read.lhs_main_v15_1 _ _).trans hk)
  have er : Cert.ReferenceIdeal.dot_S100000x64_S64x64_S100000x64_1_0_0_1_n_n.rhsIdx (ix2 n j) ((ValueIdx.contrEquiv1 Cert.ReferenceIdeal.dot_S100000x64_S64x64_S100000x64_1_0_0_1_n_n 64 rfl rfl).symm k) = ix2 k j := funext fun a => Fin.ext (by
    match a with
    | ⟨0, _⟩ => exact (Cert.ReferenceIdeal.Read.rhs_main_v15_0 _ _).trans hk
    | ⟨1, _⟩ => exact Cert.ReferenceIdeal.Read.rhs_main_v15_1 _ _)
  rw [el, er]

/-- Either block of the reference before its last operation, as one function of the summed input `Z` and the block's
    parameters: linear map, bias, normalisation (subtract the mean, multiply by the reciprocal square root of variance + ε,
    multiply by the gain, add the offset), rectification, second linear map, bias. -/
def refBlock (Z : FVec Ideal Cert.ReferenceIdeal.S100000x64 .f32) (wa : FVec Ideal Cert.ReferenceIdeal.S64x64 .f32)
    (ba g be m v : FVec Ideal Cert.ReferenceIdeal.S64 .f32) (wb : FVec Ideal Cert.ReferenceIdeal.S64x64 .f32)
    (bb : FVec Ideal Cert.ReferenceIdeal.S64 .f32) : FVec Ideal Cert.ReferenceIdeal.S100000x64 .f32 :=
  addf (Host.dotGeneral (F := Ideal) Cert.ReferenceIdeal.dot_S100000x64_S64x64_S100000x64_1_0_0_1_n_n none
    (maximumf (addf (mulf (mulf (subf (addf (Host.dotGeneral (F := Ideal) Cert.ReferenceIdeal.dot_S100000x64_S64x64_S100000x64_1_0_0_1_n_n none Z wa) (rowOver ba)) (rowOver m))
        (rowOver (Host.rsqrt (F := Ideal) (addf v (broadcastInDim Cert.ReferenceIdeal.S64 ![] Cert.ReferenceIdeal.Facts₀.bcast_S_S64 (constant (F := Ideal) Cert.ReferenceIdeal.S_ .f32 0x3727C5AC#32))))))
        (rowOver g)) (rowOver be))
      (broadcastInDim Cert.ReferenceIdeal.S100000x64 ![] Cert.ReferenceIdeal.Facts₀.bcast_S_S100000x64 (constant (F := Ideal) Cert.ReferenceIdeal.S_ .f32 0x00000000#32))) wb) (rowOver bb)

/-- The reference's block at node `n`, column `j`. -/
def refBlockAt (Z : FVec Ideal Cert.ReferenceIdeal.S100000x64 .f32) (wa : FVec Ideal Cert.ReferenceIdeal.S64x64 .f32)
    (ba g be m v : FVec Ideal Cert.ReferenceIdeal.S64 .f32) (wb : FVec Ideal Cert.ReferenceIdeal.S64x64 .f32)
    (bb : FVec Ideal Cert.ReferenceIdeal.S64 .f32) (n : Fin 100000) (j : Fin 64) : EReal :=
  (∑ k' : Fin 64, max (((((∑ k : Fin 64, Z (ix2 n k) * wa (ix2 k k')) + ba (ix1 k')) - m (ix1 k'))
        * Ideal.rsqrt (v (ix1 k') + Ideal.ofBits .f32 0x3727C5AC#32)) * g (ix1 k') + be (ix1 k'))
      (Ideal.ofBits .f32 0x00000000#32) * wb (ix2 k' j)) + bb (ix1 j)

theorem refBlock_apply (Z : FVec Ideal Cert.ReferenceIdeal.S100000x64 .f32) (wa : FVec Ideal Cert.ReferenceIdeal.S64x64 .f32)
    (ba g be m v : FVec Ideal Cert.ReferenceIdeal.S64 .f32) (wb : FVec Ideal Cert.ReferenceIdeal.S64x64 .f32)
    (bb : FVec Ideal Cert.ReferenceIdeal.S64 .f32) (n : Fin 100000) (j : Fin 64) :
    refBlock Z wa ba g be m v wb bb (ix2 n j) = refBlockAt Z wa ba g be m v wb bb n j := by
  unfold refBlock refBlockAt
  rw [addf_apply, hdot_apply, rowOver_apply]
  refine congrArg (· + bb (ix1 j)) (Finset.sum_congr rfl fun k' _ => ?_)
  rw [maximumf_apply, addf_apply, mulf_apply, mulf_apply, subf_apply, addf_apply, hdot_apply, rowOver_apply, rowOver_apply, rowOver_apply,
    rowOver_apply, rowOver_apply, splat_apply]
  show max (_ * FloatOps.hostUnary .rsqrt (v (ix1 k') + broadcastInDim Cert.ReferenceIdeal.S64 ![] Cert.ReferenceIdeal.Facts₀.bcast_S_S64 (constant (F := Ideal) Cert.ReferenceIdeal.S_ .f32 0x3727C5AC#32) (ix1 k')) * _ + _) _ * _ = _
  rw [splat_apply]
  rfl

/-- The reference's first block before its final rectification is `refBlock` of the features plus their aggregation. -/
theorem ref_block0 (X : (⟨Cert.ReferenceIdeal.S100000x64, .f32⟩ : BufTy).Contents (Elt Ideal)) (ei : (⟨Cert.ReferenceIdeal.S2x1000000, .i32⟩ : BufTy).Contents (Elt Ideal)) (w0a : (⟨Cert.ReferenceIdeal.S64x64, .f32⟩ : BufTy).Contents (Elt Ideal))
    (b0a g0 be0 m0 v0 : (⟨Cert.ReferenceIdeal.S64, .f32⟩ : BufTy).Contents (Elt Ideal)) (w0b : (⟨Cert.ReferenceIdeal.S64x64, .f32⟩ : BufTy).Contents (Elt Ideal)) (b0b : (⟨Cert.ReferenceIdeal.S64, .f32⟩ : BufTy).Contents (Elt Ideal)) :
    Cert.ReferenceIdeal.Read.val_main_v38 (F := Ideal) X ei w0a b0a g0 be0 m0 v0 w0b b0b
      = refBlock (addf X (aggOf X ei)) w0a b0a g0 be0 m0 v0 w0b b0b := rfl

/-- The reference's second block is `refBlock` of the first block's output plus its aggregation. -/
theorem ref_block1 (X : (⟨Cert.ReferenceIdeal.S100000x64, .f32⟩ : BufTy).Contents (Elt Ideal)) (ei : (⟨Cert.ReferenceIdeal.S2x1000000, .i32⟩ : BufTy).Contents (Elt Ideal)) (w0a : (⟨Cert.ReferenceIdeal.S64x64, .f32⟩ : BufTy).Contents (Elt Ideal))
    (b0a g0 be0 m0 v0 : (⟨Cert.ReferenceIdeal.S64, .f32⟩ : BufTy).Contents (Elt Ideal)) (w0b : (⟨Cert.ReferenceIdeal.S64x64, .f32⟩ : BufTy).Contents (Elt Ideal)) (b0b : (⟨Cert.ReferenceIdeal.S64, .f32⟩ : BufTy).Contents (Elt Ideal))
    (w1a : (⟨Cert.ReferenceIdeal.S64x64, .f32⟩ : BufTy).Contents (Elt Ideal)) (b1a g1 be1 m1 v1 : (⟨Cert.ReferenceIdeal.S64, .f32⟩ : BufTy).Contents (Elt Ideal)) (w1b : (⟨Cert.ReferenceIdeal.S64x64, .f32⟩ : BufTy).Contents (Elt Ideal)) (b1b : (⟨Cert.ReferenceIdeal.S64, .f32⟩ : BufTy).Contents (Elt Ideal)) :
    Cert.ReferenceIdeal.Read.val_main_v74 (F := Ideal) X ei w0a b0a g0 be0 m0 v0 w0b b0b w1a b1a g1 be1 m1 v1 w1b b1b
      = refBlock (addf (Cert.ReferenceIdeal.Read.val_main_v39 (F := Ideal) X ei w0a b0a g0 be0 m0 v0 w0b b0b)
          (aggOf (Cert.ReferenceIdeal.Read.val_main_v39 (F := Ideal) X ei w0a b0a g0 be0 m0 v0 w0b b0b) ei)) w1a b1a g1 be1 m1 v1 w1b b1b := rfl

/-! ## The two sides agree -/

/-- One tile of a block against the reference's block. With the tile's two inputs the rows of `H` and `A` at the tile's
    global rows, the weights and biases the reference's, and the scale and shift the folded normalisation, the tile's entry
    is the reference's: the inner sums are the same term by term, and `bn_fold` carries the normalisation across. -/
theorem block_eq (H A : FVec Ideal Cert.ReferenceIdeal.S100000x64 .f32) (wa : FVec Ideal Cert.ReferenceIdeal.S64x64 .f32)
    (ba g be m v : FVec Ideal Cert.ReferenceIdeal.S64 .f32) (wb : FVec Ideal Cert.ReferenceIdeal.S64x64 .f32) (bb : FVec Ideal Cert.ReferenceIdeal.S64 .f32)
    (hg : ∀ k : Fin 64, ∃ r : ℝ, g (ix1 k) = (r : EReal)) (hbe : ∀ k : Fin 64, ∃ r : ℝ, be (ix1 k) = (r : EReal)) (hm : ∀ k : Fin 64, ∃ r : ℝ, m (ix1 k) = (r : EReal)) (hv : ∀ k : Fin 64, ∃ r : ℝ, 0 ≤ r ∧ v (ix1 k) = (r : EReal))
    (t : Fin 10)
    (x0 x1 : Vec Ideal Cert.KernelIdeal.S10000x64 .f32) (w : Vec Ideal Cert.KernelIdeal.S64x64 .f32) (a sc sh : Vec Ideal Cert.KernelIdeal.S1x64 .f32)
    (w' : Vec Ideal Cert.KernelIdeal.S64x64 .f32) (b' : Vec Ideal Cert.KernelIdeal.S1x64 .f32)
    (hx0 : ∀ (r : Fin 10000) (k : Fin 64), x0 (ix2 r k) = H (ix2 (row t r) k))
    (hx1 : ∀ (r : Fin 10000) (k : Fin 64), x1 (ix2 r k) = A (ix2 (row t r) k))
    (hw : ∀ k k' : Fin 64, w (ix2 k k') = wa (ix2 k k'))
    (ha : ∀ k : Fin 64, a (ix2 (0 : Fin 1) k) = ba (ix1 k))
    (hsc : ∀ k : Fin 64, sc (ix2 (0 : Fin 1) k) = g (ix1 k) * Ideal.rsqrt (v (ix1 k) + Ideal.ofBits .f32 0x3727C5AC#32))
    (hsh : ∀ k : Fin 64, sh (ix2 (0 : Fin 1) k) = be (ix1 k) - m (ix1 k) * (g (ix1 k) * Ideal.rsqrt (v (ix1 k) + Ideal.ofBits .f32 0x3727C5AC#32)))
    (hw' : ∀ k k' : Fin 64, w' (ix2 k k') = wb (ix2 k k'))
    (hb' : ∀ k : Fin 64, b' (ix2 (0 : Fin 1) k) = bb (ix1 k))
    (r : Fin 10000) (j : Fin 64) :
    kerBlockAt (addf x0 x1) w a sc sh w' b' r j = refBlockAt (addf H A) wa ba g be m v wb bb (row t r) j := by
  unfold kerBlockAt refBlockAt
  rw [hb' j]
  refine congrArg (· + bb (ix1 j)) (Finset.sum_congr rfl fun k' _ => ?_)
  have hsum : (∑ k : Fin 64, (addf (F := Ideal) (φ := .f32) x0 x1) (ix2 r k) * w (ix2 k k')) = ∑ k : Fin 64, (addf H A) (ix2 (row t r) k) * wa (ix2 k k') :=
    Finset.sum_congr rfl fun k _ => by rw [addf_apply, addf_apply, hx0 r k, hx1 r k, hw k k']
  rw [hw' k' j, ha k', hsc k', hsh k', hsum]
  obtain ⟨gr, hgr⟩ := hg k'
  obtain ⟨ber, hber⟩ := hbe k'
  obtain ⟨mr, hmr⟩ := hm k'
  obtain ⟨vr, hvr0, hvr⟩ := hv k'
  obtain ⟨s, hs⟩ := rsqrt_real vr hvr0
  rw [hgr, hber, hmr, hvr, hs]
  exact congrArg (fun z => max z (Ideal.ofBits .f32 0x00000000#32) * wb (ix2 k' j)) (bn_fold _ mr s gr ber).symm

/-- The first block (with its final ReLU): the tile's payload at row `r`, column `j` is the reference's first-block output
    at the tile's global row. -/
theorem layer0_apply (X : (⟨Cert.ReferenceIdeal.S100000x64, .f32⟩ : BufTy).Contents (Elt Ideal)) (ei : (⟨Cert.ReferenceIdeal.S2x1000000, .i32⟩ : BufTy).Contents (Elt Ideal)) (w0a : (⟨Cert.ReferenceIdeal.S64x64, .f32⟩ : BufTy).Contents (Elt Ideal))
    (b0a : (⟨Cert.ReferenceIdeal.S64, .f32⟩ : BufTy).Contents (Elt Ideal)) (g0 : (⟨Cert.ReferenceIdeal.S64, .f32⟩ : BufTy).Contents (Elt Ideal)) (be0 : (⟨Cert.ReferenceIdeal.S64, .f32⟩ : BufTy).Contents (Elt Ideal)) (m0 : (⟨Cert.ReferenceIdeal.S64, .f32⟩ : BufTy).Contents (Elt Ideal)) (v0 : (⟨Cert.ReferenceIdeal.S64, .f32⟩ : BufTy).Contents (Elt Ideal)) (w0b : (⟨Cert.ReferenceIdeal.S64x64, .f32⟩ : BufTy).Contents (Elt Ideal)) (b0b : (⟨Cert.ReferenceIdeal.S64, .f32⟩ : BufTy).Contents (Elt Ideal))
    (hg0 : ∀ k : Fin 64, ∃ r : ℝ, g0 (ix1 k) = (r : EReal)) (hbe0 : ∀ k : Fin 64, ∃ r : ℝ, be0 (ix1 k) = (r : EReal)) (hm0 : ∀ k : Fin 64, ∃ r : ℝ, m0 (ix1 k) = (r : EReal)) (hv0 : ∀ k : Fin 64, ∃ r : ℝ, 0 ≤ r ∧ v0 (ix1 k) = (r : EReal))
    (t : Fin 10)
    (x0 x1 : Vec Ideal Cert.KernelIdeal.S10000x64 .f32) (w : Vec Ideal Cert.KernelIdeal.S64x64 .f32) (a sc sh : Vec Ideal Cert.KernelIdeal.S1x64 .f32)
    (w' : Vec Ideal Cert.KernelIdeal.S64x64 .f32) (b' : Vec Ideal Cert.KernelIdeal.S1x64 .f32)
    (hx0 : ∀ (r : Fin 10000) (k : Fin 64), x0 (ix2 r k) = X (ix2 (row t r) k))
    (hx1 : ∀ (r : Fin 10000) (k : Fin 64), x1 (ix2 r k) = aggOf X ei (ix2 (row t r) k))
    (hw : ∀ k k' : Fin 64, w (ix2 k k') = w0a (ix2 k k'))
    (ha : ∀ k : Fin 64, a (ix2 (0 : Fin 1) k) = b0a (ix1 k))
    (hsc : ∀ k : Fin 64, sc (ix2 (0 : Fin 1) k) = g0 (ix1 k) * Ideal.rsqrt (v0 (ix1 k) + Ideal.ofBits .f32 0x3727C5AC#32))
    (hsh : ∀ k : Fin 64, sh (ix2 (0 : Fin 1) k) = be0 (ix1 k) - m0 (ix1 k) * (g0 (ix1 k) * Ideal.rsqrt (v0 (ix1 k) + Ideal.ofBits .f32 0x3727C5AC#32)))
    (hw' : ∀ k k' : Fin 64, w' (ix2 k k') = w0b (ix2 k k'))
    (hb' : ∀ k : Fin 64, b' (ix2 (0 : Fin 1) k) = b0b (ix1 k))
    (r : Fin 10000) (j : Fin 64) :
    Cert.KernelIdeal.Gen.k0_pay1 (F := Ideal) x0 x1 w a sc sh w' b' (ix2 r j)
      = Cert.ReferenceIdeal.Read.val_main_v39 (F := Ideal) X ei w0a b0a g0 be0 m0 v0 w0b b0b (ix2 (row t r) j) := by
  have hz : Cert.ReferenceIdeal.Read.val_main_call1_v0 (F := Ideal) (ix2 (row t r) j) = Ideal.ofBits .f32 0x00000000#32 :=
    splat_apply Cert.ReferenceIdeal.Facts₀.bcast_S_S100000x64 0x00000000#32 (ix2 (row t r) j)
  rw [k0_pay1_apply, Cert.ReferenceIdeal.Read.val_main_v39_apply, Ideal.maximumf_def, hz, ref_block0, refBlock_apply]
  exact congrArg (max · (Ideal.ofBits .f32 0x00000000#32))
    (block_eq X (aggOf X ei) w0a b0a g0 be0 m0 v0 w0b b0b hg0 hbe0 hm0 hv0 t x0 x1 w a sc sh w' b' hx0 hx1 hw ha hsc hsh hw' hb' r j)

/-- The second block (no final ReLU), over the first block's output and its aggregation. -/
theorem layer1_apply (X : (⟨Cert.ReferenceIdeal.S100000x64, .f32⟩ : BufTy).Contents (Elt Ideal)) (ei : (⟨Cert.ReferenceIdeal.S2x1000000, .i32⟩ : BufTy).Contents (Elt Ideal)) (w0a : (⟨Cert.ReferenceIdeal.S64x64, .f32⟩ : BufTy).Contents (Elt Ideal))
    (b0a : (⟨Cert.ReferenceIdeal.S64, .f32⟩ : BufTy).Contents (Elt Ideal)) (g0 : (⟨Cert.ReferenceIdeal.S64, .f32⟩ : BufTy).Contents (Elt Ideal)) (be0 : (⟨Cert.ReferenceIdeal.S64, .f32⟩ : BufTy).Contents (Elt Ideal)) (m0 : (⟨Cert.ReferenceIdeal.S64, .f32⟩ : BufTy).Contents (Elt Ideal)) (v0 : (⟨Cert.ReferenceIdeal.S64, .f32⟩ : BufTy).Contents (Elt Ideal)) (w0b : (⟨Cert.ReferenceIdeal.S64x64, .f32⟩ : BufTy).Contents (Elt Ideal)) (b0b : (⟨Cert.ReferenceIdeal.S64, .f32⟩ : BufTy).Contents (Elt Ideal))
    (w1a : (⟨Cert.ReferenceIdeal.S64x64, .f32⟩ : BufTy).Contents (Elt Ideal)) (b1a : (⟨Cert.ReferenceIdeal.S64, .f32⟩ : BufTy).Contents (Elt Ideal)) (g1 : (⟨Cert.ReferenceIdeal.S64, .f32⟩ : BufTy).Contents (Elt Ideal)) (be1 : (⟨Cert.ReferenceIdeal.S64, .f32⟩ : BufTy).Contents (Elt Ideal)) (m1 : (⟨Cert.ReferenceIdeal.S64, .f32⟩ : BufTy).Contents (Elt Ideal)) (v1 : (⟨Cert.ReferenceIdeal.S64, .f32⟩ : BufTy).Contents (Elt Ideal)) (w1b : (⟨Cert.ReferenceIdeal.S64x64, .f32⟩ : BufTy).Contents (Elt Ideal)) (b1b : (⟨Cert.ReferenceIdeal.S64, .f32⟩ : BufTy).Contents (Elt Ideal))
    (hg1 : ∀ k : Fin 64, ∃ r : ℝ, g1 (ix1 k) = (r : EReal)) (hbe1 : ∀ k : Fin 64, ∃ r : ℝ, be1 (ix1 k) = (r : EReal)) (hm1 : ∀ k : Fin 64, ∃ r : ℝ, m1 (ix1 k) = (r : EReal)) (hv1 : ∀ k : Fin 64, ∃ r : ℝ, 0 ≤ r ∧ v1 (ix1 k) = (r : EReal))
    (t : Fin 10)
    (x0 x1 : Vec Ideal Cert.KernelIdeal.S10000x64 .f32) (w : Vec Ideal Cert.KernelIdeal.S64x64 .f32) (a sc sh : Vec Ideal Cert.KernelIdeal.S1x64 .f32)
    (w' : Vec Ideal Cert.KernelIdeal.S64x64 .f32) (b' : Vec Ideal Cert.KernelIdeal.S1x64 .f32)
    (hx0 : ∀ (r : Fin 10000) (k : Fin 64), x0 (ix2 r k) = Cert.ReferenceIdeal.Read.val_main_v39 (F := Ideal) X ei w0a b0a g0 be0 m0 v0 w0b b0b (ix2 (row t r) k))
    (hx1 : ∀ (r : Fin 10000) (k : Fin 64), x1 (ix2 r k) = aggOf (Cert.ReferenceIdeal.Read.val_main_v39 (F := Ideal) X ei w0a b0a g0 be0 m0 v0 w0b b0b) ei (ix2 (row t r) k))
    (hw : ∀ k k' : Fin 64, w (ix2 k k') = w1a (ix2 k k'))
    (ha : ∀ k : Fin 64, a (ix2 (0 : Fin 1) k) = b1a (ix1 k))
    (hsc : ∀ k : Fin 64, sc (ix2 (0 : Fin 1) k) = g1 (ix1 k) * Ideal.rsqrt (v1 (ix1 k) + Ideal.ofBits .f32 0x3727C5AC#32))
    (hsh : ∀ k : Fin 64, sh (ix2 (0 : Fin 1) k) = be1 (ix1 k) - m1 (ix1 k) * (g1 (ix1 k) * Ideal.rsqrt (v1 (ix1 k) + Ideal.ofBits .f32 0x3727C5AC#32)))
    (hw' : ∀ k k' : Fin 64, w' (ix2 k k') = w1b (ix2 k k'))
    (hb' : ∀ k : Fin 64, b' (ix2 (0 : Fin 1) k) = b1b (ix1 k))
    (r : Fin 10000) (j : Fin 64) :
    Cert.KernelIdeal.Gen.k1_pay7 (F := Ideal) x0 x1 w a sc sh w' b' (ix2 r j)
      = Cert.ReferenceIdeal.Read.val_main_v74 (F := Ideal) X ei w0a b0a g0 be0 m0 v0 w0b b0b w1a b1a g1 be1 m1 v1 w1b b1b (ix2 (row t r) j) := by
  rw [k1_pay7_apply, ref_block1, refBlock_apply]
  exact block_eq (Cert.ReferenceIdeal.Read.val_main_v39 (F := Ideal) X ei w0a b0a g0 be0 m0 v0 w0b b0b)
    (aggOf (Cert.ReferenceIdeal.Read.val_main_v39 (F := Ideal) X ei w0a b0a g0 be0 m0 v0 w0b b0b) ei) w1a b1a g1 be1 m1 v1 w1b b1b
    hg1 hbe1 hm1 hv1 t x0 x1 w a sc sh w' b' hx0 hx1 hw ha hsc hsh hw' hb' r j

end Cert.GinVal

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«417148_j34376918237439_2_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.Val.Pool.lean ====
/-
  The pooling and the classifier. Over the ten grid points the second kernel adds, per graph id g, the one-hot weighted rows
  of each tile's features into the sums and the one-hot column sums into the counts, starting from zero; the reference
  scatter-adds the rows, and ones, at the batch ids. A node whose id is g contributes its row (and 1) on both sides, any other
  node nothing, so the sums and counts agree; the mean, the classifier product and the bias are then the same operations.
-/
import proofs.«417148_j34376918237439_2_alg».proof.Proof.Val.CommonK
import proofs.«417148_j34376918237439_2_alg».proof.Proof.Hand.Body1
import proofs.«417148_j34376918237439_2_alg».proof.Proof.LibScatter
import Idealize.ShloMosaic.Lib.Pipeline.Value
import Idealize.ShloMosaic.Lib.ValueLayout

set_option maxRecDepth 16384

noncomputable section

namespace Cert.GinVal

open Cert.KernelIdeal Cert.KernelIdeal.Gen Cert.KernelIdeal.GenP Cert.KernelIdeal.Hand
open Idealize.ShloMosaic Idealize.ShloMosaic.TcCoe Idealize.ShloMosaic.ValueIdx Idealize.SL.Sem
open Idealize.ShloMosaic.Pipeline (Dat)

/-- A one-bit word widened to 32 bits and converted as a signed integer: the extended real 1 for the set bit, 0 for the clear one. -/
theorem pool_bit_float (b : BitVec 1) :
    FloatOps.sitofp (F := Ideal) .f32 (b.setWidth 32) = if b = 1#1 then (1 : EReal) else 0 := by
  show (((b.setWidth 32).toInt : ℝ) : EReal) = _
  rcases BitVec.eq_zero_or_eq_one b with h | h
  · subst h
    rw [if_neg (by decide), show (BitVec.setWidth 32 0#1).toInt = 0 from by decide]
    simp
  · subst h
    rw [if_pos rfl, show (BitVec.setWidth 32 1#1).toInt = 1 from by decide]
    simp

/-- The mask as floats: 1 where the bit is set, 0 elsewhere. -/
theorem pool_pay1_apply (v34 : IVec S10000x512 1) (i : S10000x512.Idx) :
    k1_pay1 (F := Ideal) v34 i = if v34 i = 1#1 then (1 : EReal) else 0 := by
  unfold k1_pay1
  exact pool_bit_float (v34 i)

/-- The mask at node `r`, graph `g`: the comparison of the node's id word with the word of `g`. -/
theorem pool_pay8_apply (v31 : Vec Ideal S10000x1 .i32) (r : Fin 10000) (g : Fin 512) :
    k1_pay8 (F := Ideal) v31 (ix2 r g) = IntOp.cmpi .eq (v31 (ix2 r (0 : Fin 1))) (BitVec.ofNat 32 g.val) := by
  unfold k1_pay8
  show IntOp.cmpi .eq (broadcastTo S10000x512 (shapeCast S10000x1 v31 _) _ (ix2 r g)) (iota .tc S10000x512 32 [1] _ (ix2 r g)) = _
  rw [iota_single_apply, shapeCast_self]
  refine congrArg (fun w => IntOp.cmpi .eq w _) ?_
  refine broadcastTo_apply v31 _ (ix2 r g) (ix2 r (0 : Fin 1)) fun a => ?_
  match a with
  | ⟨0, _⟩ => rfl
  | ⟨1, _⟩ => rfl

/-! The one-hot product: both operands are contracted along their rows (axis 0). -/

theorem pool_lhs_0 (i : S512x64.Idx) (q : dot_S10000x512_S10000x64_S512x64_0_0_1_1_n_n.contr.Idx) :
    (dot_S10000x512_S10000x64_S512x64_0_0_1_1_n_n.lhsIdx i q 0).val = (q ⟨0, by decide⟩).val :=
  dot_S10000x512_S10000x64_S512x64_0_0_1_1_n_n.lhsIdx_val_of_single rfl i q
theorem pool_lhs_1 (i : S512x64.Idx) (q : dot_S10000x512_S10000x64_S512x64_0_0_1_1_n_n.contr.Idx) :
    (dot_S10000x512_S10000x64_S512x64_0_0_1_1_n_n.lhsIdx i q 1).val = (i 0).val := by
  unfold DotDims.lhsIdx
  rw [dif_neg (show ¬(1 : Fin S10000x512.rank) ∈ dot_S10000x512_S10000x64_S512x64_0_0_1_1_n_n.lhsBatch by decide), dif_pos (show (1 : Fin S10000x512.rank) ∈ dot_S10000x512_S10000x64_S512x64_0_0_1_1_n_n.lhsNonContracting by decide)]
  rfl
theorem pool_rhs_0 (i : S512x64.Idx) (q : dot_S10000x512_S10000x64_S512x64_0_0_1_1_n_n.contr.Idx) :
    (dot_S10000x512_S10000x64_S512x64_0_0_1_1_n_n.rhsIdx i q 0).val = (q ⟨0, by decide⟩).val :=
  dot_S10000x512_S10000x64_S512x64_0_0_1_1_n_n.rhsIdx_val_of_single rfl i q
theorem pool_rhs_1 (i : S512x64.Idx) (q : dot_S10000x512_S10000x64_S512x64_0_0_1_1_n_n.contr.Idx) :
    (dot_S10000x512_S10000x64_S512x64_0_0_1_1_n_n.rhsIdx i q 1).val = (i 1).val := by
  unfold DotDims.rhsIdx
  rw [dif_neg (show ¬(1 : Fin S10000x64.rank) ∈ dot_S10000x512_S10000x64_S512x64_0_0_1_1_n_n.rhsBatch by decide), dif_pos (show (1 : Fin S10000x64.rank) ∈ dot_S10000x512_S10000x64_S512x64_0_0_1_1_n_n.rhsNonContracting by decide)]
  rfl

/-- The sums after a tile, at graph `g` and feature `j`: what was there plus the mask-weighted column sum of the tile's features. -/
theorem pool_pay2_apply (h2 : FVec Ideal S10000x64 .f32) (oh : IVec S10000x512 1) (s : Vec Ideal S512x64 .f32) (g : Fin 512) (j : Fin 64) :
    k1_pay2 h2 oh s (ix2 g j) = s (ix2 g j) + ∑ r : Fin 10000, k1_pay1 (F := Ideal) oh (ix2 r g) * h2 (ix2 r j) := by
  unfold k1_pay2
  rw [shapeCast_self]
  show s (ix2 g j) + matmul dot_S10000x512_S10000x64_S512x64_0_0_1_1_n_n none (k1_pay1 (F := Ideal) oh) h2 (constant S512x64 .f32 0x00000000#32) (ix2 g j) = _
  refine congrArg (s (ix2 g j) + ·) ?_
  simp only [matmul]
  rw [Ideal.matmul_constant_zero_apply, ← Equiv.sum_comp (ValueIdx.contrEquiv1 dot_S10000x512_S10000x64_S512x64_0_0_1_1_n_n 10000 rfl rfl).symm]
  refine Finset.sum_congr rfl fun r _ => ?_
  have hk := ValueIdx.contrEquiv1_symm_val dot_S10000x512_S10000x64_S512x64_0_0_1_1_n_n 10000 rfl rfl r
  have el : dot_S10000x512_S10000x64_S512x64_0_0_1_1_n_n.lhsIdx (ix2 g j) ((ValueIdx.contrEquiv1 dot_S10000x512_S10000x64_S512x64_0_0_1_1_n_n 10000 rfl rfl).symm r) = ix2 r g := funext fun a => Fin.ext (by
    match a with
    | ⟨0, _⟩ => exact (pool_lhs_0 _ _).trans hk
    | ⟨1, _⟩ => exact pool_lhs_1 _ _)
  have er : dot_S10000x512_S10000x64_S512x64_0_0_1_1_n_n.rhsIdx (ix2 g j) ((ValueIdx.contrEquiv1 dot_S10000x512_S10000x64_S512x64_0_0_1_1_n_n 10000 rfl rfl).symm r) = ix2 r j := funext fun a => Fin.ext (by
    match a with
    | ⟨0, _⟩ => exact (pool_rhs_0 _ _).trans hk
    | ⟨1, _⟩ => exact pool_rhs_1 _ _)
  rw [el, er]

/-- The counts after a tile, at graph `g`: what was there plus the mask's column sum. -/
theorem pool_pay3_apply (oh : IVec S10000x512 1) (s : Vec Ideal S512x1 .f32) (g : Fin 512) :
    k1_pay3 oh s (ix2 g (0 : Fin 1)) = s (ix2 g (0 : Fin 1)) + ∑ r : Fin 10000, k1_pay1 (F := Ideal) oh (ix2 r g) := by
  unfold k1_pay3
  rw [shapeCast_self]
  show s (ix2 g (0 : Fin 1)) + transpose S512x1 [1, 0] (shapeCast S1x512 (multiReduction .add [0] S512 (k1_pay1 (F := Ideal) oh) 0x00000000#32 reduces_S10000x512_S512 (.inl rfl) rfl) shapeCasts_S512_S1x512) transposes_S1x512_p1_0_S512x1 (ix2 g (0 : Fin 1)) = _
  refine congrArg (s (ix2 g (0 : Fin 1)) + ·) ?_
  rw [transpose_ix2_apply, shapeCast_a_1a_apply]
  refine (Ideal.multiReduction_add_single (k1_pay1 (F := Ideal) oh) 0x00000000#32 reduces_S10000x512_S512 (.inl rfl) rfl (ix1 g)).trans ?_
  show ∑ r : Fin 10000, k1_pay1 (F := Ideal) oh (Shape.Reduces.lift reduces_S10000x512_S512 (ix1 g) r) = _
  refine Finset.sum_congr rfl fun r _ => congrArg _ ?_
  funext a
  match a with
  | ⟨0, _⟩ => exact Fin.ext rfl
  | ⟨1, _⟩ => exact Fin.ext rfl

/-- The sums start at zero. -/
theorem pool_pay5_apply (i : S512x64.Idx) : k1_pay5 (F := Ideal) i = 0 := by
  unfold k1_pay5
  rw [shapeCast_self]
  exact Ideal.ofBits_zero_f32

/-- The counts start at zero. -/
theorem pool_pay6_apply (i : S512x1.Idx) : k1_pay6 (F := Ideal) i = 0 := by
  unfold k1_pay6
  rw [shapeCast_self]
  exact Ideal.ofBits_zero_f32

/-- The weight of a node whose batch-id word is `w` in graph `g`'s sums: 1 when the word is `g`'s, else 0. -/
def pool_ohw (w : BitVec 32) (g : Fin 512) : EReal := if w = BitVec.ofNat 32 g.val then 1 else 0

/-- A sum over the ten tiles and each tile's rows is the sum over all nodes. -/
theorem pool_sum_tiles {M : Type*} [AddCommMonoid M] (f : Fin 100000 → M) :
    ∑ t : Fin 10, ∑ r : Fin 10000, f (row t r) = ∑ n, f n := by
  rw [← Fintype.sum_prod_type']
  exact Fintype.sum_equiv (Equiv.ofBijective (fun p : Fin 10 × Fin 10000 => row p.1 p.2)
    ⟨fun p q h => Prod.ext (row_inj h).1 (row_inj h).2, fun n => let ⟨t, r, h⟩ := row_surj n; ⟨(t, r), h.symm⟩⟩) _ _ (fun _ => rfl)

section Acc

variable (V : (c : Dev nD) → (b : Ref sig .tc) → Buf (Elt Ideal) ((c : Thread nD τ).loc b)) (c : Dev nD)
  (H : (⟨2, ![100000, 64]⟩ : Shape).Idx → EReal) (bt : (⟨1, ![100000]⟩ : Shape).Idx → BitVec 32)
  (hh2 : ∀ (t : Fin cfg1.N) (r : Fin 10000) (j : Fin 64), h2blk V c t (ix2 r j) = H (ix2 (row (tile1 t) r) j))
  (hbt : ∀ (t : Fin cfg1.N) (r : Fin 10000), iblk1 V c 2 t (ix2 r (0 : Fin 1)) = bt (ix1 (row (tile1 t) r)))

include hbt in
/-- A tile's mask as floats, at the tile's row `r` and graph `g`, is the weight of the node's batch id. -/
theorem pool_oh_apply (t : Fin cfg1.N) (r : Fin 10000) (g : Fin 512) :
    k1_pay1 (F := Ideal) (ohblk V c t) (ix2 r g) = pool_ohw (bt (ix1 (row (tile1 t) r))) g := by
  have e1 : ohblk V c t (ix2 r g) = IntOp.cmpi .eq (bt (ix1 (row (tile1 t) r))) (BitVec.ofNat 32 g.val) :=
    (pool_pay8_apply (iblk1 V c 2 t) r g).trans (congrArg (fun w => IntOp.cmpi .eq w (BitVec.ofNat 32 g.val)) (hbt t r))
  rw [pool_pay1_apply, e1]
  unfold pool_ohw
  by_cases h : bt (ix1 (row (tile1 t) r)) = BitVec.ofNat 32 g.val
  · rw [if_pos (IntOp.cmpi_eq.mpr h), if_pos h]
  · rw [if_neg (fun h' => h (IntOp.cmpi_eq.mp h')), if_neg h]

include hh2 hbt in
/-- The sums after grid point `n`, at graph `g` and feature `j`: over the tiles so far, the weighted rows of the features. -/
theorem pool_acc_sums (g : Fin 512) (j : Fin 64) (n : ℕ) (hn : n < cfg1.N) :
    (accAt1 V c n hn).1 (ix2 g j) = ∑ t ∈ Finset.range (n + 1),
      (if h : t < 10 then ∑ r : Fin 10000, pool_ohw (bt (ix1 (row ⟨t, h⟩ r))) g * H (ix2 (row ⟨t, h⟩ r) j) else 0) := by
  have tile : ∀ (t : ℕ) (ht : t < cfg1.N) (h10 : t < 10),
      ∑ r : Fin 10000, k1_pay1 (F := Ideal) (ohblk V c ⟨t, ht⟩) (ix2 r g) * h2blk V c ⟨t, ht⟩ (ix2 r j)
        = ∑ r : Fin 10000, pool_ohw (bt (ix1 (row ⟨t, h10⟩ r))) g * H (ix2 (row ⟨t, h10⟩ r) j) := fun t ht h10 =>
    Finset.sum_congr rfl fun r _ => by rw [pool_oh_apply V c bt hbt ⟨t, ht⟩ r g, hh2 ⟨t, ht⟩ r j]; rfl
  induction n with
  | zero =>
    have h10 : 0 < 10 := by decide
    show k1_pay2 (h2blk V c ⟨0, hn⟩) (ohblk V c ⟨0, hn⟩) (k1_pay5 (F := Ideal)) (ix2 g j) = _
    rw [pool_pay2_apply, Finset.sum_range_one, dif_pos h10, pool_pay5_apply, zero_add, tile 0 hn h10]
  | succ n ih =>
    have h10 : n + 1 < 10 := lt_of_lt_of_eq hn N_1
    show k1_pay2 (h2blk V c ⟨n + 1, hn⟩) (ohblk V c ⟨n + 1, hn⟩) (accAt1 V c n (Nat.lt_of_succ_lt hn)).1 (ix2 g j) = _
    rw [pool_pay2_apply, ih, Finset.sum_range_succ _ (n + 1), dif_pos h10, tile (n + 1) hn h10]

include hbt in
/-- The counts after grid point `n`, at graph `g`: over the tiles so far, the weights of the rows. -/
theorem pool_acc_counts (g : Fin 512) (n : ℕ) (hn : n < cfg1.N) :
    (accAt1 V c n hn).2 (ix2 g (0 : Fin 1)) = ∑ t ∈ Finset.range (n + 1),
      (if h : t < 10 then ∑ r : Fin 10000, pool_ohw (bt (ix1 (row ⟨t, h⟩ r))) g else 0) := by
  have tile : ∀ (t : ℕ) (ht : t < cfg1.N) (h10 : t < 10),
      ∑ r : Fin 10000, k1_pay1 (F := Ideal) (ohblk V c ⟨t, ht⟩) (ix2 r g)
        = ∑ r : Fin 10000, pool_ohw (bt (ix1 (row ⟨t, h10⟩ r))) g := fun t ht h10 =>
    Finset.sum_congr rfl fun r _ => by rw [pool_oh_apply V c bt hbt ⟨t, ht⟩ r g]; rfl
  induction n with
  | zero =>
    have h10 : 0 < 10 := by decide
    show k1_pay3 (F := Ideal) (ohblk V c ⟨0, hn⟩) (k1_pay6 (F := Ideal)) (ix2 g (0 : Fin 1)) = _
    rw [pool_pay3_apply, Finset.sum_range_one, dif_pos h10, pool_pay6_apply, zero_add, tile 0 hn h10]
  | succ n ih =>
    have h10 : n + 1 < 10 := lt_of_lt_of_eq hn N_1
    show k1_pay3 (F := Ideal) (ohblk V c ⟨n + 1, hn⟩) (accAt1 V c n (Nat.lt_of_succ_lt hn)).2 (ix2 g (0 : Fin 1)) = _
    rw [pool_pay3_apply, ih, Finset.sum_range_succ _ (n + 1), dif_pos h10, tile (n + 1) hn h10]

/-- A sum over the first ten naturals of a function given on the tiles (zero past them) is the sum over the tiles. -/
theorem pool_sum_range_tiles {M : Type*} [AddCommMonoid M] (f : Fin 10 → M) :
    ∑ t ∈ Finset.range (9 + 1), (if h : t < 10 then f ⟨t, h⟩ else 0) = ∑ t : Fin 10, f t := by
  rw [Finset.sum_range]
  exact Finset.sum_congr rfl fun t _ => dif_pos t.isLt

include hh2 hbt in
/-- After the last grid point the sums at `(g, j)` are the weighted sum over ALL nodes of the features. -/
theorem pool_acc_sums_last (g : Fin 512) (j : Fin 64) :
    (accAt1 V c t9.val t9.isLt).1 (ix2 g j) = ∑ n : Fin 100000, pool_ohw (bt (ix1 n)) g * H (ix2 n j) := by
  rw [pool_acc_sums V c H bt hh2 hbt g j t9.val t9.isLt]
  show ∑ t ∈ Finset.range (9 + 1), _ = _
  rw [pool_sum_range_tiles (fun t => ∑ r : Fin 10000, pool_ohw (bt (ix1 (row t r))) g * H (ix2 (row t r) j))]
  exact pool_sum_tiles (fun n => pool_ohw (bt (ix1 n)) g * H (ix2 n j))

include hbt in
/-- After the last grid point the counts at `g` are the sum over all nodes of the weights. -/
theorem pool_acc_counts_last (g : Fin 512) :
    (accAt1 V c t9.val t9.isLt).2 (ix2 g (0 : Fin 1)) = ∑ n : Fin 100000, pool_ohw (bt (ix1 n)) g := by
  rw [pool_acc_counts V c bt hbt g t9.val t9.isLt]
  show ∑ t ∈ Finset.range (9 + 1), _ = _
  rw [pool_sum_range_tiles (fun t => ∑ r : Fin 10000, pool_ohw (bt (ix1 (row t r))) g)]
  exact pool_sum_tiles (fun n => pool_ohw (bt (ix1 n)) g)

end Acc

/-- A 32-bit word read as a signed integer is graph `g`'s number exactly when it is `g`'s word: `g` is below 512, far below 2³¹. -/
theorem pool_toInt_eq_iff (w : BitVec 32) (g : Fin 512) : w.toInt = (g.val : ℤ) ↔ w = BitVec.ofNat 32 g.val := by
  have hg : (BitVec.ofNat 32 g.val).toInt = (g.val : ℤ) := by
    have hlt := g.isLt
    have hm : g.val % 2 ^ 32 = g.val := Nat.mod_eq_of_lt (by omega)
    rw [BitVec.toInt_eq_toNat_cond, BitVec.toNat_ofNat, hm, if_pos (by omega)]
  constructor
  · intro h; exact BitVec.eq_of_toInt_eq (h.trans hg.symm)
  · rintro rfl; exact hg

/-- A weighted sum over the nodes keeps exactly the nodes whose batch id, read signed, is `g`: the weight is 1 there and 0 elsewhere,
    and `1 * x = x`, `0 * x = 0` for every extended real. -/
theorem pool_sum_ohw_mul (bt : (⟨1, ![100000]⟩ : Shape).Idx → BitVec 32) (g : Fin 512) (f : Fin 100000 → EReal) :
    ∑ n : Fin 100000, pool_ohw (bt (ix1 n)) g * f n
      = ∑ n ∈ Finset.univ.filter (fun n : Fin 100000 => (bt (ix1 n)).toInt = (g.val : ℤ)), f n := by
  rw [Finset.sum_filter]
  refine Finset.sum_congr rfl fun n _ => ?_
  unfold pool_ohw
  by_cases h : bt (ix1 n) = BitVec.ofNat 32 g.val
  · rw [if_pos h, if_pos ((pool_toInt_eq_iff _ g).mpr h), one_mul]
  · rw [if_neg h, if_neg (fun h' => h ((pool_toInt_eq_iff _ g).mp h')), zero_mul]

/-- The sum of the weights counts the same nodes. -/
theorem pool_sum_ohw (bt : (⟨1, ![100000]⟩ : Shape).Idx → BitVec 32) (g : Fin 512) :
    ∑ n : Fin 100000, pool_ohw (bt (ix1 n)) g
      = ∑ n ∈ Finset.univ.filter (fun n : Fin 100000 => (bt (ix1 n)).toInt = (g.val : ℤ)), (1 : EReal) := by
  rw [← pool_sum_ohw_mul bt g (fun _ => 1)]
  exact Finset.sum_congr rfl fun n _ => (mul_one _).symm

/-- The reference's column of batch ids at row `e` is the batch argument at `e`. -/
theorem pool_ref_ids76 (x2 : (⟨Cert.ReferenceIdeal.S100000, .i32⟩ : BufTy).Contents (Elt Ideal)) (e : Fin 100000) :
    Cert.ReferenceIdeal.Read.val_main_v76 (F := Ideal) x2 (ix2 e (0 : Fin 1)) = x2 (ix1 e) := by
  rw [Cert.ReferenceIdeal.Read.val_main_v76_apply]
  exact congrArg x2 (funext fun a => by match a with | ⟨0, _⟩ => rfl)

theorem pool_ref_ids80 (x2 : (⟨Cert.ReferenceIdeal.S100000, .i32⟩ : BufTy).Contents (Elt Ideal)) (e : Fin 100000) :
    Cert.ReferenceIdeal.Read.val_main_v80 (F := Ideal) x2 (ix2 e (0 : Fin 1)) = x2 (ix1 e) := by
  rw [Cert.ReferenceIdeal.Read.val_main_v80_apply]
  exact congrArg x2 (funext fun a => by match a with | ⟨0, _⟩ => rfl)

/-- The word of 1.0 is the extended real 1. -/
theorem pool_one_f32 : Ideal.ofBits .f32 0x3F800000#32 = 1 := IdealRules.sign_bit.ideal_onePat .f32

/-- The reference's scatter-add of feature rows `y` at the batch ids, read at graph `g` and feature `j`: the sum of the rows of the
    nodes whose id, read signed, is `g`. -/
theorem pool_ref_scatter_rows (x2 : (⟨Cert.ReferenceIdeal.S100000, .i32⟩ : BufTy).Contents (Elt Ideal))
    (y : FVec Ideal Cert.ReferenceIdeal.S100000x64 .f32) (g : Fin 512) (j : Fin 64) :
    Host.scatterAdd (F := Ideal) (φ := .f32) Cert.ReferenceIdeal.scatter_S512x64_S100000x1_S100000x64_1_0_0_1
        (Cert.ReferenceIdeal.Read.val_main_v75 (F := Ideal)) (Cert.ReferenceIdeal.Read.val_main_v76 (F := Ideal) x2) y (ix2 g j)
      = ∑ n ∈ Finset.univ.filter (fun n : Fin 100000 => (x2 (ix1 n)).toInt = (g.val : ℤ)), y (ix2 n j) := by
  have hd : Cert.ReferenceIdeal.scatter_S512x64_S100000x1_S100000x64_1_0_0_1
      = Cert.Gcn.rowScatterDims 512 100000 64 Cert.ReferenceIdeal.Facts₀.scatter_S512x64_S100000x1_S100000x64_1_0_0_1_wf := rfl
  show Ideal.hostScatterAdd Cert.ReferenceIdeal.scatter_S512x64_S100000x1_S100000x64_1_0_0_1 _ _ y (ix2 g j) = _
  rw [hd, Cert.Gcn.scatterAddRows_apply, Cert.ReferenceIdeal.Read.val_main_v75_apply, Cert.ReferenceIdeal.Read.val_main_cst_6_apply,
    Ideal.ofBits_def, Ideal.ofBits_zero_f32, zero_add]
  simp only [pool_ref_ids76]

/-- The reference's scatter-add of ones at the batch ids, read at graph `g`: one for each node whose id, read signed, is `g`. -/
theorem pool_ref_scatter_ones (x2 : (⟨Cert.ReferenceIdeal.S100000, .i32⟩ : BufTy).Contents (Elt Ideal)) (g : Fin 512) :
    Cert.ReferenceIdeal.Read.val_main_v81 (F := Ideal) x2 (ix1 g)
      = ∑ n ∈ Finset.univ.filter (fun n : Fin 100000 => (x2 (ix1 n)).toInt = (g.val : ℤ)), (1 : EReal) := by
  have hd : Cert.ReferenceIdeal.scatter_S512_S100000x1_S100000_n_0_0_1
      = Cert.Gcn.vecScatterDims 512 100000 Cert.ReferenceIdeal.Facts₀.scatter_S512_S100000x1_S100000_n_0_0_1_wf := rfl
  unfold Cert.ReferenceIdeal.Read.val_main_v81
  show Ideal.hostScatterAdd Cert.ReferenceIdeal.scatter_S512_S100000x1_S100000_n_0_0_1 _ _ _ (ix1 g) = _
  rw [hd, Cert.Gcn.scatterAddVec_apply, Cert.ReferenceIdeal.Read.val_main_v79_apply, Cert.ReferenceIdeal.Read.val_main_cst_8_apply,
    Ideal.ofBits_def, Ideal.ofBits_zero_f32, zero_add]
  simp only [pool_ref_ids80, Cert.ReferenceIdeal.Read.val_main_v78_apply, Cert.ReferenceIdeal.Read.val_main_cst_7_apply, Ideal.ofBits_def, pool_one_f32]

/-! The classifier product contracts the features (axis 1 of the means, axis 0 of the weights). -/

theorem pool_cls_lhs_0 (i : S512x10.Idx) (q : dot_S512x64_S64x10_S512x10_1_0_0_1_n_n.contr.Idx) :
    (dot_S512x64_S64x10_S512x10_1_0_0_1_n_n.lhsIdx i q 0).val = (i 0).val := by
  unfold DotDims.lhsIdx
  rw [dif_neg (show ¬(0 : Fin S512x64.rank) ∈ dot_S512x64_S64x10_S512x10_1_0_0_1_n_n.lhsBatch by decide), dif_pos (show (0 : Fin S512x64.rank) ∈ dot_S512x64_S64x10_S512x10_1_0_0_1_n_n.lhsNonContracting by decide)]
  rfl
theorem pool_cls_lhs_1 (i : S512x10.Idx) (q : dot_S512x64_S64x10_S512x10_1_0_0_1_n_n.contr.Idx) :
    (dot_S512x64_S64x10_S512x10_1_0_0_1_n_n.lhsIdx i q 1).val = (q ⟨0, by decide⟩).val :=
  dot_S512x64_S64x10_S512x10_1_0_0_1_n_n.lhsIdx_val_of_single rfl i q
theorem pool_cls_rhs_0 (i : S512x10.Idx) (q : dot_S512x64_S64x10_S512x10_1_0_0_1_n_n.contr.Idx) :
    (dot_S512x64_S64x10_S512x10_1_0_0_1_n_n.rhsIdx i q 0).val = (q ⟨0, by decide⟩).val :=
  dot_S512x64_S64x10_S512x10_1_0_0_1_n_n.rhsIdx_val_of_single rfl i q
theorem pool_cls_rhs_1 (i : S512x10.Idx) (q : dot_S512x64_S64x10_S512x10_1_0_0_1_n_n.contr.Idx) :
    (dot_S512x64_S64x10_S512x10_1_0_0_1_n_n.rhsIdx i q 1).val = (i 1).val := by
  unfold DotDims.rhsIdx
  rw [dif_neg (show ¬(1 : Fin S64x10.rank) ∈ dot_S512x64_S64x10_S512x10_1_0_0_1_n_n.rhsBatch by decide), dif_pos (show (1 : Fin S64x10.rank) ∈ dot_S512x64_S64x10_S512x10_1_0_0_1_n_n.rhsNonContracting by decide)]
  rfl

/-- The output block at graph `g`, class `k`: the sums divided by the counts raised to at least one, times the classifier weights,
    plus the bias. -/
theorem pool_pay4_apply (v54 : Vec Ideal S512x64 .f32) (v55 : Vec Ideal S512x1 .f32) (v60 : Vec Ideal S64x10 .f32) (v62 : Vec Ideal S1x10 .f32)
    (g : Fin 512) (k : Fin 10) :
    k1_pay4 (F := Ideal) v54 v55 v60 v62 (ix2 g k)
      = (∑ q : Fin 64, Ideal.div (v54 (ix2 g q)) (max (v55 (ix2 g (0 : Fin 1))) (Ideal.ofBits .f32 0x3F800000#32)) * v60 (ix2 q k))
        + v62 (ix2 (0 : Fin 1) k) := by
  unfold k1_pay4
  show matmul dot_S512x64_S64x10_S512x10_1_0_0_1_n_n none
      (divf v54 (broadcastTo S512x64 (maximumf v55 (broadcast S512x1 (Scalar.ofBits (F := Ideal) .f32 0x3F800000#32))) broadcasts_S512x1_S512x64))
      v60 (constant S512x10 .f32 0x00000000#32) (ix2 g k)
    + broadcastTo S512x10 (shapeCast S1x10 v62 shapeCasts_S1x10_S1x10) broadcasts_S1x10_S512x10 (ix2 g k) = _
  rw [shapeCast_self, broadcastTo_1b_ab_apply]
  refine congrArg (· + v62 (ix2 (0 : Fin 1) k)) ?_
  simp only [matmul]
  rw [Ideal.matmul_constant_zero_apply, ← Equiv.sum_comp (ValueIdx.contrEquiv1 dot_S512x64_S64x10_S512x10_1_0_0_1_n_n 64 rfl rfl).symm]
  refine Finset.sum_congr rfl fun q _ => ?_
  have hk := ValueIdx.contrEquiv1_symm_val dot_S512x64_S64x10_S512x10_1_0_0_1_n_n 64 rfl rfl q
  have el : dot_S512x64_S64x10_S512x10_1_0_0_1_n_n.lhsIdx (ix2 g k) ((ValueIdx.contrEquiv1 dot_S512x64_S64x10_S512x10_1_0_0_1_n_n 64 rfl rfl).symm q) = ix2 g q := funext fun a => Fin.ext (by
    match a with
    | ⟨0, _⟩ => exact pool_cls_lhs_0 _ _
    | ⟨1, _⟩ => exact (pool_cls_lhs_1 _ _).trans hk)
  have er : dot_S512x64_S64x10_S512x10_1_0_0_1_n_n.rhsIdx (ix2 g k) ((ValueIdx.contrEquiv1 dot_S512x64_S64x10_S512x10_1_0_0_1_n_n 64 rfl rfl).symm q) = ix2 q k := funext fun a => Fin.ext (by
    match a with
    | ⟨0, _⟩ => exact (pool_cls_rhs_0 _ _).trans hk
    | ⟨1, _⟩ => exact pool_cls_rhs_1 _ _)
  rw [el, er]
  refine congrArg (· * v60 (ix2 q k)) ?_
  show Ideal.div (v54 (ix2 g q)) (broadcastTo S512x64 (maximumf v55 (broadcast S512x1 (Scalar.ofBits (F := Ideal) .f32 0x3F800000#32))) broadcasts_S512x1_S512x64 (ix2 g q)) = _
  refine congrArg (Ideal.div (v54 (ix2 g q))) ?_
  exact broadcastTo_apply _ broadcasts_S512x1_S512x64 (ix2 g q) (ix2 g (0 : Fin 1)) (fun a => match a with | ⟨0, _⟩ => rfl | ⟨1, _⟩ => rfl)

/-- The reference's result at graph `g`, class `k`, in the same form: its scattered sums divided by its scattered counts raised to at
    least one, times the classifier weights, plus the bias. -/
theorem pool_ref_final (X : (⟨Cert.ReferenceIdeal.S100000x64, .f32⟩ : BufTy).Contents (Elt Ideal)) (ei : (⟨Cert.ReferenceIdeal.S2x1000000, .i32⟩ : BufTy).Contents (Elt Ideal)) (bt : (⟨Cert.ReferenceIdeal.S100000, .i32⟩ : BufTy).Contents (Elt Ideal)) (w0a : (⟨Cert.ReferenceIdeal.S64x64, .f32⟩ : BufTy).Contents (Elt Ideal))
    (b0a g0 be0 m0 v0 : (⟨Cert.ReferenceIdeal.S64, .f32⟩ : BufTy).Contents (Elt Ideal)) (w0b : (⟨Cert.ReferenceIdeal.S64x64, .f32⟩ : BufTy).Contents (Elt Ideal)) (b0b : (⟨Cert.ReferenceIdeal.S64, .f32⟩ : BufTy).Contents (Elt Ideal))
    (w1a : (⟨Cert.ReferenceIdeal.S64x64, .f32⟩ : BufTy).Contents (Elt Ideal)) (b1a g1 be1 m1 v1 : (⟨Cert.ReferenceIdeal.S64, .f32⟩ : BufTy).Contents (Elt Ideal)) (w1b : (⟨Cert.ReferenceIdeal.S64x64, .f32⟩ : BufTy).Contents (Elt Ideal)) (b1b : (⟨Cert.ReferenceIdeal.S64, .f32⟩ : BufTy).Contents (Elt Ideal))
    (wc : (⟨Cert.ReferenceIdeal.S64x10, .f32⟩ : BufTy).Contents (Elt Ideal)) (bc : (⟨Cert.ReferenceIdeal.S10, .f32⟩ : BufTy).Contents (Elt Ideal))
    (g : Fin 512) (k : Fin 10) :
    Cert.ReferenceIdeal.Read.val_main_v90 (F := Ideal) X ei bt w0a b0a g0 be0 m0 v0 w0b b0b w1a b1a g1 be1 m1 v1 w1b b1b wc bc (ix2 g k)
      = (∑ q : Fin 64, Ideal.div (Cert.ReferenceIdeal.Read.val_main_v77 (F := Ideal) X ei bt w0a b0a g0 be0 m0 v0 w0b b0b w1a b1a g1 be1 m1 v1 w1b b1b (ix2 g q))
            (max (Cert.ReferenceIdeal.Read.val_main_v81 (F := Ideal) bt (ix1 g)) (Ideal.ofBits .f32 0x3F800000#32)) * wc (ix2 q k))
        + bc (ix1 k) := by
  have e89 : Cert.ReferenceIdeal.Read.idx_main_v88 (Cert.ReferenceIdeal.Read.idx_main_v89 (ix2 g k)) = ix1 k :=
    funext fun a => by match a with | ⟨0, _⟩ => rfl
  have el : ∀ q : Fin 64, Cert.ReferenceIdeal.Read.lidx_main_v87 (ix2 g k) q = ix2 g q :=
    fun q => funext fun a => by match a with | ⟨0, _⟩ => rfl | ⟨1, _⟩ => rfl
  have er : ∀ q : Fin 64, Cert.ReferenceIdeal.Read.ridx_main_v87 (ix2 g k) q = ix2 q k :=
    fun q => funext fun a => by match a with | ⟨0, _⟩ => rfl | ⟨1, _⟩ => rfl
  have e85 : ∀ q : Fin 64, Cert.ReferenceIdeal.Read.idx_main_v84 (Cert.ReferenceIdeal.Read.idx_main_v85 (ix2 g q)) = ix1 g :=
    fun q => funext fun a => by match a with | ⟨0, _⟩ => rfl
  rw [Cert.ReferenceIdeal.Read.val_main_v90_apply, Cert.ReferenceIdeal.Read.val_main_v89_apply, Cert.ReferenceIdeal.Read.val_main_v88_apply,
    Cert.ReferenceIdeal.Read.val_main_v87_apply, e89, Ideal.addf_def]
  refine congrArg (· + bc (ix1 k)) (Finset.sum_congr rfl fun q _ => ?_)
  rw [el q, er q, Cert.ReferenceIdeal.Read.val_main_v86_apply, Cert.ReferenceIdeal.Read.val_main_v85_apply, Cert.ReferenceIdeal.Read.val_main_v84_apply,
    Cert.ReferenceIdeal.Read.val_main_v83_apply, e85 q, Cert.ReferenceIdeal.Read.val_main_v82_apply, Cert.ReferenceIdeal.Read.val_main_cst_9_apply,
    Ideal.hostDivf_def, Ideal.maximumf_def, Ideal.ofBits_def]

/-- The output block after the last grid point is the reference's result: per graph the same nodes contribute their rows and their
    ones on both sides, so the sums and the counts agree, and the mean, the classifier product and the bias are the same operations. -/
theorem pool_final (V : (c : Dev nD) → (b : Ref sig .tc) → Buf (Elt Ideal) ((c : Thread nD τ).loc b)) (c : Dev nD)
    (X : (⟨Cert.ReferenceIdeal.S100000x64, .f32⟩ : BufTy).Contents (Elt Ideal)) (ei : (⟨Cert.ReferenceIdeal.S2x1000000, .i32⟩ : BufTy).Contents (Elt Ideal)) (bt : (⟨Cert.ReferenceIdeal.S100000, .i32⟩ : BufTy).Contents (Elt Ideal)) (w0a : (⟨Cert.ReferenceIdeal.S64x64, .f32⟩ : BufTy).Contents (Elt Ideal))
    (b0a : (⟨Cert.ReferenceIdeal.S64, .f32⟩ : BufTy).Contents (Elt Ideal)) (g0 : (⟨Cert.ReferenceIdeal.S64, .f32⟩ : BufTy).Contents (Elt Ideal)) (be0 : (⟨Cert.ReferenceIdeal.S64, .f32⟩ : BufTy).Contents (Elt Ideal)) (m0 : (⟨Cert.ReferenceIdeal.S64, .f32⟩ : BufTy).Contents (Elt Ideal)) (v0 : (⟨Cert.ReferenceIdeal.S64, .f32⟩ : BufTy).Contents (Elt Ideal)) (w0b : (⟨Cert.ReferenceIdeal.S64x64, .f32⟩ : BufTy).Contents (Elt Ideal)) (b0b : (⟨Cert.ReferenceIdeal.S64, .f32⟩ : BufTy).Contents (Elt Ideal))
    (w1a : (⟨Cert.ReferenceIdeal.S64x64, .f32⟩ : BufTy).Contents (Elt Ideal)) (b1a : (⟨Cert.ReferenceIdeal.S64, .f32⟩ : BufTy).Contents (Elt Ideal)) (g1 : (⟨Cert.ReferenceIdeal.S64, .f32⟩ : BufTy).Contents (Elt Ideal)) (be1 : (⟨Cert.ReferenceIdeal.S64, .f32⟩ : BufTy).Contents (Elt Ideal)) (m1 : (⟨Cert.ReferenceIdeal.S64, .f32⟩ : BufTy).Contents (Elt Ideal)) (v1 : (⟨Cert.ReferenceIdeal.S64, .f32⟩ : BufTy).Contents (Elt Ideal)) (w1b : (⟨Cert.ReferenceIdeal.S64x64, .f32⟩ : BufTy).Contents (Elt Ideal)) (b1b : (⟨Cert.ReferenceIdeal.S64, .f32⟩ : BufTy).Contents (Elt Ideal))
    (wc : (⟨Cert.ReferenceIdeal.S64x10, .f32⟩ : BufTy).Contents (Elt Ideal)) (bc : (⟨Cert.ReferenceIdeal.S10, .f32⟩ : BufTy).Contents (Elt Ideal))
    (hh2 : ∀ (t : Fin cfg1.N) (r : Fin 10000) (j : Fin 64),
      h2blk V c t (ix2 r j) = Cert.ReferenceIdeal.Read.val_main_v74 (F := Ideal) X ei w0a b0a g0 be0 m0 v0 w0b b0b w1a b1a g1 be1 m1 v1 w1b b1b (ix2 (row (tile1 t) r) j))
    (hbt : ∀ (t : Fin cfg1.N) (r : Fin 10000), iblk1 V c 2 t (ix2 r (0 : Fin 1)) = bt (ix1 (row (tile1 t) r)))
    (hwc : ∀ (k : Fin 64) (k' : Fin 10), iblk1 V c 9 t9 (ix2 k k') = wc (ix2 k k'))
    (hbc : ∀ k : Fin 10, iblk1 V c 10 t9 (ix2 (0 : Fin 1) k) = bc (ix1 k))
    (g : Fin 512) (k : Fin 10) :
    out1_11 V c t9 (ix2 g k) = Cert.ReferenceIdeal.Read.val_main_v90 (F := Ideal) X ei bt w0a b0a g0 be0 m0 v0 w0b b0b w1a b1a g1 be1 m1 v1 w1b b1b wc bc (ix2 g k) := by
  have hS : ∀ q : Fin 64, (accAt1 V c t9.val t9.isLt).1 (ix2 g q)
      = Cert.ReferenceIdeal.Read.val_main_v77 (F := Ideal) X ei bt w0a b0a g0 be0 m0 v0 w0b b0b w1a b1a g1 be1 m1 v1 w1b b1b (ix2 g q) := fun q => by
    rw [pool_acc_sums_last V c (Cert.ReferenceIdeal.Read.val_main_v74 (F := Ideal) X ei w0a b0a g0 be0 m0 v0 w0b b0b w1a b1a g1 be1 m1 v1 w1b b1b) bt hh2 hbt g q,
      pool_sum_ohw_mul bt g (fun n => (Cert.ReferenceIdeal.Read.val_main_v74 (F := Ideal) X ei w0a b0a g0 be0 m0 v0 w0b b0b w1a b1a g1 be1 m1 v1 w1b b1b) (ix2 n q))]
    exact (pool_ref_scatter_rows bt (Cert.ReferenceIdeal.Read.val_main_v74 (F := Ideal) X ei w0a b0a g0 be0 m0 v0 w0b b0b w1a b1a g1 be1 m1 v1 w1b b1b) g q).symm
  have hC : (accAt1 V c t9.val t9.isLt).2 (ix2 g (0 : Fin 1)) = Cert.ReferenceIdeal.Read.val_main_v81 (F := Ideal) bt (ix1 g) := by
    rw [pool_acc_counts_last V c bt hbt g, pool_sum_ohw bt g, pool_ref_scatter_ones bt g]
  refine ((pool_pay4_apply (accAt1 V c t9.val t9.isLt).1 (accAt1 V c t9.val t9.isLt).2 (iblk1 V c 9 t9) (iblk1 V c 10 t9) g k).trans ?_).trans
    (pool_ref_final X ei bt w0a b0a g0 be0 m0 v0 w0b b0b w1a b1a g1 be1 m1 v1 w1b b1b wc bc g k).symm
  rw [hC, hbc k]
  refine congrArg (· + bc (ix1 k)) (Finset.sum_congr rfl fun q _ => ?_)
  rw [hS q, hwc q k]

end Cert.GinVal

end
-- ==== Proof.Val.Bridge.lean ====
/-
  The kernel's result is the reference's. The first region's output array is the reference's first-block output, row by
  row of every tile; hence the two aggregations of it agree; hence each tile's second-block features are the reference's at
  the tile's rows; hence the pooled, classified output block the last grid point stores is the reference's result.
-/
import proofs.«417148_j34376918237439_2_alg».proof.Proof.Val.CommonK
import proofs.«417148_j34376918237439_2_alg».proof.Proof.Hand.Run
import proofs.«417148_j34376918237439_2_alg».proof.Proof.Val.Pre
import proofs.«417148_j34376918237439_2_alg».proof.Proof.Val.HostVals0
import proofs.«417148_j34376918237439_2_alg».proof.Proof.Val.HostVals1
import proofs.«417148_j34376918237439_2_alg».proof.Proof.Val.Layer
import proofs.«417148_j34376918237439_2_alg».proof.Proof.Val.Pool
import Idealize.ShloMosaic.Lib.Pipeline.Value
import Idealize.ShloMosaic.Lib.ValueLayout

set_option maxRecDepth 16384

noncomputable section

namespace Cert.GinVal

open Cert.KernelIdeal Cert.KernelIdeal.Gen Cert.KernelIdeal.GenP Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A tile number as a grid point of the first region. -/
def pt0 (t : Fin 10) : Fin cfg0.N := ⟨t.val, lt_of_lt_of_eq t.isLt N_0.symm⟩

theorem tile0_pt0 (t : Fin 10) : tile0 (pt0 t) = t := Fin.ext rfl

/-- The first region's output array, entry by entry, is the reference's first-block output. -/
theorem h1_apply (c : Dev nD) (hP : ParamsOk m c) (n : Fin 100000) (j : Fin 64) :
    (dat0 (E1 m) c).arrAt 8 cfg0.N (ix2 n j) = Cert.ReferenceIdeal.Read.val_main_v39 (F := Ideal) (A0 m c) (A1 m c) (A3 m c) (A4 m c) (A5 m c) (A6 m c) (A7 m c) (A8 m c) (A9 m c) (A10 m c) (ix2 n j) := by
  obtain ⟨t, r, rfl⟩ := row_surj n
  have e := arr0 m c (pt0 t) r j
  rw [tile0_pt0] at e
  rw [e]
  have h := layer0_apply (A0 m c) (A1 m c) (A3 m c) (A4 m c) (A5 m c) (A6 m c) (A7 m c) (A8 m c) (A9 m c) (A10 m c) hP.g0 hP.be0 hP.m0 hP.v0 (tile0 (pt0 t))
    (iblk0 (E1 m) c 0 (pt0 t)) (iblk0 (E1 m) c 1 (pt0 t)) (iblk0 (E1 m) c 2 (pt0 t)) (iblk0 (E1 m) c 3 (pt0 t))
    (iblk0 (E1 m) c 4 (pt0 t)) (iblk0 (E1 m) c 5 (pt0 t)) (iblk0 (E1 m) c 6 (pt0 t)) (iblk0 (E1 m) c 7 (pt0 t))
    (blk0_0 m c (pt0 t)) (blk0_1 m c (pt0 t)) (blk0_2 m c (pt0 t)) (blk0_3 m c (pt0 t)) (blk0_4 m c (pt0 t)) (blk0_5 m c (pt0 t))
    (blk0_6 m c (pt0 t)) (blk0_7 m c (pt0 t)) r j
  rw [tile0_pt0] at h
  exact h

/-- The same as an equation of arrays. -/
theorem h1_eq (c : Dev nD) (hP : ParamsOk m c) :
    ((dat0 (E1 m) c).arrAt 8 cfg0.N : (⟨Cert.ReferenceIdeal.S100000x64, .f32⟩ : BufTy).Contents (Elt Ideal))
      = Cert.ReferenceIdeal.Read.val_main_v39 (F := Ideal) (A0 m c) (A1 m c) (A3 m c) (A4 m c) (A5 m c) (A6 m c) (A7 m c) (A8 m c) (A9 m c) (A10 m c) := by
  funext i
  obtain ⟨n, j, rfl⟩ : ∃ (n : Fin 100000) (j : Fin 64), i = ix2 n j := ⟨i 0, i 1, eq_ix2 i⟩
  exact h1_apply m c hP n j

/-- Each tile's second-block features are the reference's at the tile's rows. -/
theorem h2_apply (c : Dev nD) (hP : ParamsOk m c) (t : Fin cfg1.N) (r : Fin 10000) (j : Fin 64) :
    h2blk (E3 m) c t (ix2 r j) = Cert.ReferenceIdeal.Read.val_main_v74 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (ix2 (row (tile1 t) r) j) := by
  unfold h2blk
  refine layer1_apply (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) hP.g1 hP.be1 hP.m1 hP.v1 (tile1 t)
    (iblk1 (E3 m) c 0 t) (iblk1 (E3 m) c 1 t) (iblk1 (E3 m) c 3 t) (iblk1 (E3 m) c 4 t)
    (iblk1 (E3 m) c 5 t) (iblk1 (E3 m) c 6 t) (iblk1 (E3 m) c 7 t) (iblk1 (E3 m) c 8 t)
    (fun r k => (blk1_0 m c t r k).trans (h1_apply m c hP _ k))
    (fun r k => (blk1_1 m c t r k).trans (by rw [h1_eq m c hP]))
    (blk1_3 m c t) (blk1_4 m c t) (blk1_5 m c t) (blk1_6 m c t) (blk1_7 m c t) (blk1_8 m c t) r j

/-- The result array at the end of the run is the reference's result of the same arguments. -/
theorem kernel_value (c : Dev nD) (hP : ParamsOk m c) :
    (GenP.V4 m (outs m) c (Proc.devRef .tc main_v0) : (⟨Cert.ReferenceIdeal.S512x10, .f32⟩ : BufTy).Contents (Elt Ideal))
      = Cert.ReferenceIdeal.Read.val_main_v90 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) := by
  rw [V4_result m c]
  funext i
  obtain ⟨g, k, rfl⟩ : ∃ (g : Fin 512) (k : Fin 10), i = ix2 g k := ⟨i 0, i 1, eq_ix2 i⟩
  rw [arr1 m c g k]
  exact pool_final (E3 m) c (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (h2_apply m c hP) (blk1_2 m c) (blk1_9 m c t9) (blk1_10 m c t9) g k

end Cert.GinVal

end
-- ==== Proof.lean ====
/-
  The certificate of a two-layer GIN network against its jnp reference.

  Both programs aggregate each node's neighbours by a gather and a scatter-add, pass x + agg through Linear, BatchNorm (eval),
  ReLU, Linear, twice, mean-pool the nodes of each graph and apply a linear classifier. The kernel folds each BatchNorm into
  a scale g·rsqrt(v + ε) and a shift β − μ·(g·rsqrt(v + ε)) on the host, runs the two MLP blocks as Pallas kernels over
  tiles of 10000 nodes, and pools inside the second kernel by a one-hot product accumulated over the ten tiles in scratch
  memory, dividing and classifying at the last tile. The reference keeps BatchNorm as (z − μ)·rsqrt(v + ε)·g + β and pools
  by scatter-adds at the batch ids.

  Frames: the run of @main — host operations, first region, host operations, second region — is followed with every
  unscoped buffer at a known valuation between the items; the arguments are never written. Value: with the BatchNorm
  parameters real and the variances non-negative (the precondition), the folded and unfolded BatchNorm agree on every
  extended real, every other operation is the same sum or maximum on both sides, and a one-hot weighted sum over all tiles
  is the scatter-add at the batch ids; so the kernel's result array is the reference's result of the same arguments.
-/
import proofs.«417148_j34376918237439_2_alg».proof.Defs
import proofs.«417148_j34376918237439_2_alg».proof.Proof.Gen.Kernel
import proofs.«417148_j34376918237439_2_alg».proof.Proof.Gen.KernelIdeal
import proofs.«417148_j34376918237439_2_alg».proof.Proof.Gen.ReferenceIdeal
import proofs.«417148_j34376918237439_2_alg».proof.Proof.Gen.Pre_finite_inputs
import proofs.«417148_j34376918237439_2_alg».proof.Proof.Gen.ReferenceIdeal.Read
import proofs.«417148_j34376918237439_2_alg».proof.Proof.Hand.Run
import proofs.«417148_j34376918237439_2_alg».proof.Proof.HandBits.Run
import proofs.«417148_j34376918237439_2_alg».proof.Proof.Val.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end with its arguments unchanged: each argument read off the last valuation. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun r h c =>
    ⟨(h c _ (Finset.mem_filter.mpr ⟨StableHlo.devRef_mem_tcRefs Cert.Kernel.main_arg0, by decide⟩)).trans (Cert.Kernel.GenP.V4_main_arg0 m (Cert.Kernel.Hand.outs m) c),
      (h c _ (Finset.mem_filter.mpr ⟨StableHlo.devRef_mem_tcRefs Cert.Kernel.main_arg1, by decide⟩)).trans (Cert.Kernel.GenP.V4_main_arg1 m (Cert.Kernel.Hand.outs m) c),
      (h c _ (Finset.mem_filter.mpr ⟨StableHlo.devRef_mem_tcRefs Cert.Kernel.main_arg2, by decide⟩)).trans (Cert.Kernel.GenP.V4_main_arg2 m (Cert.Kernel.Hand.outs m) c),
      (h c _ (Finset.mem_filter.mpr ⟨StableHlo.devRef_mem_tcRefs Cert.Kernel.main_arg3, by decide⟩)).trans (Cert.Kernel.GenP.V4_main_arg3 m (Cert.Kernel.Hand.outs m) c),
      (h c _ (Finset.mem_filter.mpr ⟨StableHlo.devRef_mem_tcRefs Cert.Kernel.main_arg4, by decide⟩)).trans (Cert.Kernel.GenP.V4_main_arg4 m (Cert.Kernel.Hand.outs m) c),
      (h c _ (Finset.mem_filter.mpr ⟨StableHlo.devRef_mem_tcRefs Cert.Kernel.main_arg5, by decide⟩)).trans (Cert.Kernel.GenP.V4_main_arg5 m (Cert.Kernel.Hand.outs m) c),
      (h c _ (Finset.mem_filter.mpr ⟨StableHlo.devRef_mem_tcRefs Cert.Kernel.main_arg6, by decide⟩)).trans (Cert.Kernel.GenP.V4_main_arg6 m (Cert.Kernel.Hand.outs m) c),
      (h c _ (Finset.mem_filter.mpr ⟨StableHlo.devRef_mem_tcRefs Cert.Kernel.main_arg7, by decide⟩)).trans (Cert.Kernel.GenP.V4_main_arg7 m (Cert.Kernel.Hand.outs m) c),
      (h c _ (Finset.mem_filter.mpr ⟨StableHlo.devRef_mem_tcRefs Cert.Kernel.main_arg8, by decide⟩)).trans (Cert.Kernel.GenP.V4_main_arg8 m (Cert.Kernel.Hand.outs m) c),
      (h c _ (Finset.mem_filter.mpr ⟨StableHlo.devRef_mem_tcRefs Cert.Kernel.main_arg9, by decide⟩)).trans (Cert.Kernel.GenP.V4_main_arg9 m (Cert.Kernel.Hand.outs m) c),
      (h c _ (Finset.mem_filter.mpr ⟨StableHlo.devRef_mem_tcRefs Cert.Kernel.main_arg10, by decide⟩)).trans (Cert.Kernel.GenP.V4_main_arg10 m (Cert.Kernel.Hand.outs m) c),
      (h c _ (Finset.mem_filter.mpr ⟨StableHlo.devRef_mem_tcRefs Cert.Kernel.main_arg11, by decide⟩)).trans (Cert.Kernel.GenP.V4_main_arg11 m (Cert.Kernel.Hand.outs m) c),
      (h c _ (Finset.mem_filter.mpr ⟨StableHlo.devRef_mem_tcRefs Cert.Kernel.main_arg12, by decide⟩)).trans (Cert.Kernel.GenP.V4_main_arg12 m (Cert.Kernel.Hand.outs m) c),
      (h c _ (Finset.mem_filter.mpr ⟨StableHlo.devRef_mem_tcRefs Cert.Kernel.main_arg13, by decide⟩)).trans (Cert.Kernel.GenP.V4_main_arg13 m (Cert.Kernel.Hand.outs m) c),
      (h c _ (Finset.mem_filter.mpr ⟨StableHlo.devRef_mem_tcRefs Cert.Kernel.main_arg14, by decide⟩)).trans (Cert.Kernel.GenP.V4_main_arg14 m (Cert.Kernel.Hand.outs m) c),
      (h c _ (Finset.mem_filter.mpr ⟨StableHlo.devRef_mem_tcRefs Cert.Kernel.main_arg15, by decide⟩)).trans (Cert.Kernel.GenP.V4_main_arg15 m (Cert.Kernel.Hand.outs m) c),
      (h c _ (Finset.mem_filter.mpr ⟨StableHlo.devRef_mem_tcRefs Cert.Kernel.main_arg16, by decide⟩)).trans (Cert.Kernel.GenP.V4_main_arg16 m (Cert.Kernel.Hand.outs m) c),
      (h c _ (Finset.mem_filter.mpr ⟨StableHlo.devRef_mem_tcRefs Cert.Kernel.main_arg17, by decide⟩)).trans (Cert.Kernel.GenP.V4_main_arg17 m (Cert.Kernel.Hand.outs m) c),
      (h c _ (Finset.mem_filter.mpr ⟨StableHlo.devRef_mem_tcRefs Cert.Kernel.main_arg18, by decide⟩)).trans (Cert.Kernel.GenP.V4_main_arg18 m (Cert.Kernel.Hand.outs m) c),
      (h c _ (Finset.mem_filter.mpr ⟨StableHlo.devRef_mem_tcRefs Cert.Kernel.main_arg19, by decide⟩)).trans (Cert.Kernel.GenP.V4_main_arg19 m (Cert.Kernel.Hand.outs m) c),
      (h c _ (Finset.mem_filter.mpr ⟨StableHlo.devRef_mem_tcRefs Cert.Kernel.main_arg20, by decide⟩)).trans (Cert.Kernel.GenP.V4_main_arg20 m (Cert.Kernel.Hand.outs m) c)⟩)
    (Cert.Kernel.Hand.run_all (F := Bits) m ρ)

/-- The same for the idealized program. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c =>
    ⟨(h c _ (Finset.mem_filter.mpr ⟨StableHlo.devRef_mem_tcRefs Cert.KernelIdeal.main_arg0, by decide⟩)).trans (Cert.KernelIdeal.GenP.V4_main_arg0 m (Cert.KernelIdeal.Hand.outs m) c),
      (h c _ (Finset.mem_filter.mpr ⟨StableHlo.devRef_mem_tcRefs Cert.KernelIdeal.main_arg1, by decide⟩)).trans (Cert.KernelIdeal.GenP.V4_main_arg1 m (Cert.KernelIdeal.Hand.outs m) c),
      (h c _ (Finset.mem_filter.mpr ⟨StableHlo.devRef_mem_tcRefs Cert.KernelIdeal.main_arg2, by decide⟩)).trans (Cert.KernelIdeal.GenP.V4_main_arg2 m (Cert.KernelIdeal.Hand.outs m) c),
      (h c _ (Finset.mem_filter.mpr ⟨StableHlo.devRef_mem_tcRefs Cert.KernelIdeal.main_arg3, by decide⟩)).trans (Cert.KernelIdeal.GenP.V4_main_arg3 m (Cert.KernelIdeal.Hand.outs m) c),
      (h c _ (Finset.mem_filter.mpr ⟨StableHlo.devRef_mem_tcRefs Cert.KernelIdeal.main_arg4, by decide⟩)).trans (Cert.KernelIdeal.GenP.V4_main_arg4 m (Cert.KernelIdeal.Hand.outs m) c),
      (h c _ (Finset.mem_filter.mpr ⟨StableHlo.devRef_mem_tcRefs Cert.KernelIdeal.main_arg5, by decide⟩)).trans (Cert.KernelIdeal.GenP.V4_main_arg5 m (Cert.KernelIdeal.Hand.outs m) c),
      (h c _ (Finset.mem_filter.mpr ⟨StableHlo.devRef_mem_tcRefs Cert.KernelIdeal.main_arg6, by decide⟩)).trans (Cert.KernelIdeal.GenP.V4_main_arg6 m (Cert.KernelIdeal.Hand.outs m) c),
      (h c _ (Finset.mem_filter.mpr ⟨StableHlo.devRef_mem_tcRefs Cert.KernelIdeal.main_arg7, by decide⟩)).trans (Cert.KernelIdeal.GenP.V4_main_arg7 m (Cert.KernelIdeal.Hand.outs m) c),
      (h c _ (Finset.mem_filter.mpr ⟨StableHlo.devRef_mem_tcRefs Cert.KernelIdeal.main_arg8, by decide⟩)).trans (Cert.KernelIdeal.GenP.V4_main_arg8 m (Cert.KernelIdeal.Hand.outs m) c),
      (h c _ (Finset.mem_filter.mpr ⟨StableHlo.devRef_mem_tcRefs Cert.KernelIdeal.main_arg9, by decide⟩)).trans (Cert.KernelIdeal.GenP.V4_main_arg9 m (Cert.KernelIdeal.Hand.outs m) c),
      (h c _ (Finset.mem_filter.mpr ⟨StableHlo.devRef_mem_tcRefs Cert.KernelIdeal.main_arg10, by decide⟩)).trans (Cert.KernelIdeal.GenP.V4_main_arg10 m (Cert.KernelIdeal.Hand.outs m) c),
      (h c _ (Finset.mem_filter.mpr ⟨StableHlo.devRef_mem_tcRefs Cert.KernelIdeal.main_arg11, by decide⟩)).trans (Cert.KernelIdeal.GenP.V4_main_arg11 m (Cert.KernelIdeal.Hand.outs m) c),
      (h c _ (Finset.mem_filter.mpr ⟨StableHlo.devRef_mem_tcRefs Cert.KernelIdeal.main_arg12, by decide⟩)).trans (Cert.KernelIdeal.GenP.V4_main_arg12 m (Cert.KernelIdeal.Hand.outs m) c),
      (h c _ (Finset.mem_filter.mpr ⟨StableHlo.devRef_mem_tcRefs Cert.KernelIdeal.main_arg13, by decide⟩)).trans (Cert.KernelIdeal.GenP.V4_main_arg13 m (Cert.KernelIdeal.Hand.outs m) c),
      (h c _ (Finset.mem_filter.mpr ⟨StableHlo.devRef_mem_tcRefs Cert.KernelIdeal.main_arg14, by decide⟩)).trans (Cert.KernelIdeal.GenP.V4_main_arg14 m (Cert.KernelIdeal.Hand.outs m) c),
      (h c _ (Finset.mem_filter.mpr ⟨StableHlo.devRef_mem_tcRefs Cert.KernelIdeal.main_arg15, by decide⟩)).trans (Cert.KernelIdeal.GenP.V4_main_arg15 m (Cert.KernelIdeal.Hand.outs m) c),
      (h c _ (Finset.mem_filter.mpr ⟨StableHlo.devRef_mem_tcRefs Cert.KernelIdeal.main_arg16, by decide⟩)).trans (Cert.KernelIdeal.GenP.V4_main_arg16 m (Cert.KernelIdeal.Hand.outs m) c),
      (h c _ (Finset.mem_filter.mpr ⟨StableHlo.devRef_mem_tcRefs Cert.KernelIdeal.main_arg17, by decide⟩)).trans (Cert.KernelIdeal.GenP.V4_main_arg17 m (Cert.KernelIdeal.Hand.outs m) c),
      (h c _ (Finset.mem_filter.mpr ⟨StableHlo.devRef_mem_tcRefs Cert.KernelIdeal.main_arg18, by decide⟩)).trans (Cert.KernelIdeal.GenP.V4_main_arg18 m (Cert.KernelIdeal.Hand.outs m) c),
      (h c _ (Finset.mem_filter.mpr ⟨StableHlo.devRef_mem_tcRefs Cert.KernelIdeal.main_arg19, by decide⟩)).trans (Cert.KernelIdeal.GenP.V4_main_arg19 m (Cert.KernelIdeal.Hand.outs m) c),
      (h c _ (Finset.mem_filter.mpr ⟨StableHlo.devRef_mem_tcRefs Cert.KernelIdeal.main_arg20, by decide⟩)).trans (Cert.KernelIdeal.GenP.V4_main_arg20 m (Cert.KernelIdeal.Hand.outs m) c)⟩)
    (Cert.KernelIdeal.Hand.run_all (F := Ideal) m ρ)

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.Value.run (F := Ideal) m ρ)

/-- The ideal pass rewrote nothing. -/
theorem preserves : Cert.preserves_Kernel_KernelIdeal := trivial

/-- From memories agreeing on the arguments both idealized programs end with the same result array: the kernel's is what
    the second pipeline wrote back, which is the reference's last stage of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.GenP.V4 m (Cert.KernelIdeal.Hand.outs m) c (Proc.devRef .tc Cert.KernelIdeal.main_v0), ?_, ?_⟩
  · exact (θ_run (Cert.KernelIdeal.defs (F := Ideal)) _ _).mono (fun r h c =>
      ⟨h c (Proc.devRef .tc Cert.KernelIdeal.main_v0) (Finset.mem_filter.mpr ⟨StableHlo.devRef_mem_tcRefs Cert.KernelIdeal.main_v0, by decide⟩),
      (h c _ (Finset.mem_filter.mpr ⟨StableHlo.devRef_mem_tcRefs Cert.KernelIdeal.main_arg0, by decide⟩)).trans (Cert.KernelIdeal.GenP.V4_main_arg0 m (Cert.KernelIdeal.Hand.outs m) c),
      (h c _ (Finset.mem_filter.mpr ⟨StableHlo.devRef_mem_tcRefs Cert.KernelIdeal.main_arg1, by decide⟩)).trans (Cert.KernelIdeal.GenP.V4_main_arg1 m (Cert.KernelIdeal.Hand.outs m) c),
      (h c _ (Finset.mem_filter.mpr ⟨StableHlo.devRef_mem_tcRefs Cert.KernelIdeal.main_arg2, by decide⟩)).trans (Cert.KernelIdeal.GenP.V4_main_arg2 m (Cert.KernelIdeal.Hand.outs m) c),
      (h c _ (Finset.mem_filter.mpr ⟨StableHlo.devRef_mem_tcRefs Cert.KernelIdeal.main_arg3, by decide⟩)).trans (Cert.KernelIdeal.GenP.V4_main_arg3 m (Cert.KernelIdeal.Hand.outs m) c),
      (h c _ (Finset.mem_filter.mpr ⟨StableHlo.devRef_mem_tcRefs Cert.KernelIdeal.main_arg4, by decide⟩)).trans (Cert.KernelIdeal.GenP.V4_main_arg4 m (Cert.KernelIdeal.Hand.outs m) c),
      (h c _ (Finset.mem_filter.mpr ⟨StableHlo.devRef_mem_tcRefs Cert.KernelIdeal.main_arg5, by decide⟩)).trans (Cert.KernelIdeal.GenP.V4_main_arg5 m (Cert.KernelIdeal.Hand.outs m) c),
      (h c _ (Finset.mem_filter.mpr ⟨StableHlo.devRef_mem_tcRefs Cert.KernelIdeal.main_arg6, by decide⟩)).trans (Cert.KernelIdeal.GenP.V4_main_arg6 m (Cert.KernelIdeal.Hand.outs m) c),
      (h c _ (Finset.mem_filter.mpr ⟨StableHlo.devRef_mem_tcRefs Cert.KernelIdeal.main_arg7, by decide⟩)).trans (Cert.KernelIdeal.GenP.V4_main_arg7 m (Cert.KernelIdeal.Hand.outs m) c),
      (h c _ (Finset.mem_filter.mpr ⟨StableHlo.devRef_mem_tcRefs Cert.KernelIdeal.main_arg8, by decide⟩)).trans (Cert.KernelIdeal.GenP.V4_main_arg8 m (Cert.KernelIdeal.Hand.outs m) c),
      (h c _ (Finset.mem_filter.mpr ⟨StableHlo.devRef_mem_tcRefs Cert.KernelIdeal.main_arg9, by decide⟩)).trans (Cert.KernelIdeal.GenP.V4_main_arg9 m (Cert.KernelIdeal.Hand.outs m) c),
      (h c _ (Finset.mem_filter.mpr ⟨StableHlo.devRef_mem_tcRefs Cert.KernelIdeal.main_arg10, by decide⟩)).trans (Cert.KernelIdeal.GenP.V4_main_arg10 m (Cert.KernelIdeal.Hand.outs m) c),
      (h c _ (Finset.mem_filter.mpr ⟨StableHlo.devRef_mem_tcRefs Cert.KernelIdeal.main_arg11, by decide⟩)).trans (Cert.KernelIdeal.GenP.V4_main_arg11 m (Cert.KernelIdeal.Hand.outs m) c),
      (h c _ (Finset.mem_filter.mpr ⟨StableHlo.devRef_mem_tcRefs Cert.KernelIdeal.main_arg12, by decide⟩)).trans (Cert.KernelIdeal.GenP.V4_main_arg12 m (Cert.KernelIdeal.Hand.outs m) c),
      (h c _ (Finset.mem_filter.mpr ⟨StableHlo.devRef_mem_tcRefs Cert.KernelIdeal.main_arg13, by decide⟩)).trans (Cert.KernelIdeal.GenP.V4_main_arg13 m (Cert.KernelIdeal.Hand.outs m) c),
      (h c _ (Finset.mem_filter.mpr ⟨StableHlo.devRef_mem_tcRefs Cert.KernelIdeal.main_arg14, by decide⟩)).trans (Cert.KernelIdeal.GenP.V4_main_arg14 m (Cert.KernelIdeal.Hand.outs m) c),
      (h c _ (Finset.mem_filter.mpr ⟨StableHlo.devRef_mem_tcRefs Cert.KernelIdeal.main_arg15, by decide⟩)).trans (Cert.KernelIdeal.GenP.V4_main_arg15 m (Cert.KernelIdeal.Hand.outs m) c),
      (h c _ (Finset.mem_filter.mpr ⟨StableHlo.devRef_mem_tcRefs Cert.KernelIdeal.main_arg16, by decide⟩)).trans (Cert.KernelIdeal.GenP.V4_main_arg16 m (Cert.KernelIdeal.Hand.outs m) c),
      (h c _ (Finset.mem_filter.mpr ⟨StableHlo.devRef_mem_tcRefs Cert.KernelIdeal.main_arg17, by decide⟩)).trans (Cert.KernelIdeal.GenP.V4_main_arg17 m (Cert.KernelIdeal.Hand.outs m) c),
      (h c _ (Finset.mem_filter.mpr ⟨StableHlo.devRef_mem_tcRefs Cert.KernelIdeal.main_arg18, by decide⟩)).trans (Cert.KernelIdeal.GenP.V4_main_arg18 m (Cert.KernelIdeal.Hand.outs m) c),
      (h c _ (Finset.mem_filter.mpr ⟨StableHlo.devRef_mem_tcRefs Cert.KernelIdeal.main_arg19, by decide⟩)).trans (Cert.KernelIdeal.GenP.V4_main_arg19 m (Cert.KernelIdeal.Hand.outs m) c),
      (h c _ (Finset.mem_filter.mpr ⟨StableHlo.devRef_mem_tcRefs Cert.KernelIdeal.main_arg20, by decide⟩)).trans (Cert.KernelIdeal.GenP.V4_main_arg20 m (Cert.KernelIdeal.Hand.outs m) c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v90_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
    exact (Cert.GinVal.kernel_value m c (Cert.GinVal.params_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
